-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1376 : Shape := ⟨2, ![4096, 1376]⟩
abbrev S32x11008 : Shape := ⟨2, ![32, 11008]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg2 : IVec S32x11008 32) (main_v13 : IVec S_ 1) (main_v15 : IVec S32x11008 1) (main_c_5 : IVec S_ 1) : IVec S_ 1 :=
  let main_v16 : IVec S_ 1 := (fun x v => Host.reduce IntOp.andi x v reducesTo_S32x11008_S_d0_1 h_S_) main_v15 main_c_5
  let main_v17 : IVec S_ 1 := andi main_v13 main_v16
  let main_c_6 : IVec S_ 32 := constantI S_ 32 16#32
  let main_v18 : IVec S32x11008 32 := broadcastInDim S32x11008 ![] bcast_S_S32x11008 main_c_6
  let main_v19 : IVec S32x11008 1 := cmpi .slt main_arg2 main_v18
  let main_c_7 : IVec S_ 1 := constantI S_ 1 1#1
  let main_v20 : IVec S_ 1 := (fun x v => Host.reduce IntOp.andi x v reducesTo_S32x11008_S_d0_1 h_S_) main_v19 main_c_7
  let main_v21 : IVec S_ 1 := andi main_v17 main_v20
  main_v21

def fn {F : FTy → Type} [FloatOps F] (main_arg0 : FVec F S4096x4096 .f32) (main_arg1 : IVec S4096x1376 32) (main_arg2 : IVec S32x11008 32) (main_arg3 : FVec F S32x11008 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_c_4 : IVec S_ 32 := constantI S_ 32 0#32
  let main_v14 : IVec S32x11008 32 := broadcastInDim S32x11008 ![] bcast_S_S32x11008 main_c_4
  let main_v15 : IVec S32x11008 1 := cmpi .sge main_arg2 main_v14
  let main_c_5 : IVec S_ 1 := constantI S_ 1 1#1
  fn_part1 (F := F) main_arg2 main_v13 main_v15 main_c_5
-- ==== Kernel.lean ====
abbrev S4096x4096 : Shape := ⟨2, ![4096, 4096]⟩
abbrev S4096x1376 : Shape := ⟨2, ![4096, 1376]⟩
abbrev S32x11008 : Shape := ⟨2, ![32, 11008]⟩
abbrev S11008 : Shape := ⟨1, ![11008]⟩
abbrev S4096x11008 : Shape := ⟨2, ![4096, 11008]⟩
abbrev S1024x128 : Shape := ⟨2, ![1024, 128]⟩
abbrev S8x1024 : Shape := ⟨2, ![8, 1024]⟩
abbrev S1024x1024 : Shape := ⟨2, ![1024, 1024]⟩
abbrev S128x128 : Shape := ⟨2, ![128, 128]⟩
abbrev S1x1024 : Shape := ⟨2, ![1, 1024]⟩
abbrev S1024 : Shape := ⟨1, ![1024]⟩
abbrev S1x1x8 : Shape := ⟨3, ![1, 1, 8]⟩
abbrev S128x128x1 : Shape := ⟨3, ![128, 128, 1]⟩
abbrev S128x128x8 : Shape := ⟨3, ![128, 128, 8]⟩
abbrev S128x1024 : Shape := ⟨2, ![128, 1024]⟩
abbrev S1x11008 : Shape := ⟨2, ![1, 11008]⟩
abbrev S512x1024 : Shape := ⟨2, ![512, 1024]⟩
abbrev S1024x2048 : Shape := ⟨2, ![1024, 2048]⟩
abbrev S1x2048 : Shape := ⟨2, ![1, 2048]⟩
abbrev S512x2048 : Shape := ⟨2, ![512, 2048]⟩

abbrev nBuf : Space → Nat
  | .hbm => 9
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096x1376, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S4096x11008, .bf16⟩
  | .hbm, ⟨6, _⟩ => ⟨S4096x4096, .bf16⟩
  | .hbm, ⟨7, _⟩ => ⟨S1x11008, .f32⟩
  | .hbm, ⟨8, _⟩ => ⟨S4096x11008, .f32⟩
  | .local _ .vmem, ⟨0, _⟩ => ⟨S1024x128, .i32⟩
  | .local _ .vmem, ⟨1, _⟩ => ⟨S1024x128, .i32⟩
  | .local _ .vmem, ⟨2, _⟩ => ⟨S8x1024, .i32⟩
  | .local _ .vmem, ⟨3, _⟩ => ⟨S8x1024, .i32⟩
  | .local _ .vmem, ⟨4, _⟩ => ⟨S8x1024, .f32⟩
  | .local _ .vmem, ⟨5, _⟩ => ⟨S8x1024, .f32⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x2048, .bf16⟩
  | .local _ .vmem, ⟨11, _⟩ => ⟨S1024x2048, .bf16⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 11], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v1 : BitVec 32 := Scalar.muli arg6 c128_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v1 : BitVec 32 := Scalar.muli arg6 c128_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let v5 : Index := Scalar.indexCast arg6
  let c0_1 : Index := 0#32
  ![v5.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v1 : BitVec 32 := Scalar.muli arg6 c128_i32
  let v2 : BitVec 32 := v1
  let v30 : Index := Scalar.indexCast v2
  let c0_3 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 6, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  h_S128x128 : 0 < S128x128.numel
  h_S1x1024 : 0 < S1x1024.numel
  shapeCasts_S1x1024_S1024 : S1x1024.ShapeCasts S1024
  iota_S1x1x8_d2_w32 : S1x1x8.Iotas .tc 32 [2]
  shapeCasts_S128x128_S128x128x1 : S128x128.ShapeCasts S128x128x1
  broadcasts_S128x128x1_S128x128x8 : S128x128x1.Broadcasts S128x128x8
  broadcasts_S1x1x8_S128x128x8 : S1x1x8.Broadcasts S128x128x8
  shapeCasts_S128x128x8_S128x1024 : S128x128x8.ShapeCasts S128x1024
  shapeCasts_S1024_S1x1024 : S1024.ShapeCasts S1x1024
  broadcasts_S1x1024_S128x1024 : S1x1024.Broadcasts S128x1024
  bitsLt_bf16_f32 : FTy.bits .bf16 < FTy.bits .f32
  h_S128x1024 : 0 < S128x1024.numel
  shapeCasts_S11008_S1x11008 : S11008.ShapeCasts S1x11008
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x1024_S1024x2048_S512x2048_1_0_0_1_n_n_wf : DotDims.WF S512x1024 S1024x2048 S512x2048 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S1024x128.size a
  k0_off2_inb : ∀ k0_t1 : Fin k0_t1_loop.trips, ∀ a, (k0_off2 k0_t1) a + S1x1024.size a ≤ S8x1024.size a
  k0_off3_inb : ∀ k0_t1 : Fin k0_t1_loop.trips, ∀ a, (k0_off3 k0_t1) a + S128x1024.size a ≤ S1024x1024.size a
  k0_off3_packedbf16 : ∀ k0_t1 : Fin k0_t1_loop.trips, (Rect.unit (s := S1024x1024) (k0_off3 k0_t1) S128x1024.size (k0_off3_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x128.size a < S4096x1376.size a
  hwx0_0 : ∀ i : grid0.Coords, EltTy.bits .i32 = 32 ∨ (Rect.unit (s := S4096x1376) (fun a => cc0_transform_0 i a * S1024x128.size a) (fun a => (Pipeline.Clip.of (cc0_transform_0 i a) (S1024x128.size a) (S4096x1376.size a)).extent (S1024x128.size a)) fun a => Pipeline.Clip.inb (Pipeline.Clip.ok_of (hstart0_0 i a))).WholeWords (EltTy.packing .i32)
  hwxs0_0 : ∀ i : grid0.Coords, EltTy.bits .i32 = 32 ∨ (Rect.unit (s := S1024x128) (fun _ => 0) (fun a => (Pipeline.Clip.of (cc0_transform_0 i a) (S1024x128.size a) (S4096x1376.size a)).extent (S1024x128.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8x1024.size a < S32x11008.size a
  hwx0_1 : ∀ i : grid0.Coords, EltTy.bits .i32 = 32 ∨ (Rect.unit (s := S32x11008) (fun a => cc0_transform_1 i a * S8x1024.size a) (fun a => (Pipeline.Clip.of (cc0_transform_1 i a) (S8x1024.size a) (S32x11008.size a)).extent (S8x1024.size a)) fun a => Pipeline.Clip.inb (Pipeline.Clip.ok_of (hstart0_1 i a))).WholeWords (EltTy.packing .i32)
  hwxs0_1 : ∀ i : grid0.Coords, EltTy.bits .i32 = 32 ∨ (Rect.unit (s := S8x1024) (fun _ => 0) (fun a => (Pipeline.Clip.of (cc0_transform_1 i a) (S8x1024.size a) (S32x11008.size a)).extent (S8x1024.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x1024.size a < S32x11008.size a
  hwx0_2 : ∀ i : grid0.Coords, EltTy.bits .f32 = 32 ∨ (Rect.unit (s := S32x11008) (fun a => cc0_transform_2 i a * S8x1024.size a) (fun a => (Pipeline.Clip.of (cc0_transform_2 i a) (S8x1024.size a) (S32x11008.size a)).extent (S8x1024.size a)) fun a => Pipeline.Clip.inb (Pipeline.Clip.ok_of (hstart0_2 i a))).WholeWords (EltTy.packing .f32)
  hwxs0_2 : ∀ i : grid0.Coords, EltTy.bits .f32 = 32 ∨ (Rect.unit (s := S8x1024) (fun _ => 0) (fun a => (Pipeline.Clip.of (cc0_transform_2 i a) (S8x1024.size a) (S32x11008.size a)).extent (S8x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S4096x11008.size a
  hwx0_3 : ∀ i : grid0.Coords, EltTy.bits .bf16 = 32 ∨ (Rect.unit (s := S4096x11008) (fun a => cc0_transform_3 i a * S1024x1024.size a) (fun a => (Pipeline.Clip.of (cc0_transform_3 i a) (S1024x1024.size a) (S4096x11008.size a)).extent (S1024x1024.size a)) fun a => Pipeline.Clip.inb (Pipeline.Clip.ok_of (hstart0_3 i a))).WholeWords (EltTy.packing .bf16)
  hwxs0_3 : ∀ i : grid0.Coords, EltTy.bits .bf16 = 32 ∨ (Rect.unit (s := S1024x1024) (fun _ => 0) (fun a => (Pipeline.Clip.of (cc0_transform_3 i a) (S1024x1024.size a) (S4096x11008.size a)).extent (S1024x1024.size a)) fun a => (Nat.zero_add _).trans_le (Pipeline.Clip.extent_le (Pipeline.Clip.ok_of (hstart0_3 i a)))).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x2048.size a < S4096x11008.size a
  hwx1_1 : ∀ i : grid1.Coords, EltTy.bits .bf16 = 32 ∨ (Rect.unit (s := S4096x11008) (fun a => cc1_transform_1 i a * S1024x2048.size a) (fun a => (Pipeline.Clip.of (cc1_transform_1 i a) (S1024x2048.size a) (S4096x11008.size a)).extent (S1024x2048.size a)) fun a => Pipeline.Clip.inb (Pipeline.Clip.ok_of (hstart1_1 i a))).WholeWords (EltTy.packing .bf16)
  hwxs1_1 : ∀ i : grid1.Coords, EltTy.bits .bf16 = 32 ∨ (Rect.unit (s := S1024x2048) (fun _ => 0) (fun a => (Pipeline.Clip.of (cc1_transform_1 i a) (S1024x2048.size a) (S4096x11008.size a)).extent (S1024x2048.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x2048.size a < S1x11008.size a
  hwx1_2 : ∀ i : grid1.Coords, EltTy.bits .f32 = 32 ∨ (Rect.unit (s := S1x11008) (fun a => cc1_transform_2 i a * S1x2048.size a) (fun a => (Pipeline.Clip.of (cc1_transform_2 i a) (S1x2048.size a) (S1x11008.size a)).extent (S1x2048.size a)) fun a => Pipeline.Clip.inb (Pipeline.Clip.ok_of (hstart1_2 i a))).WholeWords (EltTy.packing .f32)
  hwxs1_2 : ∀ i : grid1.Coords, EltTy.bits .f32 = 32 ∨ (Rect.unit (s := S1x2048) (fun _ => 0) (fun a => (Pipeline.Clip.of (cc1_transform_2 i a) (S1x2048.size a) (S1x11008.size a)).extent (S1x2048.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S512x2048.size a < S4096x11008.size a
  hwx1_3 : ∀ i : grid1.Coords, EltTy.bits .f32 = 32 ∨ (Rect.unit (s := S4096x11008) (fun a => cc1_transform_3 i a * S512x2048.size a) (fun a => (Pipeline.Clip.of (cc1_transform_3 i a) (S512x2048.size a) (S4096x11008.size a)).extent (S512x2048.size a)) fun a => Pipeline.Clip.inb (Pipeline.Clip.ok_of (hstart1_3 i a))).WholeWords (EltTy.packing .f32)
  hwxs1_3 : ∀ i : grid1.Coords, EltTy.bits .f32 = 32 ∨ (Rect.unit (s := S512x2048) (fun _ => 0) (fun a => (Pipeline.Clip.of (cc1_transform_3 i a) (S512x2048.size a) (S4096x11008.size a)).extent (S512x2048.size a)) fun a => (Nat.zero_add _).trans_le (Pipeline.Clip.extent_le (Pipeline.Clip.ok_of (hstart1_3 i a)))).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpecClip (Memref.whole main_arg1) S1024x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S8x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg3) S8x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S1024x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v0) S1024x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v2) S1x2048.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v3) S512x2048.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x1376 : Shape := ⟨2, ![4096, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S1x1x8 : Shape := ⟨3, ![1, 1, 8]⟩
abbrev S4096x1376x1 : Shape := ⟨3, ![4096, 1376, 1]⟩
abbrev S4096x1376x8 : Shape := ⟨3, ![4096, 1376, 8]⟩
abbrev S4096x11008 : Shape := ⟨2, ![4096, 11008]⟩
abbrev S32x128x11008 : Shape := ⟨3, ![32, 128, 11008]⟩
abbrev S1x11008 : Shape := ⟨2, ![1, 11008]⟩

abbrev nBuf : Space → Nat
  | .hbm => 29
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1376, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x1x8, .i32⟩
  | .hbm, ⟨10, _⟩ => ⟨S4096x1376x1, .i32⟩
  | .hbm, ⟨11, _⟩ => ⟨S4096x1376x8, .i32⟩
  | .hbm, ⟨12, _⟩ => ⟨S4096x1376x8, .i32⟩
  | .hbm, ⟨13, _⟩ => ⟨S4096x1376x8, .i32⟩
  | .hbm, ⟨14, _⟩ => ⟨S_, .i32⟩
  | .hbm, ⟨15, _⟩ => ⟨S4096x1376x8, .i32⟩
  | .hbm, ⟨16, _⟩ => ⟨S4096x1376x8, .i32⟩
  | .hbm, ⟨17, _⟩ => ⟨S4096x11008, .i32⟩
  | .hbm, ⟨18, _⟩ => ⟨S32x128x11008, .i32⟩
  | .hbm, ⟨19, _⟩ => ⟨S4096x11008, .i32⟩
  | .hbm, ⟨20, _⟩ => ⟨S32x128x11008, .f32⟩
  | .hbm, ⟨21, _⟩ => ⟨S4096x11008, .f32⟩
  | .hbm, ⟨22, _⟩ => ⟨S4096x11008, .i32⟩
  | .hbm, ⟨23, _⟩ => ⟨S4096x11008, .f32⟩
  | .hbm, ⟨24, _⟩ => ⟨S4096x11008, .f32⟩
  | .hbm, ⟨25, _⟩ => ⟨S4096x11008, .f32⟩
  | .hbm, ⟨26, _⟩ => ⟨S1x11008, .f32⟩
  | .hbm, ⟨27, _⟩ => ⟨S4096x11008, .f32⟩
  | .hbm, ⟨28, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x1x8_2 : S8.BroadcastsInDim S1x1x8 (![2] : Fin 1 → Fin S1x1x8.rank)
  bcast_S4096x1376_S4096x1376x1_0_1 : S4096x1376.BroadcastsInDim S4096x1376x1 (![0, 1] : Fin 2 → Fin S4096x1376x1.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.Spec.lean ====
/-
  The mathematics both programs compute, stated once over the argument arrays and imported by every other module.

  A packed word holds eight 4-bit fields; field p of word q is (q >> 4p) & 15 (arithmetic shift: the mask removes the
  sign extension).  The dequantised weight at row r, column c is
      (field (c mod 8) of word (r, c div 8)  −  zero point of group (r div 128), column c) · scale of that group and column,
  both integers converted exactly.  The layer's result at (m, n) is the sum over k of x(m, k) · weight(k, n), plus bias(n).
-/
import Idealize.ShloMosaic.PureOps.Ideal
import Idealize.ShloMosaic.Lib.ValueIdx

noncomputable section

namespace Cert.Spec

open Idealize.ShloMosaic Idealize.ShloMosaic.ValueIdx

/-- Field `p` (0 ≤ p < 8) of a packed 32-bit word: shift right arithmetically by 4p bits, keep the low four. -/
def nibble (q : BitVec 32) (p : Nat) : BitVec 32 := (q.sshiftRight' (BitVec.ofNat 32 (4 * p))) &&& 15#32

/-- The packed weights, 4096 rows of 1376 words. -/
abbrev SQ : Shape := ⟨2, ![4096, 1376]⟩
/-- Zero points and scales: 32 groups of 128 rows, 11008 columns. -/
abbrev SG : Shape := ⟨2, ![32, 11008]⟩
/-- The weights and the result: 4096 × 11008. -/
abbrev SW : Shape := ⟨2, ![4096, 11008]⟩
/-- The activations: 4096 × 4096. -/
abbrev SX : Shape := ⟨2, ![4096, 4096]⟩
/-- The bias as one row. -/
abbrev SB : Shape := ⟨2, ![1, 11008]⟩

/-- Row and column of an index of a 4096 × 11008 array, as numbers below the literal extents. -/
def row (i : SW.Idx) : Fin 4096 := ⟨(i 0).val, (i 0).isLt⟩
def col (i : SW.Idx) : Fin 11008 := ⟨(i 1).val, (i 1).isLt⟩

theorem col_div8_lt (n : Fin 11008) : n.val / 8 < 1376 := by omega
theorem row_div128_lt (r : Fin 4096) : r.val / 128 < 32 := by omega

variable {F : FTy → Type} [FloatOps F]

/-- One dequantised weight from its packed word, its zero point and its scale: (field p − zero point) · scale, each
    integer converted exactly, the product rounded to bf16 (the identity on the extended reals). -/
def deqElt (q z : BitVec 32) (s : F .f32) (p : Nat) : F .bf16 :=
  FloatOps.truncf .bf16 (by decide) (FloatOps.mulf (FloatOps.subf (FloatOps.sitofp .f32 (nibble q p)) (FloatOps.sitofp .f32 z)) s)

/-- The dequantised weight array as ONE function of the three quantisation arrays. -/
def deqArr (Q : SQ.Idx → BitVec 32) (Z : SG.Idx → BitVec 32) (S : SG.Idx → F .f32) : SW.Idx → F .bf16 :=
  fun i => deqElt (Q (ix2 (row i) ⟨(col i).val / 8, col_div8_lt _⟩))
    (Z (ix2 ⟨(row i).val / 128, row_div128_lt _⟩ (col i)))
    (S (ix2 ⟨(row i).val / 128, row_div128_lt _⟩ (col i))) ((col i).val % 8)

/-- The matrix product with the bias row added, over the extended reals: entry (m, n) is the sum over all 4096 k of
    X(m, k) · W(k, n), plus B(0, n). -/
def gemmArr (X : SX.Idx → EReal) (W : SW.Idx → EReal) (B : SB.Idx → EReal) : SW.Idx → EReal :=
  fun i => (∑ k : Fin 4096, X (ix2 (row i) k) * W (ix2 k (col i))) + B (ix2 (0 : Fin 1) (col i))

/-- A sum over 4096 terms is the sum of its four consecutive stretches of 1024. -/
theorem sum_four_stretches (f : Fin 4096 → EReal) :
    ∑ k : Fin 4096, f k = ∑ kb : Fin 4, ∑ kk : Fin 1024, f ⟨kb.val * 1024 + kk.val, by omega⟩ := by
  -- regroup the pairs (kb, kk) as one sum over Fin 4 × Fin 1024, then carry it along the bijection (kb, kk) ↦ kk + 1024 · kb
  rw [← Fintype.sum_prod_type' (f := fun (kb : Fin 4) (kk : Fin 1024) => f ⟨kb.val * 1024 + kk.val, by omega⟩)]
  rw [← (finProdFinEquiv (m := 4) (n := 1024)).sum_comp]
  apply Fintype.sum_congr
  intro x
  congr 1
  apply Fin.ext
  simp [finProdFinEquiv]
  omega

/-- A 4-bit field is a number from 0 to 15. -/
theorem nibble_range (q : BitVec 32) (p : Nat) : 0 ≤ (nibble q p).toInt ∧ (nibble q p).toInt ≤ 15 := by
  -- as a natural number the masked word is at most the mask, 15; so its sign bit is clear and the signed reading is the same number
  have h : (nibble q p).toNat ≤ 15 := by
    unfold nibble
    rw [BitVec.toNat_and]
    exact Nat.and_le_right
  rw [BitVec.toInt_eq_toNat_cond]
  split <;> omega

/-- A 32-bit difference of a number in 0..15 and a number in 0..15 does not wrap: it is the integers' difference. -/
theorem toInt_sub_of_small (a z : BitVec 32) (ha : 0 ≤ a.toInt ∧ a.toInt ≤ 15) (hz : 0 ≤ z.toInt ∧ z.toInt < 16) :
    (a - z).toInt = a.toInt - z.toInt := by
  -- the signed reading of a 32-bit difference is the balanced remainder mod 2^32 of the integers' difference, here in −15..15
  rw [BitVec.toInt_sub]
  have : (2:Int)^32 = 4294967296 := by norm_num
  rw [Int.bmod_def]
  omega

end Cert.Spec

end
-- ==== Proof.KDequantData.lean ====
/-
  The dequantisation call (a 4 × 11 grid of 1024 × 1024 output blocks): what each window's staging buffer holds after
  the body at a grid point, as functions of the arrays the call is entered with.

  Point (k, j) reads rows 1024k.. of the packed words (128 words = 1024 weights wide), the eight group rows 8k.. of
  the zero points and scales, and writes the 1024 × 1024 block (k, j) of the weight array.  11008 = 10·1024 + 768, so
  the last column block overhangs every array; its transfers are cut at the array's end, and past that end a staging
  buffer holds words nothing names.  So every window is stated on its part inside the array only: the input windows
  hold the array's block there, the output window holds the block of the ONE whole-array function `Spec.deqArr`.
-/
import proofs.«425978_j1005022347685_2_alg».proof.Proof.Gen.Kernel.Launch
import proofs.«425978_j1005022347685_2_alg».proof.Proof.Gen.Kernel.Points
import proofs.«425978_j1005022347685_2_alg».proof.Proof.Spec
import Idealize.ShloMosaic.Lib.Pipeline.Kit

noncomputable section

namespace Cert.Kernel.Dequant

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-- The arrays the call's four windows range over (packed words, zero points, scales, weights), at the contents the
    call is entered with. -/
abbrev Arrs (c : Dev nD) : Type :=
  (w : Fin cfg0.W) → Buf (Elt F) ((cfg0.win w).arr.view.loc (c : Thread nD τ))

variable (c : Dev nD) (A : Arrs (F := F) c)

/-- The whole dequantised weight array, as one function of the three input arrays. -/
def weights : Buf (Elt F) ((cfg0.win 3).arr.view.loc (c : Thread nD τ)) :=
  Cert.Spec.deqArr (F := F) (A 0) (A 1) (A 2)

/-- The proof data on core `c`: after the body each input buffer holds its array's block and the output buffer the
    block of `weights`, each on the part inside the array (filled out with a zero word elsewhere, which nothing
    reads); the invariant is the core's other scoped buffers riding along; nothing is owed; full shares. -/
def dat0 : Dat τ (Elt F) Unit ℕ (UR sig nD τ) ℕ cfg0 c where
  A := A
  after w t := match w with
    | ⟨0, _⟩ => win0_0.fill (grid0.coords t) (fun _ => (0#32 : BitVec 32)) ((win0_0.blk t).view.read (Elt F) (A 0))
    | ⟨1, _⟩ => win0_1.fill (grid0.coords t) (fun _ => (0#32 : BitVec 32)) ((win0_1.blk t).view.read (Elt F) (A 1))
    | ⟨2, _⟩ => win0_2.fill (grid0.coords t) (fun _ => Scalar.ofBits .f32 0#32) ((win0_2.blk t).view.read (Elt F) (A 2))
    | ⟨3, _⟩ => win0_3.fill (grid0.coords t) (fun _ => Scalar.ofBits .bf16 0#16) ((win0_3.blk t).view.read (Elt F) (weights c A))
  Φ _ := Pipeline.scopedRest (Ix := Unit) (Name := ℕ) (U := UR sig nD τ) (Lvl := ℕ) (Val := Elt F) spec0 c
  q _ := fullShare
  owed _ := 0

end Cert.Kernel.Dequant

end
-- ==== Proof.KDequantBody.lean ====
/-
  The dequantisation body at one grid point meets its obligation: eight trips, each reading 128 rows of packed words
  and one group row of zero points and scales and writing 128 rows of weights, leave the output buffer holding, on the
  columns inside the array, the block of `Spec.deqArr`; the input buffers are left as found.

  The argument, in order. (1) The value a trip stores, read at (r, cc): the shifts, the mask and the 128 × 128 × 8 →
  128 × 1024 relayout give field cc mod 8 of word (r, cc div 8); with the broadcast zero-point and scale rows that is
  `Spec.deqElt` of the three loaded values. (2) The eight stored row stretches are stretches of ONE function
  `deqBlk` of the three input blocks, and together cover the output block: so after the loop the output buffer reads
  `deqBlk`, whatever it held. (3) On the part of the output block inside the weight array, `deqBlk` of the fetched
  input blocks is `Spec.deqArr` read through the block: the overhangs of the four windows are proportional
  (1376 = 11008 / 8), so an output column inside the weight array reads input words inside their arrays, where the
  fetched blocks hold the arrays' words. (4) The obligation: the three input windows hand back what they found, the
  output window the buffer holding `deqBlk`, which agrees with the stated contents on the part the write-back moves.
-/
import proofs.«425978_j1005022347685_2_alg».proof.Proof.KDequantData
import proofs.«425978_j1005022347685_2_alg».proof.Proof.Gen.Kernel.Skeleton
import proofs.«425978_j1005022347685_2_alg».proof.Proof.Gen.Kernel.Loops
import Idealize.ShloMosaic.Lib.Tactic
import Idealize.ShloMosaic.Lib.ValueLayout
import Idealize.ShloMosaic.Lib.Pipeline.Value

noncomputable section

namespace Cert.Kernel.Dequant

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-! ## The stored value at an index -/

/-- Field p of a word, with the shift amount as the lanes compute it: the lane number p (below 8) times 4 is below
    the word width, so the lanes' arithmetic shift is the plain one by 4p. -/
theorem shr_and_eq_nibble (q : BitVec 32) (p : Fin 8) :
    IntOp.andi (IntOp.shrsi .vector q (IntOp.muli (BitVec.ofNat 32 p.val) 4#32)) 15#32 = Cert.Spec.nibble q p.val := by
  have h : IntOp.muli (BitVec.ofNat 32 p.val) 4#32 = BitVec.ofNat 32 (4 * p.val) := by
    revert p; decide
  have hlt : (BitVec.ofNat 32 (4 * p.val)).toNat < 32 := by
    revert p; decide
  rw [h]; unfold IntOp.shrsi IntOp.andi Cert.Spec.nibble; rw [if_pos hlt]

/-- The stored 128 × 1024 value at row r, column cc: the dequantised weight of field cc mod 8 of word (r, cc div 8)
    with the zero point and scale of column cc. -/
theorem pay_apply (v4 : Vec F S128x128 .i32) (v6 : Vec F S1x1024 .i32) (v10 : Vec F S1x1024 .f32) (r : Fin 128) (cc : Fin 1024) :
    k0_pay1 v4 v6 v10 (ix2 r cc)
      = Cert.Spec.deqElt (v4 (ix2 r ⟨cc.val / 8, by omega⟩)) (v6 (ix2 (0 : Fin 1) cc)) (v10 (ix2 (0 : Fin 1) cc)) (cc.val % 8) := by
  -- the 128 × 128 × 8 array of fields laid out as 128 × 1024: column cc is field cc mod 8 of word cc div 8
  have hsc : ∀ x : S128x128x8.Idx → BitVec 32, shapeCast S128x1024 x shapeCasts_S128x128x8_S128x1024 (ix2 r cc)
      = x (ix3 r (⟨cc.val / 8, by omega⟩ : Fin 128) (⟨cc.val % 8, by omega⟩ : Fin 8)) := fun x =>
    shapeCast_apply x _ _ _ (by
      rw [Shape.rowMajor_val_three, Shape.rowMajor_val_two]
      show (r.val * 128 + cc.val / 8) * 8 + cc.val % 8 = r.val * 1024 + cc.val
      omega)
  -- a word copied along the new last axis
  have hb1 : ∀ (x : S128x128x1.Idx → BitVec 32) (a : Fin 128) (b : Fin 128) (p : Fin 8),
      broadcastTo S128x128x8 x broadcasts_S128x128x1_S128x128x8 (ix3 a b p) = x (ix3 a b (0 : Fin 1)) := fun x a b p =>
    broadcastTo_apply x _ _ _ fun ax => by
      match ax with
      | ⟨0, _⟩ => rfl
      | ⟨1, _⟩ => rfl
      | ⟨2, _⟩ => rfl
  have hc1 : ∀ (a : Fin 128) (b : Fin 128), shapeCast S128x128x1 v4 shapeCasts_S128x128_S128x128x1 (ix3 a b (0 : Fin 1)) = v4 (ix2 a b) := fun a b =>
    shapeCast_apply v4 _ _ _ (by
      rw [Shape.rowMajor_val_three, Shape.rowMajor_val_two]
      show a.val * 128 + b.val = (a.val * 128 + b.val) * 1 + 0
      omega)
  -- the eight shift amounts copied over every word
  have hb2 : ∀ (x : S1x1x8.Idx → BitVec 32) (a : Fin 128) (b : Fin 128) (p : Fin 8),
      broadcastTo S128x128x8 x broadcasts_S1x1x8_S128x128x8 (ix3 a b p) = x (ix3 (0 : Fin 1) (0 : Fin 1) p) := fun x a b p =>
    broadcastTo_apply x _ _ _ fun ax => by
      match ax with
      | ⟨0, _⟩ => rfl
      | ⟨1, _⟩ => rfl
      | ⟨2, _⟩ => rfl
  have hio : ∀ p : Fin 8, iota Kind.tc S1x1x8 32 [2] iota_S1x1x8_d2_w32 (ix3 (0 : Fin 1) (0 : Fin 1) p) = BitVec.ofNat 32 p.val := fun p =>
    iota_single_apply _ _ _ _ _ _
  unfold k0_pay1 Cert.Spec.deqElt
  simp only [truncf, mulf, subf, sitofp]
  rw [broadcastTo_1b_ab_apply, broadcastTo_1b_ab_apply, shapeCast_a_1a_apply, shapeCast_a_1a_apply]
  simp only [sitofp]
  rw [shapeCast_1a_a_apply, shapeCast_1a_a_apply, hsc]
  simp only [andi, shrsi, muli, broadcast]
  rw [hb1, hc1, hb2]
  simp only [muli, broadcast]
  rw [hio, shr_and_eq_nibble]

/-! ## The output block as one function of the three input blocks -/

/-- One whole 1024 × 1024 output block from a block of packed words, of zero points and of scales: at (r, cc) the
    dequantised weight of field cc mod 8 of word (r, cc div 8), with the zero point and scale of group r div 128
    and column cc. -/
def deqBlk (X0 : S1024x128.Idx → Elt F .i32) (X1 : S8x1024.Idx → Elt F .i32) (X2 : S8x1024.Idx → Elt F .f32) :
    S1024x1024.Idx → Elt F .bf16 := fun y =>
  Cert.Spec.deqElt (F := F)
    (X0 (ix2 (⟨(y 0).val, idx2_lt0 y⟩ : Fin 1024) (⟨(y 1).val / 8, by have := idx2_lt1 y; omega⟩ : Fin 128)))
    (X1 (ix2 (⟨(y 0).val / 128, by have := idx2_lt0 y; omega⟩ : Fin 8) (⟨(y 1).val, idx2_lt1 y⟩ : Fin 1024)))
    (X2 (ix2 (⟨(y 0).val / 128, by have := idx2_lt0 y; omega⟩ : Fin 8) (⟨(y 1).val, idx2_lt1 y⟩ : Fin 1024)))
    ((y 1).val % 8)

/-- The loop runs eight trips. -/
theorem trips8 : k0_t1_loop.trips = 8 := by decide +kernel

/-- Trip k reads the packed words from row 128k, -/
theorem off1_eq (k : Fin k0_t1_loop.trips) : k0_off1 k 0 = 128 * k.val ∧ k0_off1 k 1 = 0 := by
  revert k; decide +kernel
/-- the zero points and scales at row k, -/
theorem off2_eq (k : Fin k0_t1_loop.trips) : k0_off2 k 0 = k.val ∧ k0_off2 k 1 = 0 := by
  revert k; decide +kernel
/-- and writes the weights from row 128k. -/
theorem off3_eq (k : Fin k0_t1_loop.trips) : k0_off3 k 0 = 128 * k.val ∧ k0_off3 k 1 = 0 := by
  revert k; decide +kernel

section Pieces

variable (m2 : Memref sig .tc .vmem S1024x128 .i32) (m3 : Memref sig .tc .vmem S8x1024 .i32) (m4 : Memref sig .tc .vmem S8x1024 .f32)
  (f2 : BufTy.Contents (Elt F) m2.view.ty) (f3 : BufTy.Contents (Elt F) m3.view.ty) (f4 : BufTy.Contents (Elt F) m4.view.ty)

/-- What trip k stores: through rows 128k .. 128k + 127 of the output buffer, the value computed from the trip's
    three loads. -/
def pieceOf (k : Fin k0_t1_loop.trips) : View.Piece (Elt F) S1024x1024 .bf16 :=
  ⟨Rect.unit (s := S1024x1024) (k0_off3 k) S128x1024.size (k0_off3_inb k),
    k0_pay1 (View.readAt (Elt F) m2.view (Rect.unit (s := S1024x128) (k0_off1 k) S128x128.size (k0_off1_inb k)).toLoadRect f2)
      (View.readAt (Elt F) m3.view (Rect.unit (s := S8x1024) (k0_off2 k) S1x1024.size (k0_off2_inb k)).toLoadRect f3)
      (View.readAt (Elt F) m4.view (Rect.unit (s := S8x1024) (k0_off2 k) S1x1024.size (k0_off2_inb k)).toLoadRect f4)⟩

/-- Every element of trip k's piece is the block function's: the trip's rows of words, its group row of zero points
    and scales are the ones the block function reads at the piece's rows. -/
theorem piece_agrees (X0 : S1024x128.Idx → Elt F .i32) (X1 : S8x1024.Idx → Elt F .i32) (X2 : S8x1024.Idx → Elt F .f32)
    (hf2 : m2.view.read (Elt F) f2 = X0) (hf3 : m3.view.read (Elt F) f3 = X1) (hf4 : m4.view.read (Elt F) f4 = X2)
    (k : Fin k0_t1_loop.trips) (x : (pieceOf m2 m3 m4 f2 f3 f4 k).1.shape.Idx) :
    (pieceOf m2 m3 m4 f2 f3 f4 k).2 x = deqBlk X0 X1 X2 ((pieceOf m2 m3 m4 f2 f3 f4 k).1.emb x) := by
  have hk : k.val < 8 := lt_of_lt_of_eq k.isLt trips8
  obtain ⟨o10, o11⟩ := off1_eq k
  obtain ⟨o20, o21⟩ := off2_eq k
  obtain ⟨o30, o31⟩ := off3_eq k
  obtain ⟨r, cc, rfl⟩ : ∃ (r : Fin 128) (cc : Fin 1024), x = ix2 r cc := ⟨x 0, x 1, eq_ix2 x⟩
  have hemb : (Rect.unit (s := S1024x1024) (k0_off3 k) S128x1024.size (k0_off3_inb k)).emb (ix2 r cc)
      = ix2 (⟨128 * k.val + r.val, by omega⟩ : Fin 1024) (⟨cc.val, by omega⟩ : Fin 1024) :=
    Shape.idx_ext₂ (by show k0_off3 k 0 + 1 * r.val = 128 * k.val + r.val; omega)
      (by show k0_off3 k 1 + 1 * cc.val = cc.val; omega)
  have i2 : (Rect.unit (s := S1024x128) (k0_off1 k) S128x128.size (k0_off1_inb k)).toLoadRect.idx
        (ix2 r (⟨cc.val / 8, by omega⟩ : Fin 128))
      = ix2 (⟨128 * k.val + r.val, by omega⟩ : Fin 1024) (⟨cc.val / 8, by omega⟩ : Fin 128) :=
    Shape.idx_ext₂ (by show k0_off1 k 0 + 1 * r.val = 128 * k.val + r.val; omega)
      (by show k0_off1 k 1 + 1 * (cc.val / 8) = cc.val / 8; omega)
  have i3 : (Rect.unit (s := S8x1024) (k0_off2 k) S1x1024.size (k0_off2_inb k)).toLoadRect.idx (ix2 (0 : Fin 1) cc)
      = ix2 (⟨(128 * k.val + r.val) / 128, by omega⟩ : Fin 8) (⟨cc.val, by omega⟩ : Fin 1024) :=
    Shape.idx_ext₂ (by show k0_off2 k 0 + 1 * 0 = (128 * k.val + r.val) / 128; omega)
      (by show k0_off2 k 1 + 1 * cc.val = cc.val; omega)
  show k0_pay1 _ _ _ (ix2 r cc) = deqBlk X0 X1 X2 ((Rect.unit (s := S1024x1024) (k0_off3 k) S128x1024.size (k0_off3_inb k)).emb (ix2 r cc))
  rw [pay_apply, hemb]
  unfold deqBlk
  simp only [View.readAt_apply]
  rw [hf2, hf3, hf4, i2, i3]

variable (𝒱 : Variants) (c : Dev nD) (bd : Option 𝒱.V) (i : grid0.Coords) (h2 : m2.IsWhole) (h3 : m3.IsWhole) (h4 : m4.IsWhole)
  (m5 : Memref sig .tc .vmem S1024x1024 .bf16) (h5 : m5.IsWhole)

/-- The list of pieces a trip of the loop contributes is its one store. -/
theorem tripL_eq (k : Fin k0_t1_loop.trips) :
    tripL_k0_t1 (F := F) 𝒱 c bd i m2 h2 m3 h3 m4 h4 m5 h5 f2 f3 f4 k = [pieceOf m2 m3 m4 f2 f3 f4 k] := by
  unfold tripL_k0_t1 trip_k0_t1; rfl

/-- Every piece written before trip n is some trip's store, -/
theorem pb_sub (n : ℕ) : ∀ p ∈ pb_k0_t1 (F := F) 𝒱 c bd i m2 h2 m3 h3 m4 h4 m5 h5 f2 f3 f4 n,
    ∃ k : Fin k0_t1_loop.trips, p = pieceOf m2 m3 m4 f2 f3 f4 k := by
  induction n with
  | zero => intro p hp; rw [pb_k0_t1.eq_1] at hp; exact absurd hp List.not_mem_nil
  | succ n ih =>
    intro p hp
    rw [pb_k0_t1.eq_2] at hp; unfold pb_k0_t1Step at hp
    split at hp
    · next h =>
      rw [tripL_eq, List.mem_append, List.mem_singleton] at hp
      rcases hp with rfl | hp
      · exact ⟨_, rfl⟩
      · exact ih p hp
    · exact ih p hp

/-- and every trip before n has stored its piece. -/
theorem mem_pb (n : ℕ) (k : Fin k0_t1_loop.trips) (hk : k.val < n) :
    pieceOf m2 m3 m4 f2 f3 f4 k ∈ pb_k0_t1 (F := F) 𝒱 c bd i m2 h2 m3 h3 m4 h4 m5 h5 f2 f3 f4 n := by
  induction n with
  | zero => omega
  | succ n ih =>
    rw [pb_k0_t1.eq_2]; unfold pb_k0_t1Step
    by_cases h : n < k0_t1_loop.trips
    · rw [dif_pos h, tripL_eq]
      by_cases hkn : k.val = n
      · have hkk : k = ⟨n, h⟩ := Fin.ext hkn
        rw [hkk]; exact List.mem_append_left _ (List.mem_singleton_self _)
      · exact List.mem_append_right _ (ih (by omega))
    · rw [dif_neg h]; exact ih (by have := k.isLt; omega)

/-- So after the eight trips the output buffer reads the block function, whatever it held before: the eight pieces
    are row stretches of that one function, and every row lies in the stretch of the trip row div 128. -/
theorem read_after (X0 : S1024x128.Idx → Elt F .i32) (X1 : S8x1024.Idx → Elt F .i32) (X2 : S8x1024.Idx → Elt F .f32)
    (hf2 : m2.view.read (Elt F) f2 = X0) (hf3 : m3.view.read (Elt F) f3 = X1) (hf4 : m4.view.read (Elt F) f4 = X2)
    (f5 : BufTy.Contents (Elt F) m5.view.ty) :
    m5.view.read (Elt F) (m5.view.writes (Elt F) f5
        (pb_k0_t1 (F := F) 𝒱 c bd i m2 h2 m3 h3 m4 h4 m5 h5 f2 f3 f4 (Scf.trips k0_t1_loop.lb k0_t1_loop.ub k0_t1_loop.st)))
      = deqBlk X0 X1 X2 := by
  funext y
  have hy0 : (y 0).val < 1024 := idx2_lt0 y
  have hy1 : (y 1).val < 1024 := idx2_lt1 y
  refine View.read_writes_apply_of_pieces m5.view f5 (deqBlk X0 X1 X2) _ (fun p hp x => ?_) y ?_
  · obtain ⟨k, rfl⟩ := pb_sub m2 m3 m4 f2 f3 f4 𝒱 c bd i h2 h3 h4 m5 h5 _ p hp
    exact piece_agrees m2 m3 m4 f2 f3 f4 X0 X1 X2 hf2 hf3 hf4 k x
  · have hk : (y 0).val / 128 < k0_t1_loop.trips := by rw [trips8]; omega
    obtain ⟨o30, o31⟩ := off3_eq ⟨(y 0).val / 128, hk⟩
    refine ⟨pieceOf m2 m3 m4 f2 f3 f4 ⟨(y 0).val / 128, hk⟩,
      mem_pb m2 m3 m4 f2 f3 f4 𝒱 c bd i h2 h3 h4 m5 h5 _ ⟨(y 0).val / 128, hk⟩ hk, ?_⟩
    show y ∈ (Rect.unit (s := S1024x1024) (k0_off3 ⟨(y 0).val / 128, hk⟩) S128x1024.size (k0_off3_inb _)).set
    rw [Rect.mem_set_unit]
    intro a
    match a with
    | ⟨0, _⟩ =>
      show k0_off3 ⟨(y 0).val / 128, hk⟩ 0 ≤ (y 0).val ∧ (y 0).val < k0_off3 ⟨(y 0).val / 128, hk⟩ 0 + 128
      rw [o30]; show 128 * ((y 0).val / 128) ≤ (y 0).val ∧ (y 0).val < 128 * ((y 0).val / 128) + 128; omega
    | ⟨1, _⟩ =>
      show k0_off3 ⟨(y 0).val / 128, hk⟩ 1 ≤ (y 1).val ∧ (y 1).val < k0_off3 ⟨(y 0).val / 128, hk⟩ 1 + 1024
      rw [o31]; omega

end Pieces

/-! ## The body's run -/

local notation "𝕄" => MT nD τ sig Unit (Elt F) ℕ (UR sig nD τ) ℕ

/-- The kernel body on any memrefs of the four windows' staging buffers, holding X0, X1, X2 and anything: the eight
    trips leave the three input buffers as found and the output buffer holding the block function of the three. -/
theorem sound_body (c : Dev nD) (E : Set ℕ) (i : grid0.Coords)
    (m2 : Memref sig .tc .vmem S1024x128 .i32) (h2 : m2.IsWhole) (m3 : Memref sig .tc .vmem S8x1024 .i32) (h3 : m3.IsWhole)
    (m4 : Memref sig .tc .vmem S8x1024 .f32) (h4 : m4.IsWhole) (m5 : Memref sig .tc .vmem S1024x1024 .bf16) (h5 : m5.IsWhole)
    (X0 : S1024x128.Idx → Elt F .i32) (X1 : S8x1024.Idx → Elt F .i32) (X2 : S8x1024.Idx → Elt F .f32)
    (X3 : S1024x1024.Idx → Elt F .bf16) (K : PUnit → sProp 𝕄) :
    iprop((owns (c : Thread nD τ) m2 fullShare X0 ∗ owns (c : Thread nD τ) m3 fullShare X1
            ∗ owns (c : Thread nD τ) m4 fullShare X2 ∗ owns (c : Thread nD τ) m5 fullShare X3)
          ∗ (iprop(owns (c : Thread nD τ) m2 fullShare X0 ∗ owns (c : Thread nD τ) m3 fullShare X1
                  ∗ owns (c : Thread nD τ) m4 fullShare X2 ∗ owns (c : Thread nD τ) m5 fullShare (deqBlk X0 X1 X2)) -∗ K ⟨⟩))
      ⊢ wp frame (wpE (defs₀ (F := F)) Variants.none c none) E (cc0__dequant_kernel i m2 h2 m3 h3 m4 h4 m5 h5) K := by
  rw [cc0__dequant_kernel_eq_skeleton]; unfold cc0__dequant_kernel_skel
  unfold owns
  iintro ⟨⟨⟨%f2, %hf2, H2⟩, ⟨%f3, %hf3, H3⟩, ⟨%f4, %hf4, H4⟩, ⟨%f5, %hf5, H5⟩⟩, Hk⟩
  sl_exec
  rw [wp_ret]; imodintro
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  · iexists _; isplitr
    · ipureintro
      exact read_after m2 m3 m4 f2 f3 f4 Variants.none c none i h2 h3 h4 m5 h5 X0 X1 X2 hf2 hf3 hf4 f5
    iexact H5

/-! ## The cut: on the part of each block inside its array -/

/-- A coordinate is among those a cut transfer moves iff it is inside the block and, placed in the array, inside the
    array. -/
theorem lt_extent_iff {ix k d j : Nat} (h : ix * k < d) :
    j < (Pipeline.Clip.of ix k d).extent k ↔ j < k ∧ ix * k + j < d := by
  unfold Pipeline.Clip.of
  split
  · next hle => rw [Nat.add_one_mul] at hle; show j < k ↔ _; omega
  · next hn => rw [Nat.add_one_mul] at hn; show j < d - ix * k ↔ _; omega

/-- Every window's block index at a grid point is the point's pair of coordinates. -/
theorem idx_maps : ∀ (i : grid0.Coords) (a : Fin 2), cc0_transform_0 i a = (i a).val ∧ cc0_transform_1 i a = (i a).val
    ∧ cc0_transform_2 i a = (i a).val ∧ cc0_transform_3 i a = (i a).val := by
  decide +kernel

/-- A filled block at an index the transfer moves is what was filled in. -/
theorem fill_apply_of_lt {G : Pipeline.Grid} (w : Pipeline.Window sig G) {α : Type} (i : G.Coords) (d : w.block.Idx → α)
    (g : (w.xblock i).Idx → α) (y : w.block.Idx) (h : ∀ a, (y a).val < w.xsize i a) :
    w.fill i d g y = g (fun a => ⟨(y a).val, h a⟩) := by
  unfold Pipeline.Window.fill; rw [dif_pos ((w.moved_iff i y).mpr h)]

theorem deqElt_congr {q q' z z' : BitVec 32} {s s' : F .f32} {p p' : Nat} (hq : q = q') (hz : z = z') (hs : s = s')
    (hp : p = p') : Cert.Spec.deqElt q z s p = Cert.Spec.deqElt q' z' s' p' := by
  subst hq hz hs hp; rfl

section Fetched

variable (c : Dev nD) (A : Arrs (F := F) c) (t : Fin cfg0.N)

/-- The fetched block of packed words, at a block coordinate whose place in the array is inside the array, holds the
    array's word there: at block index times block size plus the coordinate. -/
theorem fetched0 (d0 : S1024x128.Idx → Elt F .i32) (a : Fin 1024) (b : Fin 128)
    (ha : (grid0.coords t 0).val * 1024 + a.val < 4096) (hb : (grid0.coords t 1).val * 128 + b.val < 1376) :
    win0_0.fill (grid0.coords t) d0 ((win0_0.blk t).view.read (Elt F) (A 0)) (ix2 a b)
      = A 0 (ix2 (⟨(grid0.coords t 0).val * 1024 + a.val, ha⟩ : Fin 4096) (⟨(grid0.coords t 1).val * 128 + b.val, hb⟩ : Fin 1376)) := by
  obtain ⟨m00, -, -, -⟩ := idx_maps (grid0.coords t) 0
  obtain ⟨m01, -, -, -⟩ := idx_maps (grid0.coords t) 1
  have hm : ∀ ax, ((ix2 a b : win0_0.block.Idx) ax).val < win0_0.xsize (grid0.coords t) ax := by
    intro ax
    match ax with
    | ⟨0, _⟩ =>
      exact (lt_extent_iff (hstart0_0 (grid0.coords t) 0)).mpr
        ⟨a.isLt, by show cc0_transform_0 (grid0.coords t) 0 * 1024 + a.val < 4096; rw [m00]; exact ha⟩
    | ⟨1, _⟩ =>
      exact (lt_extent_iff (hstart0_0 (grid0.coords t) 1)).mpr
        ⟨b.isLt, by show cc0_transform_0 (grid0.coords t) 1 * 128 + b.val < 1376; rw [m01]; exact hb⟩
  rw [fill_apply_of_lt win0_0 (grid0.coords t) d0 _ (ix2 a b) hm]
  show A 0 ((win0_0.rect t).emb _) = A 0 _
  refine congrArg (A 0) (Shape.idx_ext₂ ?_ ?_)
  · rw [win0_0.rect_emb_val]; show cc0_transform_0 (grid0.coords t) 0 * 1024 + a.val = _; rw [m00]
  · rw [win0_0.rect_emb_val]; show cc0_transform_0 (grid0.coords t) 1 * 128 + b.val = _; rw [m01]

/-- The same for the fetched block of zero points, -/
theorem fetched1 (d1 : S8x1024.Idx → Elt F .i32) (a : Fin 8) (b : Fin 1024)
    (ha : (grid0.coords t 0).val * 8 + a.val < 32) (hb : (grid0.coords t 1).val * 1024 + b.val < 11008) :
    win0_1.fill (grid0.coords t) d1 ((win0_1.blk t).view.read (Elt F) (A 1)) (ix2 a b)
      = A 1 (ix2 (⟨(grid0.coords t 0).val * 8 + a.val, ha⟩ : Fin 32) (⟨(grid0.coords t 1).val * 1024 + b.val, hb⟩ : Fin 11008)) := by
  obtain ⟨-, m10, -, -⟩ := idx_maps (grid0.coords t) 0
  obtain ⟨-, m11, -, -⟩ := idx_maps (grid0.coords t) 1
  have hm : ∀ ax, ((ix2 a b : win0_1.block.Idx) ax).val < win0_1.xsize (grid0.coords t) ax := by
    intro ax
    match ax with
    | ⟨0, _⟩ =>
      exact (lt_extent_iff (hstart0_1 (grid0.coords t) 0)).mpr
        ⟨a.isLt, by show cc0_transform_1 (grid0.coords t) 0 * 8 + a.val < 32; rw [m10]; exact ha⟩
    | ⟨1, _⟩ =>
      exact (lt_extent_iff (hstart0_1 (grid0.coords t) 1)).mpr
        ⟨b.isLt, by show cc0_transform_1 (grid0.coords t) 1 * 1024 + b.val < 11008; rw [m11]; exact hb⟩
  rw [fill_apply_of_lt win0_1 (grid0.coords t) d1 _ (ix2 a b) hm]
  show A 1 ((win0_1.rect t).emb _) = A 1 _
  refine congrArg (A 1) (Shape.idx_ext₂ ?_ ?_)
  · rw [win0_1.rect_emb_val]; show cc0_transform_1 (grid0.coords t) 0 * 8 + a.val = _; rw [m10]
  · rw [win0_1.rect_emb_val]; show cc0_transform_1 (grid0.coords t) 1 * 1024 + b.val = _; rw [m11]

/-- and of scales. -/
theorem fetched2 (d2 : S8x1024.Idx → Elt F .f32) (a : Fin 8) (b : Fin 1024)
    (ha : (grid0.coords t 0).val * 8 + a.val < 32) (hb : (grid0.coords t 1).val * 1024 + b.val < 11008) :
    win0_2.fill (grid0.coords t) d2 ((win0_2.blk t).view.read (Elt F) (A 2)) (ix2 a b)
      = A 2 (ix2 (⟨(grid0.coords t 0).val * 8 + a.val, ha⟩ : Fin 32) (⟨(grid0.coords t 1).val * 1024 + b.val, hb⟩ : Fin 11008)) := by
  obtain ⟨-, -, m20, -⟩ := idx_maps (grid0.coords t) 0
  obtain ⟨-, -, m21, -⟩ := idx_maps (grid0.coords t) 1
  have hm : ∀ ax, ((ix2 a b : win0_2.block.Idx) ax).val < win0_2.xsize (grid0.coords t) ax := by
    intro ax
    match ax with
    | ⟨0, _⟩ =>
      exact (lt_extent_iff (hstart0_2 (grid0.coords t) 0)).mpr
        ⟨a.isLt, by show cc0_transform_2 (grid0.coords t) 0 * 8 + a.val < 32; rw [m20]; exact ha⟩
    | ⟨1, _⟩ =>
      exact (lt_extent_iff (hstart0_2 (grid0.coords t) 1)).mpr
        ⟨b.isLt, by show cc0_transform_2 (grid0.coords t) 1 * 1024 + b.val < 11008; rw [m21]; exact hb⟩
  rw [fill_apply_of_lt win0_2 (grid0.coords t) d2 _ (ix2 a b) hm]
  show A 2 ((win0_2.rect t).emb _) = A 2 _
  refine congrArg (A 2) (Shape.idx_ext₂ ?_ ?_)
  · rw [win0_2.rect_emb_val]; show cc0_transform_2 (grid0.coords t) 0 * 8 + a.val = _; rw [m20]
  · rw [win0_2.rect_emb_val]; show cc0_transform_2 (grid0.coords t) 1 * 1024 + b.val = _; rw [m21]

/-- On the part of the output block inside the weight array, the block function of the three fetched input blocks
    is the dequantised weight array read through the block: a column inside the weight array has its word column
    inside the packed array (1376 = 11008 / 8) and is itself inside the zero-point and scale arrays, so there the
    fetched blocks hold the arrays' words, at block index times block size plus the coordinate inside the block. -/
theorem cut_deq (d0 : S1024x128.Idx → Elt F .i32) (d1 : S8x1024.Idx → Elt F .i32) (d2 : S8x1024.Idx → Elt F .f32) :
    win0_3.cut (grid0.coords t)
        (deqBlk (win0_0.fill (grid0.coords t) d0 ((win0_0.blk t).view.read (Elt F) (A 0)))
          (win0_1.fill (grid0.coords t) d1 ((win0_1.blk t).view.read (Elt F) (A 1)))
          (win0_2.fill (grid0.coords t) d2 ((win0_2.blk t).view.read (Elt F) (A 2))))
      = (win0_3.blk t).view.read (Elt F) (weights c A) := by
  funext j
  have hi0 : (grid0.coords t 0).val < 4 := (grid0.coords t 0).isLt
  have hi1 : (grid0.coords t 1).val < 11 := (grid0.coords t 1).isLt
  obtain ⟨-, -, -, m30⟩ := idx_maps (grid0.coords t) 0
  obtain ⟨-, -, -, m31⟩ := idx_maps (grid0.coords t) 1
  have hj0 : (j 0).val < 1024 ∧ cc0_transform_3 (grid0.coords t) 0 * 1024 + (j 0).val < 4096 :=
    (lt_extent_iff (hstart0_3 (grid0.coords t) 0)).mp (j 0).isLt
  have hj1 : (j 1).val < 1024 ∧ cc0_transform_3 (grid0.coords t) 1 * 1024 + (j 1).val < 11008 :=
    (lt_extent_iff (hstart0_3 (grid0.coords t) 1)).mp (j 1).isLt
  rw [m30] at hj0; rw [m31] at hj1
  have e0 : ((win0_3.rect t).emb j 0).val = (grid0.coords t 0).val * 1024 + (j 0).val := by
    rw [win0_3.rect_emb_val]; show cc0_transform_3 (grid0.coords t) 0 * 1024 + (j 0).val = _; rw [m30]
  have e1 : ((win0_3.rect t).emb j 1).val = (grid0.coords t 1).val * 1024 + (j 1).val := by
    rw [win0_3.rect_emb_val]; show cc0_transform_3 (grid0.coords t) 1 * 1024 + (j 1).val = _; rw [m31]
  show deqBlk _ _ _ (win0_3.xinj (grid0.coords t) j) = weights c A ((win0_3.rect t).emb j)
  refine deqElt_congr ?_ ?_ ?_ ?_
  · refine (fetched0 c A t d0 (⟨(j 0).val, hj0.1⟩ : Fin 1024) (⟨(j 1).val / 8, by omega⟩ : Fin 128)
      (by show _ * 1024 + (j 0).val < 4096; omega) (by show _ * 128 + (j 1).val / 8 < 1376; omega)).trans ?_
    refine congrArg (A 0) (Shape.idx_ext₂ ?_ ?_)
    · show (grid0.coords t 0).val * 1024 + (j 0).val = ((win0_3.rect t).emb j 0).val; rw [e0]
    · show (grid0.coords t 1).val * 128 + (j 1).val / 8 = ((win0_3.rect t).emb j 1).val / 8; rw [e1]; omega
  · refine (fetched1 c A t d1 (⟨(j 0).val / 128, by omega⟩ : Fin 8) (⟨(j 1).val, hj1.1⟩ : Fin 1024)
      (by show _ * 8 + (j 0).val / 128 < 32; omega) (by show _ * 1024 + (j 1).val < 11008; omega)).trans ?_
    refine congrArg (A 1) (Shape.idx_ext₂ ?_ ?_)
    · show (grid0.coords t 0).val * 8 + (j 0).val / 128 = ((win0_3.rect t).emb j 0).val / 128; rw [e0]; omega
    · show (grid0.coords t 1).val * 1024 + (j 1).val = ((win0_3.rect t).emb j 1).val; rw [e1]
  · refine (fetched2 c A t d2 (⟨(j 0).val / 128, by omega⟩ : Fin 8) (⟨(j 1).val, hj1.1⟩ : Fin 1024)
      (by show _ * 8 + (j 0).val / 128 < 32; omega) (by show _ * 1024 + (j 1).val < 11008; omega)).trans ?_
    refine congrArg (A 2) (Shape.idx_ext₂ ?_ ?_)
    · show (grid0.coords t 0).val * 8 + (j 0).val / 128 = ((win0_3.rect t).emb j 0).val / 128; rw [e0]; omega
    · show (grid0.coords t 1).val * 1024 + (j 1).val = ((win0_3.rect t).emb j 1).val; rw [e1]
  · show (j 1).val % 8 = ((win0_3.rect t).emb j 1).val % 8; rw [e1]; omega

end Fetched

/-! ## What the body finds, and the obligation -/

section Obligation

variable (c : Dev nD) (A : Arrs (F := F) c)

/-- The three input buffers arrive just fetched: the array's block on the part inside the array, d elsewhere; -/
theorem before_0 (t : Fin cfg0.N) (d) :
    (dat0 c A).before (0 : Fin 4) t d = win0_0.fill (grid0.coords t) d ((win0_0.blk t).view.read (Elt F) (A 0)) := by
  unfold Dat.before; rw [if_pos (fetch0_0 t)]; rfl
theorem before_1 (t : Fin cfg0.N) (d) :
    (dat0 c A).before (1 : Fin 4) t d = win0_1.fill (grid0.coords t) d ((win0_1.blk t).view.read (Elt F) (A 1)) := by
  unfold Dat.before; rw [if_pos (fetch0_1 t)]; rfl
theorem before_2 (t : Fin cfg0.N) (d) :
    (dat0 c A).before (2 : Fin 4) t d = win0_2.fill (grid0.coords t) d ((win0_2.blk t).view.read (Elt F) (A 2)) := by
  unfold Dat.before; rw [if_pos (fetch0_2 t)]; rfl

/-- the output buffer at contents nothing names: it is never fetched, and written back at every point. -/
theorem before_3 (t : Fin cfg0.N) (d) : (dat0 c A).before (3 : Fin 4) t d = d := by
  unfold Dat.before
  rw [if_neg (by rw [show (cfg0.win (3 : Fin 4)).fetch t = false from rfl]; exact Bool.false_ne_true)]
  by_cases ht : t.val = 0
  · rw [if_pos ht]
  · rw [if_neg ht]; exact if_pos (flush0_3 _)

/-- The output buffer's contents after the body, filled with themselves outside the part the write-back moves, are
    themselves; on that part they are the weight array's block. -/
theorem out_eq (t : Fin cfg0.N) (d0 : S1024x128.Idx → Elt F .i32) (d1 : S8x1024.Idx → Elt F .i32) (d2 : S8x1024.Idx → Elt F .f32) :
    win0_3.fill (grid0.coords t)
        (deqBlk (win0_0.fill (grid0.coords t) d0 ((win0_0.blk t).view.read (Elt F) (A 0)))
          (win0_1.fill (grid0.coords t) d1 ((win0_1.blk t).view.read (Elt F) (A 1)))
          (win0_2.fill (grid0.coords t) d2 ((win0_2.blk t).view.read (Elt F) (A 2))))
        (win0_3.cut (grid0.coords t)
          (win0_3.fill (grid0.coords t) (fun _ => Scalar.ofBits .bf16 0#16) ((win0_3.blk t).view.read (Elt F) (weights c A))))
      = deqBlk (win0_0.fill (grid0.coords t) d0 ((win0_0.blk t).view.read (Elt F) (A 0)))
          (win0_1.fill (grid0.coords t) d1 ((win0_1.blk t).view.read (Elt F) (A 1)))
          (win0_2.fill (grid0.coords t) d2 ((win0_2.blk t).view.read (Elt F) (A 2))) := by
  rw [win0_3.cut_fill, ← cut_deq c A t d0 d1 d2, win0_3.fill_cut]

/-- The body obligation of the dequantisation call, every window stated on its part inside the array. -/
theorem body0 : BodyObligationLoose (dat0 c A) (defs₀ (F := F)) Variants.none () Set.univ := fun t => by
  rw [bigSep_W0, bigSep_W0]
  simp only
  rw [show (dat0 c A).Φ t.succ = (dat0 c A).Φ t.castSucc from rfl,
    show (dat0 c A).owesAt () t.succ = (dat0 c A).owesAt () t.castSucc from rfl]
  iintro ⟨HΦ, Ho, ⟨%d0, H0⟩, ⟨%d1, H1⟩, ⟨%d2, H2⟩, ⟨%d3, H3⟩⟩
  rw [before_0 c A t d0, before_1 c A t d1, before_2 c A t d2, before_3 c A t d3]
  iapply (sound_body (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 ((win0_0.blk t).view.read (Elt F) (A 0)))
    (win0_1.fill (grid0.coords t) d1 ((win0_1.blk t).view.read (Elt F) (A 1)))
    (win0_2.fill (grid0.coords t) d2 ((win0_2.blk t).view.read (Elt F) (A 2))) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t)
        (win0_0.fill (grid0.coords t) (fun _ => (0#32 : BitVec 32)) ((win0_0.blk t).view.read (Elt F) (A 0)))))
    rw [win0_0.cut_fill]; try iexact H0
  isplitl [H1]
  · iexists d1
    change _ ⊢ owns (c : Thread nD τ) (win0_1.stage (cfg0.slots t 1)) fullShare
      (win0_1.fill (grid0.coords t) d1 (win0_1.cut (grid0.coords t)
        (win0_1.fill (grid0.coords t) (fun _ => (0#32 : BitVec 32)) ((win0_1.blk t).view.read (Elt F) (A 1)))))
    rw [win0_1.cut_fill]; try iexact H1
  isplitl [H2]
  · iexists d2
    change _ ⊢ owns (c : Thread nD τ) (win0_2.stage (cfg0.slots t 2)) fullShare
      (win0_2.fill (grid0.coords t) d2 (win0_2.cut (grid0.coords t)
        (win0_2.fill (grid0.coords t) (fun _ => Scalar.ofBits .f32 0#32) ((win0_2.blk t).view.read (Elt F) (A 2)))))
    rw [win0_2.cut_fill]; try iexact H2
  · iexists deqBlk (win0_0.fill (grid0.coords t) d0 ((win0_0.blk t).view.read (Elt F) (A 0)))
      (win0_1.fill (grid0.coords t) d1 ((win0_1.blk t).view.read (Elt F) (A 1)))
      (win0_2.fill (grid0.coords t) d2 ((win0_2.blk t).view.read (Elt F) (A 2)))
    change _ ⊢ owns (c : Thread nD τ) (win0_3.stage (cfg0.slots t 3)) fullShare
      (win0_3.fill (grid0.coords t)
        (deqBlk (win0_0.fill (grid0.coords t) d0 ((win0_0.blk t).view.read (Elt F) (A 0)))
          (win0_1.fill (grid0.coords t) d1 ((win0_1.blk t).view.read (Elt F) (A 1)))
          (win0_2.fill (grid0.coords t) d2 ((win0_2.blk t).view.read (Elt F) (A 2))))
        (win0_3.cut (grid0.coords t)
          (win0_3.fill (grid0.coords t) (fun _ => Scalar.ofBits .bf16 0#16) ((win0_3.blk t).view.read (Elt F) (weights c A)))))
    rw [out_eq c A t d0 d1 d2]; try iexact H3

end Obligation

end Cert.Kernel.Dequant

end
-- ==== Proof.KGemmFrameData.lean ====
/-
  The matrix-product call of the program as printed (words, not reals), for the frame alone: it runs to the end and
  faults nowhere, whatever its result holds.

  At word level the matrix unit's term at one result element may depend on the WHOLE right operand, so for the last
  column block, whose staging words past column 11008 nothing names, nothing can be said of the accumulator or of the
  output buffer.  Nothing needs to be: no later item reads the result, no branch, address or trip count is taken from
  those words.  So the output window is FORGOTTEN (handed to the body at any contents, taken back at any contents) and
  the accumulator scratch is held at some contents; the three input windows are left as found.
-/
import proofs.«425978_j1005022347685_2_alg».proof.Proof.Gen.Kernel.Launch
import proofs.«425978_j1005022347685_2_alg».proof.Proof.Gen.Kernel.Points
import Idealize.ShloMosaic.Lib.Pipeline.Kit

noncomputable section

namespace Cert.Kernel.GemmFrame

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The arrays the call's four windows range over, at the contents the call is entered with. -/
abbrev Arrs (c : Dev nD) : Type :=
  (w : Fin cfg1.W) → Buf (Elt F) ((cfg1.win w).arr.view.loc (c : Thread nD τ))

variable (c : Dev nD) (A : Arrs (F := F) c)

/-- The staging buffers of the OTHER call (the dequantisation's eight), each whole at some contents: they ride along. -/
def otherStaging : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The invariant at every point: the other call's staging buffers, and the accumulator scratch whole at SOME contents. -/
def inv : sProp 𝕄 :=
  iprop(otherStaging (F := F) c ∗ ∃ f : Buf (Elt F) ((c : Thread nD τ).loc cc1_scratch0), ((c : Thread nD τ).loc cc1_scratch0) ↦{fullShare} f)

/-- The window this account says nothing of: the output. -/
def forgets : Fin cfg1.W → Bool := fun | ⟨3, _⟩ => true | _ => false

/-- The proof data on core `c`: after the body each input buffer holds its array's block on the part inside the array;
    the output window's entry is never read (the window is forgotten); the invariant `inv`; nothing owed; full shares. -/
def dat1f : Dat τ (Elt F) Unit ℕ (UR sig nD τ) ℕ cfg1 c where
  A := A
  after w t := match w with
    | ⟨0, _⟩ => win1_0.fill (grid1.coords t) (fun _ => Scalar.ofBits .bf16 0#16) ((win1_0.blk t).view.read (Elt F) (A 0))
    | ⟨1, _⟩ => win1_1.fill (grid1.coords t) (fun _ => Scalar.ofBits .bf16 0#16) ((win1_1.blk t).view.read (Elt F) (A 1))
    | ⟨2, _⟩ => win1_2.fill (grid1.coords t) (fun _ => Scalar.ofBits .f32 0#32) ((win1_2.blk t).view.read (Elt F) (A 2))
    | ⟨3, _⟩ => fun _ => Scalar.ofBits .f32 0#32
  Φ _ := inv (F := F) c
  q _ := fullShare
  owed _ := 0

end Cert.Kernel.GemmFrame

end
-- ==== Proof.KGemmFrameBody.lean ====
/-
  The matrix-product body at one grid point, for the frame alone (any float instance): whatever the four staging buffers
  and the accumulator hold, the body's loads, its matrix product, its additions and its stores all stay inside their
  buffers; it leaves the three input buffers as found, the accumulator and the output buffer at some contents.
-/
import proofs.«425978_j1005022347685_2_alg».proof.Proof.KGemmFrameData
import proofs.«425978_j1005022347685_2_alg».proof.Proof.Gen.Kernel.Skeleton
import Idealize.ShloMosaic.Lib.Pipeline.FrameBody
import Idealize.ShloMosaic.Lib.Tactic

noncomputable section

namespace Cert.Kernel.GemmFrame

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (c : Dev nD) (A : Arrs (F := F) c)

/-! ## The body on whole memrefs -/

/-- The body on whole memrefs, the three inputs at read contents, the output and the accumulator at anything: in each of
    the four control cases (the first reduction step or not, the last or not) every load and store is of a whole buffer
    it holds, so it runs to the continuation with the inputs as they were and the output and the accumulator at
    something. No value is named. -/
theorem sound_kernel (i : grid1.Coords)
    (arg3 : Memref sig .tc .vmem S512x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S512x2048 .f32) (harg6 : arg6.IsWhole)
    (arg7 : Memref sig .tc .vmem S512x2048 .f32) (harg7 : arg7.IsWhole)
    (x0 : Vec F S512x1024 .bf16) (x1 : Vec F S1024x2048 .bf16) (x2 : Vec F S1x2048 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (∃ g, arg7.view.loc (c : Thread nD τ) ↦[arg7.view.set]{fullShare} g)
        ∗ (iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ g, arg7.view.loc (c : Thread nD τ) ↦[arg7.view.set]{fullShare} g)) -∗ K ⟨⟩))
      ⊢ wp frame (wpE (defs₀ (F := F)) Variants.none c none) Set.univ (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%g, H4⟩, Hk⟩
  subst hf0 hf1 hf2
  by_cases h1 : (Scalar.cmpi .ne (Scalar.extui (Scalar.cmpi .eq (BitVec.ofNat 32 (i 2).val) 0#32)) 0#32) = 1#1 <;>
  by_cases h2 : k1_cond2 i = 1#1
  ·
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _, _; isplitr
      swap; · iexact H3
      ipureintro; rfl
    iexists _; iexact H4
  ·
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _, _; isplitr
      swap; · iexact H3
      ipureintro; rfl
    iexists _; iexact H4
  ·
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _, _; isplitr
      swap; · iexact H3
      ipureintro; rfl
    iexists _; iexact H4
  ·
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _, _; isplitr
      swap; · iexact H3
      ipureintro; rfl
    iexists _; iexact H4

/-! ## What the body finds in the input buffers -/

/-- What each input buffer is left at, cut to the part the transfers move, is the array's block. -/
theorem keep_0 (t : Fin cfg1.N) : (cfg1.win 0).cut (cfg1.grid.coords t) ((dat1f c A).after 0 t) = (dat1f c A).blockOf 0 t := by
  dsimp only [dat1f]; exact win1_0.cut_fill _ _ _
theorem keep_1 (t : Fin cfg1.N) : (cfg1.win 1).cut (cfg1.grid.coords t) ((dat1f c A).after 1 t) = (dat1f c A).blockOf 1 t := by
  dsimp only [dat1f]; exact win1_1.cut_fill _ _ _
theorem keep_2 (t : Fin cfg1.N) : (cfg1.win 2).cut (cfg1.grid.coords t) ((dat1f c A).after 2 t) = (dat1f c A).blockOf 2 t := by
  dsimp only [dat1f]; exact win1_2.cut_fill _ _ _

/-- The left operand's buffer, fetched at every point and never cut, holds the block whatever filled it before. -/
theorem before_0 (t : Fin cfg1.N) (d) : (dat1f c A).before 0 t d = (dat1f c A).after 0 t := by
  rw [(dat1f c A).before_in_eq_fetched 0 rfl (fun _ => rfl) (fun _ _ _ => rfl) (keep_0 c A) t d]
  refine ((dat1f c A).fetched_of_clip_none 0 t (fun _ => rfl) d (fun _ => Scalar.ofBits .bf16 0#16)).trans ?_
  dsimp only [dat1f]; rfl

/-- The right operand's and the bias row's buffers hold the block on the part inside the array, fetched at this point
    or kept from an earlier one with the same block index, and anything past the array's end. -/
theorem before_1 (t : Fin cfg1.N) (d) : (dat1f c A).before 1 t d
    = (cfg1.win 1).fill (cfg1.grid.coords t) d ((cfg1.win 1).cut (cfg1.grid.coords t) ((dat1f c A).after 1 t)) := by
  rw [(dat1f c A).before_in_eq_fetched 1 rfl (fun _ => rfl)
    (fun t t' h => funext fun a => congrArg (fun n => Pipeline.Clip.of n _ _) (congrFun h a)) (keep_1 c A) t d, keep_1]
  rfl
theorem before_2 (t : Fin cfg1.N) (d) : (dat1f c A).before 2 t d
    = (cfg1.win 2).fill (cfg1.grid.coords t) d ((cfg1.win 2).cut (cfg1.grid.coords t) ((dat1f c A).after 2 t)) := by
  rw [(dat1f c A).before_in_eq_fetched 2 rfl (fun _ => rfl)
    (fun t t' h => funext fun a => congrArg (fun n => Pipeline.Clip.of n _ _) (congrFun h a)) (keep_2 c A) t d, keep_2]
  rfl

/-! ## The body obligation at a point -/

/-- The accumulator scratch as the invariant holds it and as the body's run names it: one points-to. -/
theorem scr_eq (f : Buf (Elt F) ((c : Thread nD τ).loc cc1_scratch0)) :
    ((Memref.whole cc1_scratch0 : Memref sig .tc .vmem S512x2048 .f32).view.loc (c : Thread nD τ)
        ↦[(Memref.whole cc1_scratch0 : Memref sig .tc .vmem S512x2048 .f32).view.set]{fullShare} f : sProp 𝕄)
      = ((c : Thread nD τ).loc cc1_scratch0) ↦{fullShare} f := by
  simp only [Memref.view_whole, View.set_whole]

/-- What the body is called with at point `t`, the windows one by one: the three inputs' buffers at what they then hold,
    the output's at anything. -/
def bodyPre (t : Fin cfg1.N) : sProp 𝕄 :=
  iprop((dat1f c A).Φ t.castSucc ∗ (dat1f c A).owesAt () t.castSucc
    ∗ (∃ d, owns (c : Thread nD τ) (st1_0 t) fullShare ((dat1f c A).before 0 t d))
    ∗ (∃ d, owns (c : Thread nD τ) (st1_1 t) fullShare ((dat1f c A).before 1 t d))
    ∗ (∃ d, owns (c : Thread nD τ) (st1_2 t) fullShare ((dat1f c A).before 2 t d))
    ∗ (∃ X, owns (c : Thread nD τ) (st1_3 t) fullShare X))

/-- What it returns: the left operand's buffer at its block, the two cut inputs' at their blocks on the part inside the
    array, the output's at anything. -/
def bodyPost (t : Fin cfg1.N) : sProp 𝕄 :=
  iprop((dat1f c A).Φ t.succ ∗ (dat1f c A).owesAt () t.succ
    ∗ owns (c : Thread nD τ) (st1_0 t) fullShare ((dat1f c A).after 0 t)
    ∗ (∃ d, owns (c : Thread nD τ) (st1_1 t) fullShare
        ((cfg1.win 1).fill (cfg1.grid.coords t) d ((cfg1.win 1).cut (cfg1.grid.coords t) ((dat1f c A).after 1 t))))
    ∗ (∃ d, owns (c : Thread nD τ) (st1_2 t) fullShare
        ((cfg1.win 2).fill (cfg1.grid.coords t) d ((cfg1.win 2).cut (cfg1.grid.coords t) ((dat1f c A).after 2 t))))
    ∗ (∃ X, owns (c : Thread nD τ) (st1_3 t) fullShare X))

/-- The body at any point: the invariant yields the accumulator scratch and takes it back, the other call's staging
    buffers and the core's tallies pass through unread. -/
theorem sound_body (t : Fin cfg1.N) :
    bodyPre c A t ⊢ wp frame (wpE (defs₀ (F := F)) Variants.none c none) Set.univ (bodyAt1 t) (fun _ => bodyPost c A t) := by
  unfold bodyPre bodyPost bodyAt1
  simp only [before_0, before_1, before_2]
  rw [show (dat1f c A).Φ t.succ = (dat1f c A).Φ t.castSucc from rfl,
    show (dat1f c A).owesAt () t.succ = (dat1f c A).owesAt () t.castSucc from rfl,
    show (dat1f c A).Φ t.castSucc = inv (F := F) c from rfl]
  unfold inv
  iintro ⟨⟨HR, ⟨%g, HS⟩⟩, Ho, ⟨%d0, H0⟩, ⟨%d1, H1⟩, ⟨%d2, H2⟩, ⟨%X3, H3⟩⟩
  iapply (sound_kernel c (grid1.coords t) _ _ _ _ _ _ _ _ (Memref.whole cc1_scratch0) (Memref.isWhole_whole _) _ _ _ _)
  isplitl [H0]; · iexact H0
  isplitl [H1]; · iexact H1
  isplitl [H2]; · iexact H2
  isplitl [H3]; · iexists X3; iexact H3
  isplitl [HS]; · iexists g; rw [scr_eq]; iexact HS
  iintro ⟨H0, H1, H2, H3, ⟨%g', HS⟩⟩
  isplitl [HS HR]
  · isplitl [HR]; · iexact HR
    iexists g'; rw [← scr_eq]; iexact HS
  isplitl [Ho]; · iexact Ho
  isplitl [H0]; · iexact H0
  isplitl [H1]; · iexists d1; iexact H1
  isplitl [H2]; · iexists d2; iexact H2
  iexact H3

/-- The body obligation of the matrix-product call with its output window forgotten. -/
theorem body1f : BodyObligationLoose (dat1f c A) (defs₀ (F := F)) Variants.none () Set.univ forgets := fun t => by
  rw [bigSep_W1, bigSep_W1]
  exact sound_body c A t

end Cert.Kernel.GemmFrame

end
-- ==== Proof.RunBits.lean ====
/-
  The program as printed (word level), run for its frame: the dequantisation call, the two host operations, the
  matrix-product call.  Every weakly fair execution from a memory with zero counters terminates, faults nowhere and
  leaves the five arguments as they were.  The weight array after the first call is named (the dequantisation is
  elementwise, so its columns inside the array depend on nothing past the arrays' ends); the result of the second call
  is not, and need not be.
-/
import proofs.«425978_j1005022347685_2_alg».proof.Proof.KDequantBody
import proofs.«425978_j1005022347685_2_alg».proof.Proof.KGemmFrameBody
import proofs.«425978_j1005022347685_2_alg».proof.Proof.Gen.Kernel.Regions
import Idealize.ShloMosaic.Lib.Pipeline.Regions
import Idealize.ShloMosaic.PureOps.BitExact

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The pipeline library's algebra is the whole user component. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0

variable (m : (ℓ : Loc nD τ sig) → Buf (Elt F) ℓ) (ρ : Dev nD → PrngReg)

/-! ## The buffers' contents between the items -/

/-- The dequantisation call is entered with the launch contents of its four arrays. -/
def A0 (c : Dev nD) : Dequant.Arrs (F := F) c := fun w => V0 m c (Pipeline.arrRef spec0 w)

/-- The weight array as the dequantisation call leaves it: a function of the launch memory alone. -/
def W0 (c : Dev nD) : Buf (Elt F) ((c : Thread nD τ).loc main_v0) := (Dequant.dat0 c (A0 m c)).arrAt 3 cfg0.N

/-- Core `c`'s unscoped buffers after the dequantisation call: the weight array rewritten, the rest as launched. -/
def V1 (c : Dev nD) : Valuation τ sig (Elt F) := Function.update (V0 m c) main_v0 (W0 m c)
/-- and after the two host operations. -/
def V2 (c : Dev nD) : Valuation τ sig (Elt F) := StableHlo.after hostOps1 (V1 m c)

/-- The matrix-product call is entered with what the host operations left: the activations rounded, the dequantised
    weights, the bias as one row, the result array as launched. -/
def A1 (c : Dev nD) : GemmFrame.Arrs (F := F) c := fun w => V2 m c (Pipeline.arrRef spec1 w)

/-- The proof data of the two calls: the dequantisation's exact, the matrix product's with its output forgotten. -/
def rdats : (p : Fin 2) → (c : Dev nD) → Pipeline.RDat τ (Elt F) Unit ℕ (UR sig nD τ) ℕ (cfgs p) c
  | ⟨0, _⟩, c => (Dequant.dat0 c (A0 m c)).toR
  | ⟨1, _⟩, c => (GemmFrame.dat1f c (A1 m c)).toRForget GemmFrame.forgets
  | ⟨_ + 2, h⟩, _ => absurd h (Nat.not_lt.2 (Nat.le_add_left _ _))

theorem V1_of (c : Dev nD) (r : Ref sig .tc) (h : r ≠ main_v0) : V1 m c r = V0 m c r := by
  unfold V1; rw [Function.update_of_ne (StableHlo.devRef_ne_of_ne h)]
theorem V1_v0 (c : Dev nD) : V1 m c main_v0 = W0 m c := by
  unfold V1; rw [Function.update_self]
theorem V2_of (c : Dev nD) (r : Ref sig .tc) (h : r ∉ hostOps1_W) : V2 m c r = V1 m c r :=
  StableHlo.after_of_writes_sub hostOps1 _ hostOps1_writes h

/-- What the dequantisation call leaves in each of its arrays is what the valuation after it holds there: the three
    inputs are never written, the weight array is `W0`. -/
theorem arrAt0_eq (c : Dev nD) : ∀ w : Fin 4, (Dequant.dat0 c (A0 m c)).arrAt w cfg0.N = V1 m c (Pipeline.arrRef spec0 w)
  | 0 => ((Dequant.dat0 c (A0 m c)).arrAt_in 0 rfl _).trans (V1_of m c main_arg1 (by decide)).symm
  | 1 => ((Dequant.dat0 c (A0 m c)).arrAt_in 1 rfl _).trans (V1_of m c main_arg2 (by decide)).symm
  | 2 => ((Dequant.dat0 c (A0 m c)).arrAt_in 2 rfl _).trans (V1_of m c main_arg3 (by decide)).symm
  | 3 => (V1_v0 m c).symm
  | ⟨_ + 4, h⟩ => absurd h (Nat.not_lt.2 (Nat.le_add_left _ _))

/-- The buffers the dequantisation call does not window are held as launched, before and after it. -/
theorem rest0_eq (c : Dev nD) :
    (Pipeline.unscopedRest (Ix := Unit) (Name := ℕ) (U := UR sig nD τ) (Lvl := ℕ) spec0 c (fun b => V1 m c b) : sProp 𝕄)
      = Pipeline.unscopedRest (Ix := Unit) (Name := ℕ) (U := UR sig nD τ) (Lvl := ℕ) spec0 c (fun b => V0 m c b) := by
  rw [unscopedRest0_eq, unscopedRest0_eq, V1_of m c main_arg0 (by decide), V1_of m c main_arg4 (by decide),
    V1_of m c main_v1 (by decide), V1_of m c main_v2 (by decide), V1_of m c main_v3 (by decide)]

/-! ## The items as segments -/

/-- What rides beside the buffers between the items: the core owing nothing. -/
abbrev R (c : Dev nD) : sProp 𝕄 := iprop(∃ W, owes (c : Thread nD τ) (0 : CellTallies nD τ sig Unit) W)

/-- The prefetched tables' admissible contents: no call has a table. -/
abbrev adm : (p : Fin 2) → (pcfgs (F := F) p).Adm := fun p => (cfgs p).toPCfg_adm

omit [FloatOps F] in
/-- No call prefetches a table. -/
theorem prefHeld_emp (p : Fin 2) (c : Dev nD) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

set_option backward.isDefEq.respectTransparency.types false in
/-- THE DEQUANTISATION CALL: its four arrays into the pipeline, the five other unscoped buffers bypassing; it leaves
    the weight array at `W0` and everything else as found. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (Dequant.body0 c (A0 m c)).toR
  hwaits := Pipeline.RDat.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X _ := iprop(emp)
  Y _ := iprop(emp)
  Z c := Pipeline.unscopedRest (Ix := Unit) (Name := ℕ) (U := UR sig nD τ) (Lvl := ℕ) spec0 c (fun b => V0 m c b)
  hentry c := by
    rw [Pipeline.ownSems0_none, ← Pipeline.unscopedBufs_held (Ix := Unit) (Name := ℕ) (U := UR sig nD τ) (Lvl := ℕ) c (V0 m c)]
    have hsplit := Pipeline.RDat.arrays_of_unscopedBufs (pcfgs (F := F)) adm (rdats m) (p := 0) launch0.win launch0.arr_whole c
      ((rdats m 0 c).share_full fun _ => rfl) (fun b => V0 m c b) fun _ => rfl
    iintro ⟨⟨Hub, HO⟩, -, -⟩
    ihave H := hsplit $$ Hub
    icases H with ⟨Ha, Hr⟩
    imodintro
    isplitl [Ha]; · iexact Ha
    isplitr; · iapply (prefHeld_emp 0 c); iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hr
  hin c := by
    rw [show (rdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (rdats m 0 c).Φ (Fin.last _) = Pipeline.scopedRest (Ix := Unit) (Name := ℕ) (U := UR sig nD τ) (Lvl := ℕ) (Val := Elt F) spec0 c from rfl]
    iintro Hr; isplitr; · iempintro
    isplitr; · iempintro
    iexact Hr
  hexit c := by
    have hA : (rdats m 0 c).arraysAt (Pipeline.pin (pcfgs (F := F)) adm 0).N
        = ((rdats m 0 c).arrays (fun w => V1 m c (Pipeline.arrRef spec0 w)) : sProp 𝕄) := by
      refine ((Dequant.dat0 c (A0 m c)).toR_arraysAt_eq cfg0.N).trans ?_
      rw [show (fun w => (Dequant.dat0 c (A0 m c)).arrAt w cfg0.N) = fun w => V1 m c (Pipeline.arrRef spec0 w) from funext (arrAt0_eq m c)]
      rfl
    rw [hA, ← Pipeline.unscopedBufs_held (Ix := Unit) (Name := ℕ) (U := UR sig nD τ) (Lvl := ℕ) c (V1 m c),
      Pipeline.unscopedBufs_split (Pipeline.pin (pcfgs (F := F)) adm) 0 launch0.win.arr_unscoped launch0.win.arr_inj c (fun b => V1 m c b),
      Pipeline.RDat.arrays_eq (pcfgs (F := F)) adm (rdats m) 0 c launch0.arr_whole ((rdats m 0 c).share_full fun _ => rfl),
      show Pipeline.unscopedRest (Ix := Unit) (Name := ℕ) (U := UR sig nD τ) (Lvl := ℕ) (Pipeline.pin (pcfgs (F := F)) adm 0).spec c (fun b => V1 m c b)
        = (Pipeline.unscopedRest (Ix := Unit) (Name := ℕ) (U := UR sig nD τ) (Lvl := ℕ) spec0 c (fun b => V0 m c b) : sProp 𝕄) from rest0_eq m c]
    iintro ⟨Ha, HO, -, Hr⟩
    imodintro
    isplitl [Ha Hr]
    · isplitl [Ha]; · iexact Ha
      iexact Hr
    unfold Pipeline.RDat.owesAt Pipeline.owesWithin
    icases HO with ⟨%W, -, HO⟩; iexists W; iexact HO

/-- THE TWO HOST OPERATIONS over the unscoped buffers from `V1`, the core's dues riding along. -/
def seg1 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V1 m) R

set_option backward.isDefEq.respectTransparency.types false in
/-- THE MATRIX-PRODUCT CALL: its four arrays into the pipeline at what the host operations left, the five arguments
    bypassing; of what it leaves in its arrays nothing is kept. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (GemmFrame.body1f c (A1 m c)).toRForget
  hwaits := Pipeline.RDat.hwaits_of_owed_zero _ _ _ _ L lv 1 fun _ _ => rfl
  pre c := iprop(StableHlo.held (c : Thread nD τ) (Pipeline.ucRefs τ sig) (V2 m c) ∗ R c)
  post c := iprop(Pipeline.unscopedRest (Ix := Unit) (Name := ℕ) (U := UR sig nD τ) (Lvl := ℕ) spec1 c (fun b => V2 m c b) ∗ R c)
  X _ := iprop(emp)
  Y _ := iprop(emp)
  Z c := Pipeline.unscopedRest (Ix := Unit) (Name := ℕ) (U := UR sig nD τ) (Lvl := ℕ) spec1 c (fun b => V2 m c b)
  hentry c := by
    rw [Pipeline.ownSems0_none, ← Pipeline.unscopedBufs_held (Ix := Unit) (Name := ℕ) (U := UR sig nD τ) (Lvl := ℕ) c (V2 m c)]
    have hsplit := Pipeline.RDat.arrays_of_unscopedBufs (pcfgs (F := F)) adm (rdats m) (p := 1) launch1.win launch1.arr_whole c
      ((rdats m 1 c).share_full fun _ => rfl) (fun b => V2 m c b) fun _ => rfl
    iintro ⟨⟨Hub, HO⟩, -, -⟩
    ihave H := hsplit $$ Hub
    icases H with ⟨Ha, Hr⟩
    imodintro
    isplitl [Ha]; · iexact Ha
    isplitr; · iapply (prefHeld_emp 1 c); iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hr
  hin c := by
    rw [show (rdats m 1 c).Φ 0 = GemmFrame.inv (F := F) c from rfl,
      show Pipeline.scopedRest (Ix := Unit) (Name := ℕ) (U := UR sig nD τ) (Lvl := ℕ) (Val := Elt F) (Pipeline.pin (pcfgs (F := F)) adm 1).spec c = _ from scopedRest1_eq c]
    unfold GemmFrame.inv GemmFrame.otherStaging
    iintro ⟨-, -, H0, H1, H2, H3, H4, H5, H6, H7, H8⟩
    isplitr [H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact H8
  hout c := by
    rw [Pipeline.ownSems0_none, show (rdats m 1 c).Φ (Fin.last _) = GemmFrame.inv (F := F) c from rfl,
      show Pipeline.scopedRest (Ix := Unit) (Name := ℕ) (U := UR sig nD τ) (Lvl := ℕ) (Val := Elt F) (Pipeline.pin (pcfgs (F := F)) adm 1).spec c = _ from scopedRest1_eq c]
    unfold GemmFrame.inv GemmFrame.otherStaging
    iintro ⟨⟨H0, H1, H2, H3, H4, H5, H6, H7⟩, H8⟩
    isplitr; · iempintro
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  hexit c := by
    iintro ⟨-, HO, -, HZ⟩
    imodintro
    isplitl [HZ]; · iexact HZ
    unfold Pipeline.RDat.owesAt Pipeline.owesWithin
    icases HO with ⟨%W, -, HO⟩; iexists W; iexact HO

/-! ## The launch, by the library -/

/-- The rounds library's launch element: every staging cell's owner at round 0 and a duty token for every transfer
    the two pipelines issue. -/
def u₀ : UR sig nD τ := initOf (Pipeline.cells (cfgs) cellOf_inj) (Pipeline.launchToks (cfgs) cellOf_inj)

/-- No item writes an argument: each reaches the end as launched. -/
theorem V2_arg (c : Dev nD) (r : Ref sig .tc) (h1 : r ∉ hostOps1_W) (h0 : r ≠ main_v0) : V2 m c r = m ((c : Thread nD τ).loc r) :=
  (V2_of m c r h1).trans (V1_of m c r h0)

set_option backward.isDefEq.respectTransparency.types false in
/-- The frame of the printed program, at any float instance: every weakly fair execution from a memory with zero
    counters terminates, and every final memory holds each argument as launched. -/
theorem frame_any :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.RDat.θ_run_regions_kit (pcfgs (F := F)) adm (rdats m) () cellOf_inj EP defs₀ 𝒱₀ L lv m ρ main
    [.region (reg0 m), .host (seg1 m), .region (reg1 m)]
    (fun c Q => by
      rewrite [main_chain c, Pipeline.RDat.Seg.run_eq_chain,
        show ([.region (reg0 m), .host (seg1 m), .region (reg1 m)] : List (Pipeline.RDat.Seg (pcfgs (F := F)) adm (rdats m) () defs₀ 𝒱₀ L lv)).map Pipeline.RDat.Seg.prog = [
          Prog.lift (.customCall (Pipeline.entry 0) ()),
          StableHlo.seq hostOps1,
          Prog.lift (.customCall (Pipeline.entry 1) ()) ] from rfl]
      exact .rfl)
    (by simp only [Pipeline.RDat.Seg.pipes_host, Pipeline.RDat.Seg.pipes_region, Pipeline.RDat.Seg.pipes_nil]; decide)
    (O₀ := 0) (hL := fun _ _ => rfl) (G := fun _ => iprop(emp)) (u₀ := u₀) (hu₀ := ?_)
    (T₀ := fun c => iprop(StableHlo.held (c : Thread nD τ) (Pipeline.ucRefs τ sig) (V0 m c) ∗ R c))
    (Tₙ := fun c => Pipeline.unscopedRest (Ix := Unit) (Name := ℕ) (U := UR sig nD τ) (Lvl := ℕ) spec1 c (fun b => V2 m c b))
    (hch := ⟨fun _ => .rfl, fun _ => .rfl, fun _ => .rfl, fun _ => .rfl⟩)
    (hinit := ?_)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch element is the library's, and no ghost resource is dealt
    have hu : (ownU u₀ : sProp 𝕄) ⊢ BI.own (EP (initOf (Pipeline.cells (Pipeline.pin (pcfgs (F := F)) adm) cellOf_inj)
        (Pipeline.launchToks (Pipeline.pin (pcfgs (F := F)) adm) cellOf_inj))) := BI.Entails.refl _
    iintro Hu
    imodintro
    isplitl [Hu]; · iapply hu; iexact Hu
    iapply (show (BI.emp : sProp 𝕄) ⊢ bigSep Finset.univ (fun _ : Dev nD => (BI.emp : sProp 𝕄)) from by rw [BI.bigSep_emp_const])
    iempintro
  · -- the launch: each core holds its unscoped buffers at the launch contents and owes nothing
    refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · -- the end: each argument's buffer read against the final memory
    rw [unscopedRest1_eq]
    iintro ⟨⟨H0, H1, H2, H3, H4⟩, HSI⟩
    icombine HSI H0 gives %h0
    icombine HSI H1 gives %h1
    icombine HSI H2 gives %h2
    icombine HSI H3 gives %h3
    icombine HSI H4 gives %h4
    imodintro
    isplitr
    · ipureintro
      exact ⟨(Buf.eq_of_forall_mem_univ h0).trans (V2_arg m c main_arg0 (by decide) (by decide)),
        (Buf.eq_of_forall_mem_univ h1).trans (V2_arg m c main_arg1 (by decide) (by decide)),
        (Buf.eq_of_forall_mem_univ h2).trans (V2_arg m c main_arg2 (by decide) (by decide)),
        (Buf.eq_of_forall_mem_univ h3).trans (V2_arg m c main_arg3 (by decide) (by decide)),
        (Buf.eq_of_forall_mem_univ h4).trans (V2_arg m c main_arg4 (by decide) (by decide))⟩
    · iexact HSI

/-- The frame of the printed kernel program: it runs, and its arguments end unchanged. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_any (F := Bits) m ρ

end Cert.Kernel.Run

end
-- ==== Proof.DequantData.lean ====
/-
  The dequantisation call (a 4 × 11 grid of 1024 × 1024 output blocks): what each window's staging buffer holds after
  the body at a grid point, as functions of the arrays the call is entered with.

  Point (k, j) reads rows 1024k.. of the packed words (128 words = 1024 weights wide), the eight group rows 8k.. of
  the zero points and scales, and writes the 1024 × 1024 block (k, j) of the weight array.  11008 = 10·1024 + 768, so
  the last column block overhangs every array; its transfers are cut at the array's end, and past that end a staging
  buffer holds words nothing names.  So every window is stated on its part inside the array only: the input windows
  hold the array's block there, the output window holds the block of the ONE whole-array function `Spec.deqArr`.
-/
import proofs.«425978_j1005022347685_2_alg».proof.Proof.Gen.KernelIdeal.Launch
import proofs.«425978_j1005022347685_2_alg».proof.Proof.Gen.KernelIdeal.Points
import proofs.«425978_j1005022347685_2_alg».proof.Proof.Spec
import Idealize.ShloMosaic.Lib.Pipeline.Kit

noncomputable section

namespace Cert.KernelIdeal.Dequant

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-- The arrays the call's four windows range over (packed words, zero points, scales, weights), at the contents the
    call is entered with. -/
abbrev Arrs (c : Dev nD) : Type :=
  (w : Fin cfg0.W) → Buf (Elt F) ((cfg0.win w).arr.view.loc (c : Thread nD τ))

variable (c : Dev nD) (A : Arrs (F := F) c)

/-- The whole dequantised weight array, as one function of the three input arrays. -/
def weights : Buf (Elt F) ((cfg0.win 3).arr.view.loc (c : Thread nD τ)) :=
  Cert.Spec.deqArr (F := F) (A 0) (A 1) (A 2)

/-- The proof data on core `c`: after the body each input buffer holds its array's block and the output buffer the
    block of `weights`, each on the part inside the array (filled out with a zero word elsewhere, which nothing
    reads); the invariant is the core's other scoped buffers riding along; nothing is owed; full shares. -/
def dat0 : Dat τ (Elt F) Unit ℕ (UR sig nD τ) ℕ cfg0 c where
  A := A
  after w t := match w with
    | ⟨0, _⟩ => win0_0.fill (grid0.coords t) (fun _ => (0#32 : BitVec 32)) ((win0_0.blk t).view.read (Elt F) (A 0))
    | ⟨1, _⟩ => win0_1.fill (grid0.coords t) (fun _ => (0#32 : BitVec 32)) ((win0_1.blk t).view.read (Elt F) (A 1))
    | ⟨2, _⟩ => win0_2.fill (grid0.coords t) (fun _ => Scalar.ofBits .f32 0#32) ((win0_2.blk t).view.read (Elt F) (A 2))
    | ⟨3, _⟩ => win0_3.fill (grid0.coords t) (fun _ => Scalar.ofBits .bf16 0#16) ((win0_3.blk t).view.read (Elt F) (weights c A))
  Φ _ := Pipeline.scopedRest (Ix := Unit) (Name := ℕ) (U := UR sig nD τ) (Lvl := ℕ) (Val := Elt F) spec0 c
  q _ := fullShare
  owed _ := 0

end Cert.KernelIdeal.Dequant

end
-- ==== Proof.DequantBody.lean ====
/-
  The dequantisation body at one grid point meets its obligation: eight trips, each reading 128 rows of packed words
  and one group row of zero points and scales and writing 128 rows of weights, leave the output buffer holding, on the
  columns inside the array, the block of `Spec.deqArr`; the input buffers are left as found.

  The argument, in order. (1) The value a trip stores, read at (r, cc): the shifts, the mask and the 128 × 128 × 8 →
  128 × 1024 relayout give field cc mod 8 of word (r, cc div 8); with the broadcast zero-point and scale rows that is
  `Spec.deqElt` of the three loaded values. (2) The eight stored row stretches are stretches of ONE function
  `deqBlk` of the three input blocks, and together cover the output block: so after the loop the output buffer reads
  `deqBlk`, whatever it held. (3) On the part of the output block inside the weight array, `deqBlk` of the fetched
  input blocks is `Spec.deqArr` read through the block: the overhangs of the four windows are proportional
  (1376 = 11008 / 8), so an output column inside the weight array reads input words inside their arrays, where the
  fetched blocks hold the arrays' words. (4) The obligation: the three input windows hand back what they found, the
  output window the buffer holding `deqBlk`, which agrees with the stated contents on the part the write-back moves.
-/
import proofs.«425978_j1005022347685_2_alg».proof.Proof.DequantData
import proofs.«425978_j1005022347685_2_alg».proof.Proof.Gen.KernelIdeal.Skeleton
import proofs.«425978_j1005022347685_2_alg».proof.Proof.Gen.KernelIdeal.Loops
import Idealize.ShloMosaic.Lib.Tactic
import Idealize.ShloMosaic.Lib.ValueLayout
import Idealize.ShloMosaic.Lib.Pipeline.Value

noncomputable section

namespace Cert.KernelIdeal.Dequant

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-! ## The stored value at an index -/

/-- Field p of a word, with the shift amount as the lanes compute it: the lane number p (below 8) times 4 is below
    the word width, so the lanes' arithmetic shift is the plain one by 4p. -/
theorem shr_and_eq_nibble (q : BitVec 32) (p : Fin 8) :
    IntOp.andi (IntOp.shrsi .vector q (IntOp.muli (BitVec.ofNat 32 p.val) 4#32)) 15#32 = Cert.Spec.nibble q p.val := by
  have h : IntOp.muli (BitVec.ofNat 32 p.val) 4#32 = BitVec.ofNat 32 (4 * p.val) := by
    revert p; decide
  have hlt : (BitVec.ofNat 32 (4 * p.val)).toNat < 32 := by
    revert p; decide
  rw [h]; unfold IntOp.shrsi IntOp.andi Cert.Spec.nibble; rw [if_pos hlt]

/-- The stored 128 × 1024 value at row r, column cc: the dequantised weight of field cc mod 8 of word (r, cc div 8)
    with the zero point and scale of column cc. -/
theorem pay_apply (v4 : Vec F S128x128 .i32) (v6 : Vec F S1x1024 .i32) (v10 : Vec F S1x1024 .f32) (r : Fin 128) (cc : Fin 1024) :
    k0_pay1 v4 v6 v10 (ix2 r cc)
      = Cert.Spec.deqElt (v4 (ix2 r ⟨cc.val / 8, by omega⟩)) (v6 (ix2 (0 : Fin 1) cc)) (v10 (ix2 (0 : Fin 1) cc)) (cc.val % 8) := by
  -- the 128 × 128 × 8 array of fields laid out as 128 × 1024: column cc is field cc mod 8 of word cc div 8
  have hsc : ∀ x : S128x128x8.Idx → BitVec 32, shapeCast S128x1024 x shapeCasts_S128x128x8_S128x1024 (ix2 r cc)
      = x (ix3 r (⟨cc.val / 8, by omega⟩ : Fin 128) (⟨cc.val % 8, by omega⟩ : Fin 8)) := fun x =>
    shapeCast_apply x _ _ _ (by
      rw [Shape.rowMajor_val_three, Shape.rowMajor_val_two]
      show (r.val * 128 + cc.val / 8) * 8 + cc.val % 8 = r.val * 1024 + cc.val
      omega)
  -- a word copied along the new last axis
  have hb1 : ∀ (x : S128x128x1.Idx → BitVec 32) (a : Fin 128) (b : Fin 128) (p : Fin 8),
      broadcastTo S128x128x8 x broadcasts_S128x128x1_S128x128x8 (ix3 a b p) = x (ix3 a b (0 : Fin 1)) := fun x a b p =>
    broadcastTo_apply x _ _ _ fun ax => by
      match ax with
      | ⟨0, _⟩ => rfl
      | ⟨1, _⟩ => rfl
      | ⟨2, _⟩ => rfl
  have hc1 : ∀ (a : Fin 128) (b : Fin 128), shapeCast S128x128x1 v4 shapeCasts_S128x128_S128x128x1 (ix3 a b (0 : Fin 1)) = v4 (ix2 a b) := fun a b =>
    shapeCast_apply v4 _ _ _ (by
      rw [Shape.rowMajor_val_three, Shape.rowMajor_val_two]
      show a.val * 128 + b.val = (a.val * 128 + b.val) * 1 + 0
      omega)
  -- the eight shift amounts copied over every word
  have hb2 : ∀ (x : S1x1x8.Idx → BitVec 32) (a : Fin 128) (b : Fin 128) (p : Fin 8),
      broadcastTo S128x128x8 x broadcasts_S1x1x8_S128x128x8 (ix3 a b p) = x (ix3 (0 : Fin 1) (0 : Fin 1) p) := fun x a b p =>
    broadcastTo_apply x _ _ _ fun ax => by
      match ax with
      | ⟨0, _⟩ => rfl
      | ⟨1, _⟩ => rfl
      | ⟨2, _⟩ => rfl
  have hio : ∀ p : Fin 8, iota Kind.tc S1x1x8 32 [2] iota_S1x1x8_d2_w32 (ix3 (0 : Fin 1) (0 : Fin 1) p) = BitVec.ofNat 32 p.val := fun p =>
    iota_single_apply _ _ _ _ _ _
  unfold k0_pay1 Cert.Spec.deqElt
  simp only [truncf, mulf, subf, sitofp]
  rw [broadcastTo_1b_ab_apply, broadcastTo_1b_ab_apply, shapeCast_a_1a_apply, shapeCast_a_1a_apply]
  simp only [sitofp]
  rw [shapeCast_1a_a_apply, shapeCast_1a_a_apply, hsc]
  simp only [andi, shrsi, muli, broadcast]
  rw [hb1, hc1, hb2]
  simp only [muli, broadcast]
  rw [hio, shr_and_eq_nibble]

/-! ## The output block as one function of the three input blocks -/

/-- One whole 1024 × 1024 output block from a block of packed words, of zero points and of scales: at (r, cc) the
    dequantised weight of field cc mod 8 of word (r, cc div 8), with the zero point and scale of group r div 128
    and column cc. -/
def deqBlk (X0 : S1024x128.Idx → Elt F .i32) (X1 : S8x1024.Idx → Elt F .i32) (X2 : S8x1024.Idx → Elt F .f32) :
    S1024x1024.Idx → Elt F .bf16 := fun y =>
  Cert.Spec.deqElt (F := F)
    (X0 (ix2 (⟨(y 0).val, idx2_lt0 y⟩ : Fin 1024) (⟨(y 1).val / 8, by have := idx2_lt1 y; omega⟩ : Fin 128)))
    (X1 (ix2 (⟨(y 0).val / 128, by have := idx2_lt0 y; omega⟩ : Fin 8) (⟨(y 1).val, idx2_lt1 y⟩ : Fin 1024)))
    (X2 (ix2 (⟨(y 0).val / 128, by have := idx2_lt0 y; omega⟩ : Fin 8) (⟨(y 1).val, idx2_lt1 y⟩ : Fin 1024)))
    ((y 1).val % 8)

/-- The loop runs eight trips. -/
theorem trips8 : k0_t1_loop.trips = 8 := by decide +kernel

/-- Trip k reads the packed words from row 128k, -/
theorem off1_eq (k : Fin k0_t1_loop.trips) : k0_off1 k 0 = 128 * k.val ∧ k0_off1 k 1 = 0 := by
  revert k; decide +kernel
/-- the zero points and scales at row k, -/
theorem off2_eq (k : Fin k0_t1_loop.trips) : k0_off2 k 0 = k.val ∧ k0_off2 k 1 = 0 := by
  revert k; decide +kernel
/-- and writes the weights from row 128k. -/
theorem off3_eq (k : Fin k0_t1_loop.trips) : k0_off3 k 0 = 128 * k.val ∧ k0_off3 k 1 = 0 := by
  revert k; decide +kernel

section Pieces

variable (m2 : Memref sig .tc .vmem S1024x128 .i32) (m3 : Memref sig .tc .vmem S8x1024 .i32) (m4 : Memref sig .tc .vmem S8x1024 .f32)
  (f2 : BufTy.Contents (Elt F) m2.view.ty) (f3 : BufTy.Contents (Elt F) m3.view.ty) (f4 : BufTy.Contents (Elt F) m4.view.ty)

/-- What trip k stores: through rows 128k .. 128k + 127 of the output buffer, the value computed from the trip's
    three loads. -/
def pieceOf (k : Fin k0_t1_loop.trips) : View.Piece (Elt F) S1024x1024 .bf16 :=
  ⟨Rect.unit (s := S1024x1024) (k0_off3 k) S128x1024.size (k0_off3_inb k),
    k0_pay1 (View.readAt (Elt F) m2.view (Rect.unit (s := S1024x128) (k0_off1 k) S128x128.size (k0_off1_inb k)).toLoadRect f2)
      (View.readAt (Elt F) m3.view (Rect.unit (s := S8x1024) (k0_off2 k) S1x1024.size (k0_off2_inb k)).toLoadRect f3)
      (View.readAt (Elt F) m4.view (Rect.unit (s := S8x1024) (k0_off2 k) S1x1024.size (k0_off2_inb k)).toLoadRect f4)⟩

/-- Every element of trip k's piece is the block function's: the trip's rows of words, its group row of zero points
    and scales are the ones the block function reads at the piece's rows. -/
theorem piece_agrees (X0 : S1024x128.Idx → Elt F .i32) (X1 : S8x1024.Idx → Elt F .i32) (X2 : S8x1024.Idx → Elt F .f32)
    (hf2 : m2.view.read (Elt F) f2 = X0) (hf3 : m3.view.read (Elt F) f3 = X1) (hf4 : m4.view.read (Elt F) f4 = X2)
    (k : Fin k0_t1_loop.trips) (x : (pieceOf m2 m3 m4 f2 f3 f4 k).1.shape.Idx) :
    (pieceOf m2 m3 m4 f2 f3 f4 k).2 x = deqBlk X0 X1 X2 ((pieceOf m2 m3 m4 f2 f3 f4 k).1.emb x) := by
  have hk : k.val < 8 := lt_of_lt_of_eq k.isLt trips8
  obtain ⟨o10, o11⟩ := off1_eq k
  obtain ⟨o20, o21⟩ := off2_eq k
  obtain ⟨o30, o31⟩ := off3_eq k
  obtain ⟨r, cc, rfl⟩ : ∃ (r : Fin 128) (cc : Fin 1024), x = ix2 r cc := ⟨x 0, x 1, eq_ix2 x⟩
  have hemb : (Rect.unit (s := S1024x1024) (k0_off3 k) S128x1024.size (k0_off3_inb k)).emb (ix2 r cc)
      = ix2 (⟨128 * k.val + r.val, by omega⟩ : Fin 1024) (⟨cc.val, by omega⟩ : Fin 1024) :=
    Shape.idx_ext₂ (by show k0_off3 k 0 + 1 * r.val = 128 * k.val + r.val; omega)
      (by show k0_off3 k 1 + 1 * cc.val = cc.val; omega)
  have i2 : (Rect.unit (s := S1024x128) (k0_off1 k) S128x128.size (k0_off1_inb k)).toLoadRect.idx
        (ix2 r (⟨cc.val / 8, by omega⟩ : Fin 128))
      = ix2 (⟨128 * k.val + r.val, by omega⟩ : Fin 1024) (⟨cc.val / 8, by omega⟩ : Fin 128) :=
    Shape.idx_ext₂ (by show k0_off1 k 0 + 1 * r.val = 128 * k.val + r.val; omega)
      (by show k0_off1 k 1 + 1 * (cc.val / 8) = cc.val / 8; omega)
  have i3 : (Rect.unit (s := S8x1024) (k0_off2 k) S1x1024.size (k0_off2_inb k)).toLoadRect.idx (ix2 (0 : Fin 1) cc)
      = ix2 (⟨(128 * k.val + r.val) / 128, by omega⟩ : Fin 8) (⟨cc.val, by omega⟩ : Fin 1024) :=
    Shape.idx_ext₂ (by show k0_off2 k 0 + 1 * 0 = (128 * k.val + r.val) / 128; omega)
      (by show k0_off2 k 1 + 1 * cc.val = cc.val; omega)
  show k0_pay1 _ _ _ (ix2 r cc) = deqBlk X0 X1 X2 ((Rect.unit (s := S1024x1024) (k0_off3 k) S128x1024.size (k0_off3_inb k)).emb (ix2 r cc))
  rw [pay_apply, hemb]
  unfold deqBlk
  simp only [View.readAt_apply]
  rw [hf2, hf3, hf4, i2, i3]

variable (𝒱 : Variants) (c : Dev nD) (bd : Option 𝒱.V) (i : grid0.Coords) (h2 : m2.IsWhole) (h3 : m3.IsWhole) (h4 : m4.IsWhole)
  (m5 : Memref sig .tc .vmem S1024x1024 .bf16) (h5 : m5.IsWhole)

/-- The list of pieces a trip of the loop contributes is its one store. -/
theorem tripL_eq (k : Fin k0_t1_loop.trips) :
    tripL_k0_t1 (F := F) 𝒱 c bd i m2 h2 m3 h3 m4 h4 m5 h5 f2 f3 f4 k = [pieceOf m2 m3 m4 f2 f3 f4 k] := by
  unfold tripL_k0_t1 trip_k0_t1; rfl

/-- Every piece written before trip n is some trip's store, -/
theorem pb_sub (n : ℕ) : ∀ p ∈ pb_k0_t1 (F := F) 𝒱 c bd i m2 h2 m3 h3 m4 h4 m5 h5 f2 f3 f4 n,
    ∃ k : Fin k0_t1_loop.trips, p = pieceOf m2 m3 m4 f2 f3 f4 k := by
  induction n with
  | zero => intro p hp; rw [pb_k0_t1.eq_1] at hp; exact absurd hp List.not_mem_nil
  | succ n ih =>
    intro p hp
    rw [pb_k0_t1.eq_2] at hp; unfold pb_k0_t1Step at hp
    split at hp
    · next h =>
      rw [tripL_eq, List.mem_append, List.mem_singleton] at hp
      rcases hp with rfl | hp
      · exact ⟨_, rfl⟩
      · exact ih p hp
    · exact ih p hp

/-- and every trip before n has stored its piece. -/
theorem mem_pb (n : ℕ) (k : Fin k0_t1_loop.trips) (hk : k.val < n) :
    pieceOf m2 m3 m4 f2 f3 f4 k ∈ pb_k0_t1 (F := F) 𝒱 c bd i m2 h2 m3 h3 m4 h4 m5 h5 f2 f3 f4 n := by
  induction n with
  | zero => omega
  | succ n ih =>
    rw [pb_k0_t1.eq_2]; unfold pb_k0_t1Step
    by_cases h : n < k0_t1_loop.trips
    · rw [dif_pos h, tripL_eq]
      by_cases hkn : k.val = n
      · have hkk : k = ⟨n, h⟩ := Fin.ext hkn
        rw [hkk]; exact List.mem_append_left _ (List.mem_singleton_self _)
      · exact List.mem_append_right _ (ih (by omega))
    · rw [dif_neg h]; exact ih (by have := k.isLt; omega)

/-- So after the eight trips the output buffer reads the block function, whatever it held before: the eight pieces
    are row stretches of that one function, and every row lies in the stretch of the trip row div 128. -/
theorem read_after (X0 : S1024x128.Idx → Elt F .i32) (X1 : S8x1024.Idx → Elt F .i32) (X2 : S8x1024.Idx → Elt F .f32)
    (hf2 : m2.view.read (Elt F) f2 = X0) (hf3 : m3.view.read (Elt F) f3 = X1) (hf4 : m4.view.read (Elt F) f4 = X2)
    (f5 : BufTy.Contents (Elt F) m5.view.ty) :
    m5.view.read (Elt F) (m5.view.writes (Elt F) f5
        (pb_k0_t1 (F := F) 𝒱 c bd i m2 h2 m3 h3 m4 h4 m5 h5 f2 f3 f4 (Scf.trips k0_t1_loop.lb k0_t1_loop.ub k0_t1_loop.st)))
      = deqBlk X0 X1 X2 := by
  funext y
  have hy0 : (y 0).val < 1024 := idx2_lt0 y
  have hy1 : (y 1).val < 1024 := idx2_lt1 y
  refine View.read_writes_apply_of_pieces m5.view f5 (deqBlk X0 X1 X2) _ (fun p hp x => ?_) y ?_
  · obtain ⟨k, rfl⟩ := pb_sub m2 m3 m4 f2 f3 f4 𝒱 c bd i h2 h3 h4 m5 h5 _ p hp
    exact piece_agrees m2 m3 m4 f2 f3 f4 X0 X1 X2 hf2 hf3 hf4 k x
  · have hk : (y 0).val / 128 < k0_t1_loop.trips := by rw [trips8]; omega
    obtain ⟨o30, o31⟩ := off3_eq ⟨(y 0).val / 128, hk⟩
    refine ⟨pieceOf m2 m3 m4 f2 f3 f4 ⟨(y 0).val / 128, hk⟩,
      mem_pb m2 m3 m4 f2 f3 f4 𝒱 c bd i h2 h3 h4 m5 h5 _ ⟨(y 0).val / 128, hk⟩ hk, ?_⟩
    show y ∈ (Rect.unit (s := S1024x1024) (k0_off3 ⟨(y 0).val / 128, hk⟩) S128x1024.size (k0_off3_inb _)).set
    rw [Rect.mem_set_unit]
    intro a
    match a with
    | ⟨0, _⟩ =>
      show k0_off3 ⟨(y 0).val / 128, hk⟩ 0 ≤ (y 0).val ∧ (y 0).val < k0_off3 ⟨(y 0).val / 128, hk⟩ 0 + 128
      rw [o30]; show 128 * ((y 0).val / 128) ≤ (y 0).val ∧ (y 0).val < 128 * ((y 0).val / 128) + 128; omega
    | ⟨1, _⟩ =>
      show k0_off3 ⟨(y 0).val / 128, hk⟩ 1 ≤ (y 1).val ∧ (y 1).val < k0_off3 ⟨(y 0).val / 128, hk⟩ 1 + 1024
      rw [o31]; omega

end Pieces

/-! ## The body's run -/

local notation "𝕄" => MT nD τ sig Unit (Elt F) ℕ (UR sig nD τ) ℕ

/-- The kernel body on any memrefs of the four windows' staging buffers, holding X0, X1, X2 and anything: the eight
    trips leave the three input buffers as found and the output buffer holding the block function of the three. -/
theorem sound_body (c : Dev nD) (E : Set ℕ) (i : grid0.Coords)
    (m2 : Memref sig .tc .vmem S1024x128 .i32) (h2 : m2.IsWhole) (m3 : Memref sig .tc .vmem S8x1024 .i32) (h3 : m3.IsWhole)
    (m4 : Memref sig .tc .vmem S8x1024 .f32) (h4 : m4.IsWhole) (m5 : Memref sig .tc .vmem S1024x1024 .bf16) (h5 : m5.IsWhole)
    (X0 : S1024x128.Idx → Elt F .i32) (X1 : S8x1024.Idx → Elt F .i32) (X2 : S8x1024.Idx → Elt F .f32)
    (X3 : S1024x1024.Idx → Elt F .bf16) (K : PUnit → sProp 𝕄) :
    iprop((owns (c : Thread nD τ) m2 fullShare X0 ∗ owns (c : Thread nD τ) m3 fullShare X1
            ∗ owns (c : Thread nD τ) m4 fullShare X2 ∗ owns (c : Thread nD τ) m5 fullShare X3)
          ∗ (iprop(owns (c : Thread nD τ) m2 fullShare X0 ∗ owns (c : Thread nD τ) m3 fullShare X1
                  ∗ owns (c : Thread nD τ) m4 fullShare X2 ∗ owns (c : Thread nD τ) m5 fullShare (deqBlk X0 X1 X2)) -∗ K ⟨⟩))
      ⊢ wp frame (wpE (defs₀ (F := F)) Variants.none c none) E (cc0__dequant_kernel i m2 h2 m3 h3 m4 h4 m5 h5) K := by
  rw [cc0__dequant_kernel_eq_skeleton]; unfold cc0__dequant_kernel_skel
  unfold owns
  iintro ⟨⟨⟨%f2, %hf2, H2⟩, ⟨%f3, %hf3, H3⟩, ⟨%f4, %hf4, H4⟩, ⟨%f5, %hf5, H5⟩⟩, Hk⟩
  sl_exec
  rw [wp_ret]; imodintro
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  · iexists _; isplitr
    · ipureintro
      exact read_after m2 m3 m4 f2 f3 f4 Variants.none c none i h2 h3 h4 m5 h5 X0 X1 X2 hf2 hf3 hf4 f5
    iexact H5

/-! ## The cut: on the part of each block inside its array -/

/-- A coordinate is among those a cut transfer moves iff it is inside the block and, placed in the array, inside the
    array. -/
theorem lt_extent_iff {ix k d j : Nat} (h : ix * k < d) :
    j < (Pipeline.Clip.of ix k d).extent k ↔ j < k ∧ ix * k + j < d := by
  unfold Pipeline.Clip.of
  split
  · next hle => rw [Nat.add_one_mul] at hle; show j < k ↔ _; omega
  · next hn => rw [Nat.add_one_mul] at hn; show j < d - ix * k ↔ _; omega

/-- Every window's block index at a grid point is the point's pair of coordinates. -/
theorem idx_maps : ∀ (i : grid0.Coords) (a : Fin 2), cc0_transform_0 i a = (i a).val ∧ cc0_transform_1 i a = (i a).val
    ∧ cc0_transform_2 i a = (i a).val ∧ cc0_transform_3 i a = (i a).val := by
  decide +kernel

/-- A filled block at an index the transfer moves is what was filled in. -/
theorem fill_apply_of_lt {G : Pipeline.Grid} (w : Pipeline.Window sig G) {α : Type} (i : G.Coords) (d : w.block.Idx → α)
    (g : (w.xblock i).Idx → α) (y : w.block.Idx) (h : ∀ a, (y a).val < w.xsize i a) :
    w.fill i d g y = g (fun a => ⟨(y a).val, h a⟩) := by
  unfold Pipeline.Window.fill; rw [dif_pos ((w.moved_iff i y).mpr h)]

theorem deqElt_congr {q q' z z' : BitVec 32} {s s' : F .f32} {p p' : Nat} (hq : q = q') (hz : z = z') (hs : s = s')
    (hp : p = p') : Cert.Spec.deqElt q z s p = Cert.Spec.deqElt q' z' s' p' := by
  subst hq hz hs hp; rfl

section Fetched

variable (c : Dev nD) (A : Arrs (F := F) c) (t : Fin cfg0.N)

/-- The fetched block of packed words, at a block coordinate whose place in the array is inside the array, holds the
    array's word there: at block index times block size plus the coordinate. -/
theorem fetched0 (d0 : S1024x128.Idx → Elt F .i32) (a : Fin 1024) (b : Fin 128)
    (ha : (grid0.coords t 0).val * 1024 + a.val < 4096) (hb : (grid0.coords t 1).val * 128 + b.val < 1376) :
    win0_0.fill (grid0.coords t) d0 ((win0_0.blk t).view.read (Elt F) (A 0)) (ix2 a b)
      = A 0 (ix2 (⟨(grid0.coords t 0).val * 1024 + a.val, ha⟩ : Fin 4096) (⟨(grid0.coords t 1).val * 128 + b.val, hb⟩ : Fin 1376)) := by
  obtain ⟨m00, -, -, -⟩ := idx_maps (grid0.coords t) 0
  obtain ⟨m01, -, -, -⟩ := idx_maps (grid0.coords t) 1
  have hm : ∀ ax, ((ix2 a b : win0_0.block.Idx) ax).val < win0_0.xsize (grid0.coords t) ax := by
    intro ax
    match ax with
    | ⟨0, _⟩ =>
      exact (lt_extent_iff (hstart0_0 (grid0.coords t) 0)).mpr
        ⟨a.isLt, by show cc0_transform_0 (grid0.coords t) 0 * 1024 + a.val < 4096; rw [m00]; exact ha⟩
    | ⟨1, _⟩ =>
      exact (lt_extent_iff (hstart0_0 (grid0.coords t) 1)).mpr
        ⟨b.isLt, by show cc0_transform_0 (grid0.coords t) 1 * 128 + b.val < 1376; rw [m01]; exact hb⟩
  rw [fill_apply_of_lt win0_0 (grid0.coords t) d0 _ (ix2 a b) hm]
  show A 0 ((win0_0.rect t).emb _) = A 0 _
  refine congrArg (A 0) (Shape.idx_ext₂ ?_ ?_)
  · rw [win0_0.rect_emb_val]; show cc0_transform_0 (grid0.coords t) 0 * 1024 + a.val = _; rw [m00]
  · rw [win0_0.rect_emb_val]; show cc0_transform_0 (grid0.coords t) 1 * 128 + b.val = _; rw [m01]

/-- The same for the fetched block of zero points, -/
theorem fetched1 (d1 : S8x1024.Idx → Elt F .i32) (a : Fin 8) (b : Fin 1024)
    (ha : (grid0.coords t 0).val * 8 + a.val < 32) (hb : (grid0.coords t 1).val * 1024 + b.val < 11008) :
    win0_1.fill (grid0.coords t) d1 ((win0_1.blk t).view.read (Elt F) (A 1)) (ix2 a b)
      = A 1 (ix2 (⟨(grid0.coords t 0).val * 8 + a.val, ha⟩ : Fin 32) (⟨(grid0.coords t 1).val * 1024 + b.val, hb⟩ : Fin 11008)) := by
  obtain ⟨-, m10, -, -⟩ := idx_maps (grid0.coords t) 0
  obtain ⟨-, m11, -, -⟩ := idx_maps (grid0.coords t) 1
  have hm : ∀ ax, ((ix2 a b : win0_1.block.Idx) ax).val < win0_1.xsize (grid0.coords t) ax := by
    intro ax
    match ax with
    | ⟨0, _⟩ =>
      exact (lt_extent_iff (hstart0_1 (grid0.coords t) 0)).mpr
        ⟨a.isLt, by show cc0_transform_1 (grid0.coords t) 0 * 8 + a.val < 32; rw [m10]; exact ha⟩
    | ⟨1, _⟩ =>
      exact (lt_extent_iff (hstart0_1 (grid0.coords t) 1)).mpr
        ⟨b.isLt, by show cc0_transform_1 (grid0.coords t) 1 * 1024 + b.val < 11008; rw [m11]; exact hb⟩
  rw [fill_apply_of_lt win0_1 (grid0.coords t) d1 _ (ix2 a b) hm]
  show A 1 ((win0_1.rect t).emb _) = A 1 _
  refine congrArg (A 1) (Shape.idx_ext₂ ?_ ?_)
  · rw [win0_1.rect_emb_val]; show cc0_transform_1 (grid0.coords t) 0 * 8 + a.val = _; rw [m10]
  · rw [win0_1.rect_emb_val]; show cc0_transform_1 (grid0.coords t) 1 * 1024 + b.val = _; rw [m11]

/-- and of scales. -/
theorem fetched2 (d2 : S8x1024.Idx → Elt F .f32) (a : Fin 8) (b : Fin 1024)
    (ha : (grid0.coords t 0).val * 8 + a.val < 32) (hb : (grid0.coords t 1).val * 1024 + b.val < 11008) :
    win0_2.fill (grid0.coords t) d2 ((win0_2.blk t).view.read (Elt F) (A 2)) (ix2 a b)
      = A 2 (ix2 (⟨(grid0.coords t 0).val * 8 + a.val, ha⟩ : Fin 32) (⟨(grid0.coords t 1).val * 1024 + b.val, hb⟩ : Fin 11008)) := by
  obtain ⟨-, -, m20, -⟩ := idx_maps (grid0.coords t) 0
  obtain ⟨-, -, m21, -⟩ := idx_maps (grid0.coords t) 1
  have hm : ∀ ax, ((ix2 a b : win0_2.block.Idx) ax).val < win0_2.xsize (grid0.coords t) ax := by
    intro ax
    match ax with
    | ⟨0, _⟩ =>
      exact (lt_extent_iff (hstart0_2 (grid0.coords t) 0)).mpr
        ⟨a.isLt, by show cc0_transform_2 (grid0.coords t) 0 * 8 + a.val < 32; rw [m20]; exact ha⟩
    | ⟨1, _⟩ =>
      exact (lt_extent_iff (hstart0_2 (grid0.coords t) 1)).mpr
        ⟨b.isLt, by show cc0_transform_2 (grid0.coords t) 1 * 1024 + b.val < 11008; rw [m21]; exact hb⟩
  rw [fill_apply_of_lt win0_2 (grid0.coords t) d2 _ (ix2 a b) hm]
  show A 2 ((win0_2.rect t).emb _) = A 2 _
  refine congrArg (A 2) (Shape.idx_ext₂ ?_ ?_)
  · rw [win0_2.rect_emb_val]; show cc0_transform_2 (grid0.coords t) 0 * 8 + a.val = _; rw [m20]
  · rw [win0_2.rect_emb_val]; show cc0_transform_2 (grid0.coords t) 1 * 1024 + b.val = _; rw [m21]

/-- On the part of the output block inside the weight array, the block function of the three fetched input blocks
    is the dequantised weight array read through the block: a column inside the weight array has its word column
    inside the packed array (1376 = 11008 / 8) and is itself inside the zero-point and scale arrays, so there the
    fetched blocks hold the arrays' words, at block index times block size plus the coordinate inside the block. -/
theorem cut_deq (d0 : S1024x128.Idx → Elt F .i32) (d1 : S8x1024.Idx → Elt F .i32) (d2 : S8x1024.Idx → Elt F .f32) :
    win0_3.cut (grid0.coords t)
        (deqBlk (win0_0.fill (grid0.coords t) d0 ((win0_0.blk t).view.read (Elt F) (A 0)))
          (win0_1.fill (grid0.coords t) d1 ((win0_1.blk t).view.read (Elt F) (A 1)))
          (win0_2.fill (grid0.coords t) d2 ((win0_2.blk t).view.read (Elt F) (A 2))))
      = (win0_3.blk t).view.read (Elt F) (weights c A) := by
  funext j
  have hi0 : (grid0.coords t 0).val < 4 := (grid0.coords t 0).isLt
  have hi1 : (grid0.coords t 1).val < 11 := (grid0.coords t 1).isLt
  obtain ⟨-, -, -, m30⟩ := idx_maps (grid0.coords t) 0
  obtain ⟨-, -, -, m31⟩ := idx_maps (grid0.coords t) 1
  have hj0 : (j 0).val < 1024 ∧ cc0_transform_3 (grid0.coords t) 0 * 1024 + (j 0).val < 4096 :=
    (lt_extent_iff (hstart0_3 (grid0.coords t) 0)).mp (j 0).isLt
  have hj1 : (j 1).val < 1024 ∧ cc0_transform_3 (grid0.coords t) 1 * 1024 + (j 1).val < 11008 :=
    (lt_extent_iff (hstart0_3 (grid0.coords t) 1)).mp (j 1).isLt
  rw [m30] at hj0; rw [m31] at hj1
  have e0 : ((win0_3.rect t).emb j 0).val = (grid0.coords t 0).val * 1024 + (j 0).val := by
    rw [win0_3.rect_emb_val]; show cc0_transform_3 (grid0.coords t) 0 * 1024 + (j 0).val = _; rw [m30]
  have e1 : ((win0_3.rect t).emb j 1).val = (grid0.coords t 1).val * 1024 + (j 1).val := by
    rw [win0_3.rect_emb_val]; show cc0_transform_3 (grid0.coords t) 1 * 1024 + (j 1).val = _; rw [m31]
  show deqBlk _ _ _ (win0_3.xinj (grid0.coords t) j) = weights c A ((win0_3.rect t).emb j)
  refine deqElt_congr ?_ ?_ ?_ ?_
  · refine (fetched0 c A t d0 (⟨(j 0).val, hj0.1⟩ : Fin 1024) (⟨(j 1).val / 8, by omega⟩ : Fin 128)
      (by show _ * 1024 + (j 0).val < 4096; omega) (by show _ * 128 + (j 1).val / 8 < 1376; omega)).trans ?_
    refine congrArg (A 0) (Shape.idx_ext₂ ?_ ?_)
    · show (grid0.coords t 0).val * 1024 + (j 0).val = ((win0_3.rect t).emb j 0).val; rw [e0]
    · show (grid0.coords t 1).val * 128 + (j 1).val / 8 = ((win0_3.rect t).emb j 1).val / 8; rw [e1]; omega
  · refine (fetched1 c A t d1 (⟨(j 0).val / 128, by omega⟩ : Fin 8) (⟨(j 1).val, hj1.1⟩ : Fin 1024)
      (by show _ * 8 + (j 0).val / 128 < 32; omega) (by show _ * 1024 + (j 1).val < 11008; omega)).trans ?_
    refine congrArg (A 1) (Shape.idx_ext₂ ?_ ?_)
    · show (grid0.coords t 0).val * 8 + (j 0).val / 128 = ((win0_3.rect t).emb j 0).val / 128; rw [e0]; omega
    · show (grid0.coords t 1).val * 1024 + (j 1).val = ((win0_3.rect t).emb j 1).val; rw [e1]
  · refine (fetched2 c A t d2 (⟨(j 0).val / 128, by omega⟩ : Fin 8) (⟨(j 1).val, hj1.1⟩ : Fin 1024)
      (by show _ * 8 + (j 0).val / 128 < 32; omega) (by show _ * 1024 + (j 1).val < 11008; omega)).trans ?_
    refine congrArg (A 2) (Shape.idx_ext₂ ?_ ?_)
    · show (grid0.coords t 0).val * 8 + (j 0).val / 128 = ((win0_3.rect t).emb j 0).val / 128; rw [e0]; omega
    · show (grid0.coords t 1).val * 1024 + (j 1).val = ((win0_3.rect t).emb j 1).val; rw [e1]
  · show (j 1).val % 8 = ((win0_3.rect t).emb j 1).val % 8; rw [e1]; omega

end Fetched

/-! ## What the body finds, and the obligation -/

section Obligation

variable (c : Dev nD) (A : Arrs (F := F) c)

/-- The three input buffers arrive just fetched: the array's block on the part inside the array, d elsewhere; -/
theorem before_0 (t : Fin cfg0.N) (d) :
    (dat0 c A).before (0 : Fin 4) t d = win0_0.fill (grid0.coords t) d ((win0_0.blk t).view.read (Elt F) (A 0)) := by
  unfold Dat.before; rw [if_pos (fetch0_0 t)]; rfl
theorem before_1 (t : Fin cfg0.N) (d) :
    (dat0 c A).before (1 : Fin 4) t d = win0_1.fill (grid0.coords t) d ((win0_1.blk t).view.read (Elt F) (A 1)) := by
  unfold Dat.before; rw [if_pos (fetch0_1 t)]; rfl
theorem before_2 (t : Fin cfg0.N) (d) :
    (dat0 c A).before (2 : Fin 4) t d = win0_2.fill (grid0.coords t) d ((win0_2.blk t).view.read (Elt F) (A 2)) := by
  unfold Dat.before; rw [if_pos (fetch0_2 t)]; rfl

/-- the output buffer at contents nothing names: it is never fetched, and written back at every point. -/
theorem before_3 (t : Fin cfg0.N) (d) : (dat0 c A).before (3 : Fin 4) t d = d := by
  unfold Dat.before
  rw [if_neg (by rw [show (cfg0.win (3 : Fin 4)).fetch t = false from rfl]; exact Bool.false_ne_true)]
  by_cases ht : t.val = 0
  · rw [if_pos ht]
  · rw [if_neg ht]; exact if_pos (flush0_3 _)

/-- The output buffer's contents after the body, filled with themselves outside the part the write-back moves, are
    themselves; on that part they are the weight array's block. -/
theorem out_eq (t : Fin cfg0.N) (d0 : S1024x128.Idx → Elt F .i32) (d1 : S8x1024.Idx → Elt F .i32) (d2 : S8x1024.Idx → Elt F .f32) :
    win0_3.fill (grid0.coords t)
        (deqBlk (win0_0.fill (grid0.coords t) d0 ((win0_0.blk t).view.read (Elt F) (A 0)))
          (win0_1.fill (grid0.coords t) d1 ((win0_1.blk t).view.read (Elt F) (A 1)))
          (win0_2.fill (grid0.coords t) d2 ((win0_2.blk t).view.read (Elt F) (A 2))))
        (win0_3.cut (grid0.coords t)
          (win0_3.fill (grid0.coords t) (fun _ => Scalar.ofBits .bf16 0#16) ((win0_3.blk t).view.read (Elt F) (weights c A))))
      = deqBlk (win0_0.fill (grid0.coords t) d0 ((win0_0.blk t).view.read (Elt F) (A 0)))
          (win0_1.fill (grid0.coords t) d1 ((win0_1.blk t).view.read (Elt F) (A 1)))
          (win0_2.fill (grid0.coords t) d2 ((win0_2.blk t).view.read (Elt F) (A 2))) := by
  rw [win0_3.cut_fill, ← cut_deq c A t d0 d1 d2, win0_3.fill_cut]

/-- The body obligation of the dequantisation call, every window stated on its part inside the array. -/
theorem body0 : BodyObligationLoose (dat0 c A) (defs₀ (F := F)) Variants.none () Set.univ := fun t => by
  rw [bigSep_W0, bigSep_W0]
  simp only
  rw [show (dat0 c A).Φ t.succ = (dat0 c A).Φ t.castSucc from rfl,
    show (dat0 c A).owesAt () t.succ = (dat0 c A).owesAt () t.castSucc from rfl]
  iintro ⟨HΦ, Ho, ⟨%d0, H0⟩, ⟨%d1, H1⟩, ⟨%d2, H2⟩, ⟨%d3, H3⟩⟩
  rw [before_0 c A t d0, before_1 c A t d1, before_2 c A t d2, before_3 c A t d3]
  iapply (sound_body (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 ((win0_0.blk t).view.read (Elt F) (A 0)))
    (win0_1.fill (grid0.coords t) d1 ((win0_1.blk t).view.read (Elt F) (A 1)))
    (win0_2.fill (grid0.coords t) d2 ((win0_2.blk t).view.read (Elt F) (A 2))) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t)
        (win0_0.fill (grid0.coords t) (fun _ => (0#32 : BitVec 32)) ((win0_0.blk t).view.read (Elt F) (A 0)))))
    rw [win0_0.cut_fill]; try iexact H0
  isplitl [H1]
  · iexists d1
    change _ ⊢ owns (c : Thread nD τ) (win0_1.stage (cfg0.slots t 1)) fullShare
      (win0_1.fill (grid0.coords t) d1 (win0_1.cut (grid0.coords t)
        (win0_1.fill (grid0.coords t) (fun _ => (0#32 : BitVec 32)) ((win0_1.blk t).view.read (Elt F) (A 1)))))
    rw [win0_1.cut_fill]; try iexact H1
  isplitl [H2]
  · iexists d2
    change _ ⊢ owns (c : Thread nD τ) (win0_2.stage (cfg0.slots t 2)) fullShare
      (win0_2.fill (grid0.coords t) d2 (win0_2.cut (grid0.coords t)
        (win0_2.fill (grid0.coords t) (fun _ => Scalar.ofBits .f32 0#32) ((win0_2.blk t).view.read (Elt F) (A 2)))))
    rw [win0_2.cut_fill]; try iexact H2
  · iexists deqBlk (win0_0.fill (grid0.coords t) d0 ((win0_0.blk t).view.read (Elt F) (A 0)))
      (win0_1.fill (grid0.coords t) d1 ((win0_1.blk t).view.read (Elt F) (A 1)))
      (win0_2.fill (grid0.coords t) d2 ((win0_2.blk t).view.read (Elt F) (A 2)))
    change _ ⊢ owns (c : Thread nD τ) (win0_3.stage (cfg0.slots t 3)) fullShare
      (win0_3.fill (grid0.coords t)
        (deqBlk (win0_0.fill (grid0.coords t) d0 ((win0_0.blk t).view.read (Elt F) (A 0)))
          (win0_1.fill (grid0.coords t) d1 ((win0_1.blk t).view.read (Elt F) (A 1)))
          (win0_2.fill (grid0.coords t) d2 ((win0_2.blk t).view.read (Elt F) (A 2))))
        (win0_3.cut (grid0.coords t)
          (win0_3.fill (grid0.coords t) (fun _ => Scalar.ofBits .bf16 0#16) ((win0_3.blk t).view.read (Elt F) (weights c A)))))
    rw [out_eq c A t d0 d1 d2]; try iexact H3

end Obligation

end Cert.KernelIdeal.Dequant

end
-- ==== Proof.DequantCover.lean ====
/-
  After the dequantisation call the weight array holds `Spec.deqArr` of the three input arrays everywhere: the 44 output
  blocks, the last column block cut at column 11008, cover the 4096 × 11008 array, and block (k, j) is written with the
  block of that one function.  The input arrays are never written.
-/
import proofs.«425978_j1005022347685_2_alg».proof.Proof.DequantData
import Idealize.ShloMosaic.Lib.Pipeline.Value

noncomputable section

namespace Cert.KernelIdeal.Dequant

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-- The block index of the weight window at point number t is (t / 11, t mod 11); a block is 1024 rows high, and 1024
    columns wide but for the last column block (t mod 11 = 10), cut to the 768 columns inside the array. -/
theorem idx0 : ∀ t : Fin grid0.N, win0_3.index t 0 = t.val / 11 ∧ win0_3.index t 1 = t.val % 11
    ∧ win0_3.xsize (grid0.coords t) 0 = 1024 ∧ win0_3.xsize (grid0.coords t) 1 = (if t.val % 11 = 10 then 768 else 1024) := by
  decide +kernel

/-- What point t writes back is the block of `weights`: the leading part of a buffer filled with it. -/
theorem flushed0 (c : Dev nD) (A : Arrs (F := F) c) (t : Fin cfg0.N) :
    (dat0 c A).flushed 3 t = ((cfg0.win 3).blk t).view.read (Elt F) (weights c A) := by
  show win0_3.cut (grid0.coords t) ((dat0 c A).after 3 t) = _
  dsimp only [dat0]
  exact win0_3.cut_fill _ _ _

/-- An index whose row lies in row block t / 11 and whose column in column block t mod 11 is in point t's block
    (a block's coordinate is index × size + coordinate inside the block; the last column block ends with the array). -/
theorem mem_blk0 (t : Fin cfg0.N) (i : S4096x11008.Idx)
    (h0 : t.val / 11 * 1024 ≤ (i 0 : Nat) ∧ (i 0 : Nat) < t.val / 11 * 1024 + 1024)
    (h1 : t.val % 11 * 1024 ≤ (i 1 : Nat) ∧ (i 1 : Nat) < t.val % 11 * 1024 + 1024) :
    i ∈ ((cfg0.win 3).blk t).view.set := by
  show i ∈ ((View.whole main_v0).slice (win0_3.rect t)).set
  rw [View.set_slice_whole, Rect.mem_set_unit]
  obtain ⟨e0, e1, e2, e3⟩ := idx0 t
  have hi1 : (i 1 : Nat) < 11008 := (i 1).isLt
  intro a
  match a with
  | ⟨0, _⟩ =>
    change win0_3.index t 0 * 1024 ≤ (i 0 : Nat) ∧ (i 0 : Nat) < win0_3.index t 0 * 1024 + win0_3.xsize (grid0.coords t) 0
    rw [e0, e2]; exact h0
  | ⟨1, _⟩ =>
    change win0_3.index t 1 * 1024 ≤ (i 1 : Nat) ∧ (i 1 : Nat) < win0_3.index t 1 * 1024 + win0_3.xsize (grid0.coords t) 1
    rw [e1, e3]; split <;> omega

/-- Every index (r, n) of the weight array lies in the block of the point (r / 1024, n / 1024), and every point
    writes its block back. -/
theorem cover0 (i : S4096x11008.Idx) :
    ∃ t : Fin cfg0.N, (cfg0.win 3).flush t = true ∧ i ∈ ((cfg0.win 3).blk t).view.set := by
  have hi0 : (i 0 : Nat) < 4096 := (i 0).isLt
  have hi1 : (i 1 : Nat) < 11008 := (i 1).isLt
  have hN : (i 0 : Nat) / 1024 * 11 + (i 1 : Nat) / 1024 < cfg0.N := by
    show _ < 44
    omega
  refine ⟨⟨(i 0 : Nat) / 1024 * 11 + (i 1 : Nat) / 1024, hN⟩, flush0_3 _, mem_blk0 _ i ?_ ?_⟩
  · show ((i 0 : Nat) / 1024 * 11 + (i 1 : Nat) / 1024) / 11 * 1024 ≤ (i 0 : Nat)
      ∧ (i 0 : Nat) < ((i 0 : Nat) / 1024 * 11 + (i 1 : Nat) / 1024) / 11 * 1024 + 1024
    omega
  · show ((i 0 : Nat) / 1024 * 11 + (i 1 : Nat) / 1024) % 11 * 1024 ≤ (i 1 : Nat)
      ∧ (i 1 : Nat) < ((i 0 : Nat) / 1024 * 11 + (i 1 : Nat) / 1024) % 11 * 1024 + 1024
    omega

/-- The weight array after the last write-back is `weights`, whatever it held at entry. -/
theorem final0 (c : Dev nD) (A : Arrs (F := F) c) : (dat0 c A).arrAt 3 cfg0.N = weights c A :=
  (dat0 c A).arrAt_eq_of_cover 3 (weights c A) (fun t _ => flushed0 c A t) cover0

/-- The three input arrays are never written: after the call they hold what they held at entry. -/
theorem final0_in0 (c : Dev nD) (A : Arrs (F := F) c) : (dat0 c A).arrAt 0 cfg0.N = A 0 :=
  (dat0 c A).arrAt_in (0 : Fin 4) rfl _
theorem final0_in1 (c : Dev nD) (A : Arrs (F := F) c) : (dat0 c A).arrAt 1 cfg0.N = A 1 :=
  (dat0 c A).arrAt_in (1 : Fin 4) rfl _
theorem final0_in2 (c : Dev nD) (A : Arrs (F := F) c) : (dat0 c A).arrAt 2 cfg0.N = A 2 :=
  (dat0 c A).arrAt_in (2 : Fin 4) rfl _

end Cert.KernelIdeal.Dequant

end
-- ==== Proof.GemmData.lean ====
/-
  The matrix-product call (an 8 × 6 × 4 grid; 512 × 2048 output blocks, the contraction cut in four stretches of
  1024) over the extended reals: what each window's staging buffer holds after the body at a grid point, and what the
  accumulator scratch holds between points, as functions of the arrays the call is entered with.

  Point number n is (i, j, k) = (n / 24, n / 4 mod 6, n mod 4).  The accumulator is reset at k = 0 and gains the product
  of the 512 × 1024 block (i, k) of the left array with the 1024 × 2048 block (k, j) of the right array at every k; at
  k = 3 the output block (i, j) is the accumulator plus the bias row.  11008 = 5·2048 + 768: for j = 5 the right
  array's, the bias row's and the output's blocks overhang, their transfers are cut at the array's end, and the
  staging words past it are named by nothing.  A column of a matrix product depends on the same column of the right
  factor only, so the accumulator and the output block are stated on the columns inside the array and nowhere else.
-/
import proofs.«425978_j1005022347685_2_alg».proof.Proof.Gen.KernelIdeal.Launch
import proofs.«425978_j1005022347685_2_alg».proof.Proof.Gen.KernelIdeal.Points
import proofs.«425978_j1005022347685_2_alg».proof.Proof.Spec
import Idealize.ShloMosaic.Lib.Pipeline.Kit

noncomputable section

namespace Cert.KernelIdeal.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx

local notation "𝕄" => MT nD τ sig Unit (Elt Ideal) ℕ (UR sig nD τ) ℕ

/-- The arrays the call's four windows range over (left factor, right factor, bias row, result), at the contents the
    call is entered with. -/
abbrev Arrs (c : Dev nD) : Type :=
  (w : Fin cfg1.W) → Buf (Elt Ideal) ((cfg1.win w).arr.view.loc (c : Thread nD τ))

variable (c : Dev nD) (A : Arrs c)

/-- The whole result array, as one function of the left factor, the right factor and the bias row. -/
def product : Buf (Elt Ideal) ((cfg1.win 3).arr.view.loc (c : Thread nD τ)) :=
  Cert.Spec.gemmArr (A 0) (A 1) (A 2)

/-- Entry (r, k) of the left factor and entry (k, n) of the right factor by plain numbers (zero outside the arrays,
    where nothing reads them). -/
def lhsAt (r k : Nat) : EReal := if h : r < 4096 ∧ k < 4096 then A 0 (ix2 ⟨r, h.1⟩ ⟨k, h.2⟩) else 0
def rhsAt (k n : Nat) : EReal := if h : k < 4096 ∧ n < 11008 then A 1 (ix2 ⟨k, h.1⟩ ⟨n, h.2⟩) else 0

/-- What the accumulator holds BEFORE point number `n`, on the columns inside the array: after k = n mod 4 ≥ 1 steps
    of the contraction, entry (r, cc) of block (i, j) = (n / 24, n / 4 mod 6) is the sum over the first k stretches of
    1024 products.  Before a point with k = 0 (and at the very end) nothing is said: the point resets it. -/
def accOK (n : Nat) (f : S512x2048.Idx → EReal) : Prop :=
  n % 4 ≠ 0 → ∀ (r : Fin 512) (cc : Fin 2048), (n / 4 % 6) * 2048 + cc.val < 11008 →
    f (ix2 r cc) = ∑ kb ∈ Finset.range (n % 4), ∑ kk : Fin 1024,
      lhsAt c A (n / 24 * 512 + r.val) (kb * 1024 + kk.val) * rhsAt c A (kb * 1024 + kk.val) ((n / 4 % 6) * 2048 + cc.val)

theorem accOK_of_reset {n : Nat} (h : n % 4 = 0) (f : S512x2048.Idx → EReal) : accOK c A n f := fun h' => absurd h h'

/-- The staging buffers of the OTHER call (the dequantisation's eight), each whole at some contents: they ride along. -/
def otherStaging : sProp 𝕄 :=
  iprop((∃ f : Buf (Elt Ideal) ((c : Thread nD τ).loc cc0_stg0_0), ((c : Thread nD τ).loc cc0_stg0_0) ↦{fullShare} f)
    ∗ (∃ f : Buf (Elt Ideal) ((c : Thread nD τ).loc cc0_stg0_1), ((c : Thread nD τ).loc cc0_stg0_1) ↦{fullShare} f)
    ∗ (∃ f : Buf (Elt Ideal) ((c : Thread nD τ).loc cc0_stg1_0), ((c : Thread nD τ).loc cc0_stg1_0) ↦{fullShare} f)
    ∗ (∃ f : Buf (Elt Ideal) ((c : Thread nD τ).loc cc0_stg1_1), ((c : Thread nD τ).loc cc0_stg1_1) ↦{fullShare} f)
    ∗ (∃ f : Buf (Elt Ideal) ((c : Thread nD τ).loc cc0_stg2_0), ((c : Thread nD τ).loc cc0_stg2_0) ↦{fullShare} f)
    ∗ (∃ f : Buf (Elt Ideal) ((c : Thread nD τ).loc cc0_stg2_1), ((c : Thread nD τ).loc cc0_stg2_1) ↦{fullShare} f)
    ∗ (∃ f : Buf (Elt Ideal) ((c : Thread nD τ).loc cc0_stg3_0), ((c : Thread nD τ).loc cc0_stg3_0) ↦{fullShare} f)
    ∗ (∃ f : Buf (Elt Ideal) ((c : Thread nD τ).loc cc0_stg3_1), ((c : Thread nD τ).loc cc0_stg3_1) ↦{fullShare} f))

/-- The invariant before point `t`: the other call's staging buffers, and the accumulator scratch whole at contents
    that are the partial sums on the columns inside the array (`accOK`). -/
def inv (t : Fin (cfg1.N + 1)) : sProp 𝕄 :=
  iprop(otherStaging c ∗ ∃ f : Buf (Elt Ideal) ((c : Thread nD τ).loc cc1_scratch0),
    (((c : Thread nD τ).loc cc1_scratch0) ↦{fullShare} f) ∗ ⌜accOK c A t.val f⌝)

/-- The proof data on core `c`: after the body each input buffer holds its array's block and, at the points that
    write it back (k = 3), the output buffer holds the block of `product`, each on the part inside the array (a zero
    elsewhere, which nothing reads); the invariant `inv`; nothing owed; full shares. -/
def dat1 : Dat τ (Elt Ideal) Unit ℕ (UR sig nD τ) ℕ cfg1 c where
  A := A
  after w t := match w with
    | ⟨0, _⟩ => win1_0.fill (grid1.coords t) (fun _ => (0 : EReal)) ((win1_0.blk t).view.read (Elt Ideal) (A 0))
    | ⟨1, _⟩ => win1_1.fill (grid1.coords t) (fun _ => (0 : EReal)) ((win1_1.blk t).view.read (Elt Ideal) (A 1))
    | ⟨2, _⟩ => win1_2.fill (grid1.coords t) (fun _ => (0 : EReal)) ((win1_2.blk t).view.read (Elt Ideal) (A 2))
    | ⟨3, _⟩ => win1_3.fill (grid1.coords t) (fun _ => (0 : EReal)) ((win1_3.blk t).view.read (Elt Ideal) (product c A))
  Φ t := inv c A t
  q _ := fullShare
  owed _ := 0

end Cert.KernelIdeal.Gemm

end
-- ==== Proof.GemmMath.lean ====
/-
  The matrix-product body's three stored values, read at one entry (r, c) of the 512 × 2048 accumulator block.

  The reset value is the zero block.  The update is the old accumulator entry plus the sum over the 1024 positions kk of
  the stretch of  x(r, kk) · w(kk, c):  the matrix unit starts from a zero block, so its result is just that sum, and the
  identity reshapes change nothing.  The flushed value is the accumulator entry plus the bias row's entry c, the row being
  repeated down the 512 rows.

  From these, the accumulator's partial sums step by step: at point number n = (i, j, k) the update adds stretch k of
  the contraction to the first k stretches (none at k = 0, where the accumulator is first reset), and at k = 3 the
  flushed entry is all four stretches, that is the whole sum over 4096, plus the bias: the product's entry.
-/
import proofs.«425978_j1005022347685_2_alg».proof.Proof.Gen.KernelIdeal.Skeleton
import proofs.«425978_j1005022347685_2_alg».proof.Proof.GemmData
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.GemmMath

open Idealize.ShloMosaic Idealize.ShloMosaic.ValueIdx
open Cert.KernelIdeal Cert.KernelIdeal.Gen

/-- The reset value: every entry of the zero block is 0. -/
theorem pay1_apply (r : Fin 512) (cc : Fin 2048) : k1_pay1 (F := Ideal) (ix2 r cc) = 0 := by
  unfold k1_pay1
  rw [shapeCast_self]
  show Ideal.ofBits .f32 0x00000000#32 = 0
  exact Ideal.ofBits_zero_f32

theorem lhs_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem lhs_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhs_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhs_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The matrix unit's product from a zero block, at an entry: the sum over the contracted position. -/
theorem matmul_zero_apply (x : FVec Ideal S512x1024 .bf16) (w : FVec Ideal S1024x2048 .bf16) (r : Fin 512) (cc : Fin 2048) :
    matmul (F := Ideal) dot_S512x1024_S1024x2048_S512x2048_1_0_0_1_n_n none x w (constant S512x2048 .f32 0x00000000#32) (ix2 r cc)
      = ∑ kk : Fin 1024, x (ix2 r kk) * w (ix2 kk cc) := by
  generalize hi : (ix2 r cc : S512x2048.Idx) = i
  have hi0 : (i 0).val = r.val := by rw [← hi]
  have hi1 : (i 1).val = cc.val := by rw [← hi]
  dsimp only [matmul]
  rw [Ideal.matmul_constant_zero_apply, ← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx i ((ValueIdx.contrEquiv1 dot_S512x1024_S1024x2048_S512x2048_1_0_0_1_n_n 1024 rfl rfl).symm k) = ix2 r k := funext fun a => Fin.ext (by
    match a with
    | ⟨0, _⟩ => exact (lhs_0 _ _).trans hi0
    | ⟨1, _⟩ => exact (lhs_1 _ _).trans hk)
  have er : dot_S512x1024_S1024x2048_S512x2048_1_0_0_1_n_n.rhsIdx i ((ValueIdx.contrEquiv1 dot_S512x1024_S1024x2048_S512x2048_1_0_0_1_n_n 1024 rfl rfl).symm k) = ix2 k cc := funext fun a => Fin.ext (by
    match a with
    | ⟨0, _⟩ => exact (rhs_0 _ _).trans hk
    | ⟨1, _⟩ => exact (rhs_1 _ _).trans hi1)
  rw [el, er]

/-- The update: the old accumulator entry plus the stretch's sum of products. -/
theorem pay2_apply (v3 : Vec Ideal S512x2048 .f32) (v4 : Vec Ideal S512x1024 .bf16) (v6 : Vec Ideal S1024x2048 .bf16)
    (r : Fin 512) (cc : Fin 2048) :
    k1_pay2 (F := Ideal) v3 v4 v6 (ix2 r cc) = v3 (ix2 r cc) + ∑ kk : Fin 1024, v4 (ix2 r kk) * v6 (ix2 kk cc) := by
  unfold k1_pay2
  rw [shapeCast_self, shapeCast_self, shapeCast_self]
  show v3 (ix2 r cc) + matmul (F := Ideal) dot_S512x1024_S1024x2048_S512x2048_1_0_0_1_n_n none v4 v6 (constant S512x2048 .f32 0x00000000#32) (ix2 r cc) = _
  rw [matmul_zero_apply]

/-- The flushed value: the accumulator entry plus the bias row's entry of that column. -/
theorem pay3_apply (v16 : Vec Ideal S512x2048 .f32) (v17 : Vec Ideal S1x2048 .f32) (r : Fin 512) (cc : Fin 2048) :
    k1_pay3 (F := Ideal) v16 v17 (ix2 r cc) = v16 (ix2 r cc) + v17 (ix2 (0 : Fin 1) cc) := by
  unfold k1_pay3
  rw [shapeCast_self]
  show v16 (ix2 r cc) + broadcastTo S512x2048 v17 broadcasts_S1x2048_S512x2048 (ix2 r cc) = _
  rw [broadcastTo_apply v17 broadcasts_S1x2048_S512x2048 (ix2 r cc) (ix2 (0 : Fin 1) cc) (fun a => by
    match a with
    | ⟨0, _⟩ => show 0 = if (1 : Nat) = 1 then 0 else _; rw [if_pos rfl]
    | ⟨1, _⟩ => show cc.val = if (2048 : Nat) = 1 then 0 else cc.val; rw [if_neg (by decide)])]

/-! ## The partial sums -/

/-- The stretch's sum of products, from what the two staging blocks hold: stretch k = n mod 4 of row
    n / 24 · 512 + r of the left factor against column (n / 4 mod 6) · 2048 + cc of the right factor. -/
theorem stretch_eq (c : Dev nD) (A : Gemm.Arrs c) (n : Nat)
    (X0 : FVec Ideal S512x1024 .bf16) (X1 : FVec Ideal S1024x2048 .bf16)
    (h0 : ∀ (r : Fin 512) (kk : Fin 1024), X0 (ix2 r kk) = Gemm.lhsAt c A (n / 24 * 512 + r.val) (n % 4 * 1024 + kk.val))
    (h1 : ∀ (kk : Fin 1024) (cc : Fin 2048), n / 4 % 6 * 2048 + cc.val < 11008 →
      X1 (ix2 kk cc) = Gemm.rhsAt c A (n % 4 * 1024 + kk.val) (n / 4 % 6 * 2048 + cc.val))
    (r : Fin 512) (cc : Fin 2048) (hc : n / 4 % 6 * 2048 + cc.val < 11008) :
    ∑ kk : Fin 1024, X0 (ix2 r kk) * X1 (ix2 kk cc)
      = ∑ kk : Fin 1024, Gemm.lhsAt c A (n / 24 * 512 + r.val) (n % 4 * 1024 + kk.val)
          * Gemm.rhsAt c A (n % 4 * 1024 + kk.val) (n / 4 % 6 * 2048 + cc.val) :=
  Finset.sum_congr rfl fun kk _ => by rw [h0 r kk, h1 kk cc hc]

/-- At k = 0 the accumulator is reset and gains stretch 0: before the next point it is the first stretch's sum. -/
theorem acc_first (c : Dev nD) (A : Gemm.Arrs c) (n : Nat) (hn : n % 4 = 0)
    (X0 : FVec Ideal S512x1024 .bf16) (X1 : FVec Ideal S1024x2048 .bf16)
    (h0 : ∀ (r : Fin 512) (kk : Fin 1024), X0 (ix2 r kk) = Gemm.lhsAt c A (n / 24 * 512 + r.val) (n % 4 * 1024 + kk.val))
    (h1 : ∀ (kk : Fin 1024) (cc : Fin 2048), n / 4 % 6 * 2048 + cc.val < 11008 →
      X1 (ix2 kk cc) = Gemm.rhsAt c A (n % 4 * 1024 + kk.val) (n / 4 % 6 * 2048 + cc.val)) :
    Gemm.accOK c A (n + 1) (k1_pay2 (F := Ideal) (k1_pay1 (F := Ideal)) X0 X1) := by
  intro _ r cc hc
  have e4 : (n + 1) % 4 = 1 := by omega
  have e24 : (n + 1) / 24 = n / 24 := by omega
  have e6 : (n + 1) / 4 = n / 4 := by omega
  rw [e6] at hc
  rw [e4, e24, e6, pay2_apply, pay1_apply, zero_add, Finset.sum_range_one, stretch_eq c A n X0 X1 h0 h1 r cc hc, hn]

/-- At k = 1, 2, 3 the accumulator gains stretch k on top of the first k stretches. -/
theorem acc_next (c : Dev nD) (A : Gemm.Arrs c) (n : Nat) (hn : n % 4 ≠ 0)
    (f : FVec Ideal S512x2048 .f32) (hf : Gemm.accOK c A n f)
    (X0 : FVec Ideal S512x1024 .bf16) (X1 : FVec Ideal S1024x2048 .bf16)
    (h0 : ∀ (r : Fin 512) (kk : Fin 1024), X0 (ix2 r kk) = Gemm.lhsAt c A (n / 24 * 512 + r.val) (n % 4 * 1024 + kk.val))
    (h1 : ∀ (kk : Fin 1024) (cc : Fin 2048), n / 4 % 6 * 2048 + cc.val < 11008 →
      X1 (ix2 kk cc) = Gemm.rhsAt c A (n % 4 * 1024 + kk.val) (n / 4 % 6 * 2048 + cc.val)) :
    Gemm.accOK c A (n + 1) (k1_pay2 (F := Ideal) f X0 X1) := by
  intro hn1 r cc hc
  have e4 : (n + 1) % 4 = n % 4 + 1 := by omega
  have e24 : (n + 1) / 24 = n / 24 := by omega
  have e6 : (n + 1) / 4 = n / 4 := by omega
  rw [e6] at hc
  rw [e4, e24, e6, pay2_apply, hf hn r cc hc, Finset.sum_range_succ, stretch_eq c A n X0 X1 h0 h1 r cc hc]

/-- At k = 3 the flushed entry is the product's: the four stretches are the whole sum over 4096, then the bias. -/
theorem out_block (c : Dev nD) (A : Gemm.Arrs c) (n : Nat) (hn : n % 4 = 3)
    (f : FVec Ideal S512x2048 .f32) (hf : Gemm.accOK c A n f)
    (X0 : FVec Ideal S512x1024 .bf16) (X1 : FVec Ideal S1024x2048 .bf16) (X2 : FVec Ideal S1x2048 .f32)
    (h0 : ∀ (r : Fin 512) (kk : Fin 1024), X0 (ix2 r kk) = Gemm.lhsAt c A (n / 24 * 512 + r.val) (n % 4 * 1024 + kk.val))
    (h1 : ∀ (kk : Fin 1024) (cc : Fin 2048), n / 4 % 6 * 2048 + cc.val < 11008 →
      X1 (ix2 kk cc) = Gemm.rhsAt c A (n % 4 * 1024 + kk.val) (n / 4 % 6 * 2048 + cc.val))
    (h2 : ∀ (cc : Fin 2048) (hc : n / 4 % 6 * 2048 + cc.val < 11008),
      X2 (ix2 (0 : Fin 1) cc) = A 2 (ix2 (0 : Fin 1) ⟨n / 4 % 6 * 2048 + cc.val, hc⟩))
    (r : Fin 512) (cc : Fin 2048) (hr : n / 24 * 512 + r.val < 4096) (hc : n / 4 % 6 * 2048 + cc.val < 11008) :
    k1_pay3 (F := Ideal) (k1_pay2 (F := Ideal) f X0 X1) X2 (ix2 r cc)
      = Gemm.product c A (ix2 ⟨n / 24 * 512 + r.val, hr⟩ ⟨n / 4 % 6 * 2048 + cc.val, hc⟩) := by
  rw [pay3_apply, pay2_apply, hf (by omega) r cc hc, stretch_eq c A n X0 X1 h0 h1 r cc hc, h2 cc hc,
    ← Finset.sum_range_succ (fun kb => ∑ kk : Fin 1024,
      Gemm.lhsAt c A (n / 24 * 512 + r.val) (kb * 1024 + kk.val) * Gemm.rhsAt c A (kb * 1024 + kk.val) (n / 4 % 6 * 2048 + cc.val)) (n % 4),
    hn]
  unfold Gemm.product Cert.Spec.gemmArr
  rw [Cert.Spec.sum_four_stretches, Finset.sum_range]
  congr 1
  refine Finset.sum_congr rfl fun kb _ => Finset.sum_congr rfl fun kk _ => ?_
  have hk : kb.val * 1024 + kk.val < 4096 := by omega
  unfold Gemm.lhsAt Gemm.rhsAt
  rw [dif_pos ⟨hr, hk⟩, dif_pos ⟨hk, hc⟩]
  rfl

end Cert.KernelIdeal.GemmMath

end
-- ==== Proof.GemmBody.lean ====
/-
  The matrix-product body at one grid point meets its obligation over the extended reals, by the point's k:
  k = 0 resets the accumulator and adds the first stretch's product; k = 1, 2 add theirs; k = 3 adds the last and
  stores accumulator + bias row to the output buffer, which on the columns inside the array is the block of
  `Spec.gemmArr` (the four stretches of 1024 make the one sum over 4096: `Spec.sum_four_stretches`).

  The order below: the body's run in each of the three control cases, on whole buffers at any contents (what each
  buffer holds afterwards is a stored value of `Skeleton.lean`: the accumulator at `k1_pay2`, at k = 3 the output at
  `k1_pay3`); the block indices and cut sizes of the four windows at a point; what the three input buffers hold when
  the body starts, entry by entry (the left factor's block; the right factor's and the bias row's on the columns
  inside the array, where alone they are read: a column of a product depends on the same column of the right factor
  only); that an output buffer equal to the product's block on the columns inside the array is what the write-back is
  stated to write; and the obligation at a point, the three cases put together with the partial sums of `GemmMath`.
-/
import proofs.«425978_j1005022347685_2_alg».proof.Proof.GemmData
import proofs.«425978_j1005022347685_2_alg».proof.Proof.GemmMath
import proofs.«425978_j1005022347685_2_alg».proof.Proof.Gen.KernelIdeal.Skeleton
import Idealize.ShloMosaic.Lib.Tactic
import Idealize.ShloMosaic.Lib.Pipeline.Frame
import Idealize.ShloMosaic.Lib.Pipeline.Value
import Idealize.ShloMosaic.PureOps.Ideal.Laws

noncomputable section

namespace Cert.KernelIdeal.Gemm

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx

local notation "𝕄" => MT nD τ sig Unit (Elt Ideal) ℕ (UR sig nD τ) ℕ

namespace Body

/-! ## The body's run, case by case -/

/-- The reset test of the body: the last grid coordinate is zero. -/
def resetCond (i : grid1.Coords) : Prop :=
  Scalar.cmpi .ne (Scalar.extui (Scalar.cmpi .eq (BitVec.ofNat 32 (i 2).val) 0#32) : BitVec 32) 0#32 = 1#1

theorem zeros2 : (![0, 0] : Fin 2 → Nat) = fun _ => 0 := funext fun a => by fin_cases a <;> rfl

section Whole
variable {sg : RefSig} {κ : Kind} {sp : Space} {S : Shape} {e : EltTy}

/-- A load of a whole view through the whole-shape rectangle reads what the view reads. -/
theorem readAt_whole (v : View sg κ sp S e) {off : Fin S.rank → Nat} (h : off = fun _ => 0) (inb : ∀ a, off a + S.size a ≤ S.size a)
    (g : v.ty.Contents (Elt Ideal)) (X : S.Idx → Elt Ideal e) (hg : v.read (Elt Ideal) g = X) :
    v.readAt (Elt Ideal) (Rect.unit off S.size inb).toLoadRect g = X := by
  rw [View.readAt_eq_ld, hg, View.ld_unit_zero h]

/-- One store through the whole-shape rectangle leaves its payload. -/
theorem read_writes_one (v : View sg κ sp S e) {off : Fin S.rank → Nat} (h : off = fun _ => 0) (inb : ∀ a, off a + S.size a ≤ S.size a)
    (g : v.ty.Contents (Elt Ideal)) (w : S.Idx → Elt Ideal e) :
    v.read (Elt Ideal) (v.writes (Elt Ideal) g [⟨Rect.unit off S.size inb, w⟩]) = w := by
  rw [View.read_writes_eq_canon _ _ _ (fun y => ⟨_, List.mem_singleton_self _, View.mem_set_unit_zero h inb y⟩), View.canon_unit_zero h]

/-- Two stores through it leave the later payload. -/
theorem read_writes_two (v : View sg κ sp S e) {off : Fin S.rank → Nat} (h : off = fun _ => 0) (inb : ∀ a, off a + S.size a ≤ S.size a)
    (g : v.ty.Contents (Elt Ideal)) (w w' : S.Idx → Elt Ideal e) :
    v.read (Elt Ideal) (v.writes (Elt Ideal) g [⟨Rect.unit off S.size inb, w⟩, ⟨Rect.unit off S.size inb, w'⟩]) = w := by
  rw [View.read_writes_eq_canon _ _ _ (fun y => ⟨_, List.mem_cons_self, View.mem_set_unit_zero h inb y⟩), View.canon_cons_unit_zero h]

end Whole

/-- At a point with 0 < k < 3 the body leaves the four staging buffers as they were and the accumulator at itself plus
    the product of the left factor's buffer with the right factor's. -/
theorem run_mid (c : Dev nD) (i : grid1.Coords)
    (arg3 : Memref sig .tc .vmem S512x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S512x2048 .f32) (harg6 : arg6.IsWhole)
    (arg7 : Memref sig .tc .vmem S512x2048 .f32) (harg7 : arg7.IsWhole)
    (hc0 : ¬ resetCond i) (hc1 : ¬ k1_cond2 i = 1#1)
    (X0 : Vec Ideal S512x1024 .bf16) (X1 : Vec Ideal S1024x2048 .bf16) (X2 : Vec Ideal S1x2048 .f32) (X3 f : Vec Ideal S512x2048 .f32)
    (E : Set ℕ) (K : PUnit → sProp 𝕄) :
    iprop(owns (c : Thread nD τ) arg3 fullShare X0 ∗ owns (c : Thread nD τ) arg4 fullShare X1 ∗ owns (c : Thread nD τ) arg5 fullShare X2
          ∗ owns (c : Thread nD τ) arg6 fullShare X3 ∗ owns (c : Thread nD τ) arg7 fullShare f
          ∗ (iprop(owns (c : Thread nD τ) arg3 fullShare X0 ∗ owns (c : Thread nD τ) arg4 fullShare X1 ∗ owns (c : Thread nD τ) arg5 fullShare X2
                ∗ owns (c : Thread nD τ) arg6 fullShare X3 ∗ owns (c : Thread nD τ) arg7 fullShare (k1_pay2 f X0 X1)) -∗ K ⟨⟩))
      ⊢ wp frame (wpE (defs₀ (F := Ideal)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg3.eq_unread hf0; obtain rfl := harg4.eq_unread hf1; obtain rfl := harg5.eq_unread hf2
  obtain rfl := harg6.eq_unread hf3; obtain rfl := harg7.eq_unread hf7
  have e0 := readAt_whole arg3.view zeros2 inb_S512x1024_S512x1024_0_0 _ _ hf0
  have e1 := readAt_whole arg4.view zeros2 inb_S1024x2048_S1024x2048_0_0 _ _ hf1
  have e2 := readAt_whole arg5.view zeros2 inb_S1x2048_S1x2048_0_0 _ _ hf2
  have e7 := readAt_whole arg7.view zeros2 inb_S512x2048_S512x2048_0_0 _ _ hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2

  isplitl [H3]
  · iexists _; isplitr; · ipureintro; exact hf3
    iexact H3
  iexists _
  isplitr
  rotate_left
  · iexact H7
  · ipureintro
    exact read_writes_one arg7.view zeros2 inb_S512x2048_S512x2048_0_0 _ _

/-- At a point with k = 0 the body first stores the zero block to the accumulator: it ends holding the zero block plus
    the product; the four staging buffers are left as they were. -/
theorem run_first (c : Dev nD) (i : grid1.Coords)
    (arg3 : Memref sig .tc .vmem S512x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S512x2048 .f32) (harg6 : arg6.IsWhole)
    (arg7 : Memref sig .tc .vmem S512x2048 .f32) (harg7 : arg7.IsWhole)
    (hc0 : resetCond i) (hc1 : ¬ k1_cond2 i = 1#1)
    (X0 : Vec Ideal S512x1024 .bf16) (X1 : Vec Ideal S1024x2048 .bf16) (X2 : Vec Ideal S1x2048 .f32) (X3 f : Vec Ideal S512x2048 .f32)
    (E : Set ℕ) (K : PUnit → sProp 𝕄) :
    iprop(owns (c : Thread nD τ) arg3 fullShare X0 ∗ owns (c : Thread nD τ) arg4 fullShare X1 ∗ owns (c : Thread nD τ) arg5 fullShare X2
          ∗ owns (c : Thread nD τ) arg6 fullShare X3 ∗ owns (c : Thread nD τ) arg7 fullShare f
          ∗ (iprop(owns (c : Thread nD τ) arg3 fullShare X0 ∗ owns (c : Thread nD τ) arg4 fullShare X1 ∗ owns (c : Thread nD τ) arg5 fullShare X2
                ∗ owns (c : Thread nD τ) arg6 fullShare X3 ∗ owns (c : Thread nD τ) arg7 fullShare (k1_pay2 (k1_pay1 (F := Ideal)) X0 X1)) -∗ K ⟨⟩))
      ⊢ wp frame (wpE (defs₀ (F := Ideal)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg3.eq_unread hf0; obtain rfl := harg4.eq_unread hf1; obtain rfl := harg5.eq_unread hf2
  obtain rfl := harg6.eq_unread hf3; obtain rfl := harg7.eq_unread hf7
  have e0 := readAt_whole arg3.view zeros2 inb_S512x1024_S512x1024_0_0 _ _ hf0
  have e1 := readAt_whole arg4.view zeros2 inb_S1024x2048_S1024x2048_0_0 _ _ hf1
  have e2 := readAt_whole arg5.view zeros2 inb_S1x2048_S1x2048_0_0 _ _ hf2
  have e7 := readAt_whole arg7.view zeros2 inb_S512x2048_S512x2048_0_0 _ _ hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2

  isplitl [H3]
  · iexists _; isplitr; · ipureintro; exact hf3
    iexact H3
  iexists _
  isplitr
  rotate_left
  · iexact H7
  · ipureintro
    sl_unfold_words
    refine (read_writes_two arg7.view zeros2 inb_S512x2048_S512x2048_0_0 _ _ _).trans ?_
    rw [View.readCov_unit_zero _ zeros2]

/-- At a point with k = 3 the accumulator gains the product as before, and the output buffer ends holding that sum plus
    the bias row's buffer repeated down the rows, whatever it held. -/
theorem run_last (c : Dev nD) (i : grid1.Coords)
    (arg3 : Memref sig .tc .vmem S512x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S512x2048 .f32) (harg6 : arg6.IsWhole)
    (arg7 : Memref sig .tc .vmem S512x2048 .f32) (harg7 : arg7.IsWhole)
    (hc0 : ¬ resetCond i) (hc1 : k1_cond2 i = 1#1)
    (X0 : Vec Ideal S512x1024 .bf16) (X1 : Vec Ideal S1024x2048 .bf16) (X2 : Vec Ideal S1x2048 .f32) (X3 f : Vec Ideal S512x2048 .f32)
    (E : Set ℕ) (K : PUnit → sProp 𝕄) :
    iprop(owns (c : Thread nD τ) arg3 fullShare X0 ∗ owns (c : Thread nD τ) arg4 fullShare X1 ∗ owns (c : Thread nD τ) arg5 fullShare X2
          ∗ owns (c : Thread nD τ) arg6 fullShare X3 ∗ owns (c : Thread nD τ) arg7 fullShare f
          ∗ (iprop(owns (c : Thread nD τ) arg3 fullShare X0 ∗ owns (c : Thread nD τ) arg4 fullShare X1 ∗ owns (c : Thread nD τ) arg5 fullShare X2
                ∗ owns (c : Thread nD τ) arg6 fullShare (k1_pay3 (k1_pay2 f X0 X1) X2) ∗ owns (c : Thread nD τ) arg7 fullShare (k1_pay2 f X0 X1)) -∗ K ⟨⟩))
      ⊢ wp frame (wpE (defs₀ (F := Ideal)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg3.eq_unread hf0; obtain rfl := harg4.eq_unread hf1; obtain rfl := harg5.eq_unread hf2
  obtain rfl := harg6.eq_unread hf3; obtain rfl := harg7.eq_unread hf7
  have e0 := readAt_whole arg3.view zeros2 inb_S512x1024_S512x1024_0_0 _ _ hf0
  have e1 := readAt_whole arg4.view zeros2 inb_S1024x2048_S1024x2048_0_0 _ _ hf1
  have e2 := readAt_whole arg5.view zeros2 inb_S1x2048_S1x2048_0_0 _ _ hf2
  have e7 := readAt_whole arg7.view zeros2 inb_S512x2048_S512x2048_0_0 _ _ hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2

  isplitl [H3]
  · iexists _
    isplitr
    rotate_left
    · iexact H3
    · ipureintro
      sl_unfold_words
      refine (read_writes_one arg6.view zeros2 inb_S512x2048_S512x2048_0_0 _ _).trans ?_
      rw [View.readCov_unit_zero _ zeros2]
  iexists _
  isplitr
  rotate_left
  · iexact H7
  · ipureintro
    exact read_writes_one arg7.view zeros2 inb_S512x2048_S512x2048_0_0 _ _

/-! ## The windows at a point -/

/-- The block indices of the three input windows at point number t = (i·6 + j)·4 + k, and the sizes their transfers
    move: all of a block but for the last column block (j = 5), cut to the 768 columns inside the array. -/
theorem idxIn : ∀ t : Fin grid1.N,
    (win1_0.index t 0 = t.val / 24 ∧ win1_0.index t 1 = t.val % 4)
    ∧ (win1_1.index t 0 = t.val % 4 ∧ win1_1.index t 1 = t.val / 4 % 6
        ∧ win1_1.xsize (grid1.coords t) 0 = 1024 ∧ win1_1.xsize (grid1.coords t) 1 = (if t.val / 4 % 6 = 5 then 768 else 2048))
    ∧ (win1_2.index t 0 = 0 ∧ win1_2.index t 1 = t.val / 4 % 6
        ∧ win1_2.xsize (grid1.coords t) 0 = 1 ∧ win1_2.xsize (grid1.coords t) 1 = (if t.val / 4 % 6 = 5 then 768 else 2048)) := by
  decide +kernel

/-- The result window's likewise. -/
theorem idxOut : ∀ t : Fin grid1.N, win1_3.index t 0 = t.val / 24 ∧ win1_3.index t 1 = t.val / 4 % 6
    ∧ win1_3.xsize (grid1.coords t) 0 = 512 ∧ win1_3.xsize (grid1.coords t) 1 = (if t.val / 4 % 6 = 5 then 768 else 2048) := by
  decide +kernel

/-- The body resets the accumulator exactly at the points with k = 0, -/
theorem resetCond_iff : ∀ t : Fin grid1.N, resetCond (grid1.coords t) ↔ t.val % 4 = 0 := by
  unfold resetCond; decide +kernel

/-- and stores the output block exactly at those with k = 3. -/
theorem cond2_iff : ∀ t : Fin grid1.N, k1_cond2 (grid1.coords t) = 1#1 ↔ t.val % 4 = 3 := by
  decide +kernel

/-- Within one block (i, j) the bias row's window stays on one block with one cut: a point with k ≠ 0 has the block
    index and the cut of the point before it. -/
theorem bias_same : ∀ t : Fin grid1.N, t.val % 4 ≠ 0 → ∀ h : t.val - 1 < grid1.N,
    win1_2.index ⟨t.val - 1, h⟩ = win1_2.index t ∧ win1_2.clip (grid1.coords ⟨t.val - 1, h⟩) = win1_2.clip (grid1.coords t) := by
  decide +kernel

/-! ## What the input buffers hold when the body starts -/

/-- The left factor's buffer arrives freshly fetched and its blocks tile the array: whatever filled the buffer
    before, it holds the block. -/
theorem before_0 (c : Dev nD) (A : Arrs c) (t : Fin cfg1.N) (d) :
    (dat1 c A).before (0 : Fin 4) t d = (dat1 c A).after (0 : Fin 4) t := by
  unfold Dat.before; rw [if_pos (fetch1_0 t)]
  exact (dat1 c A).fetched_of_clip_none (0 : Fin 4) t (fun _ => rfl) d (fun _ => (0 : EReal))

/-- The right factor's buffer arrives freshly fetched: the block on the part inside the array, `d` past it. -/
theorem before_1 (c : Dev nD) (A : Arrs c) (t : Fin cfg1.N) (d) :
    (dat1 c A).before (1 : Fin 4) t d = win1_1.fill (grid1.coords t) d ((win1_1.blk t).view.read (Elt Ideal) (A 1)) := by
  unfold Dat.before; rw [if_pos (fetch1_1 t)]; rfl

/-- The bias row's buffer is fetched at k = 0 and kept through k = 1, 2, 3, where the window is on the same block with
    the same cut: at every point it holds the point's block on the part inside the array, `d` past it. -/
theorem before_2 (c : Dev nD) (A : Arrs c) (t : Fin cfg1.N) (d) :
    (dat1 c A).before (2 : Fin 4) t d = win1_2.fill (grid1.coords t) d ((win1_2.blk t).view.read (Elt Ideal) (A 2)) := by
  by_cases hk : t.val % 4 = 0
  · unfold Dat.before; rw [if_pos ((fetch1_2 t).mpr hk)]; rfl
  · have ht : t.val ≠ 0 := fun h => hk (by rw [h])
    have hf : (cfg1.win (2 : Fin 4)).fetch t = false := by
      cases h : (cfg1.win (2 : Fin 4)).fetch t
      · rfl
      · exact absurd ((fetch1_2 t).mp h) hk
    rw [(dat1 c A).before_of_pos (2 : Fin 4) t ht hf d]
    have hfl : (cfg1.win (2 : Fin 4)).flush ⟨t.val - 1, Nat.lt_of_le_of_lt (Nat.sub_le _ _) t.isLt⟩ = false := rfl
    rw [hfl, if_neg Bool.false_ne_true]
    show (dat1 c A).kept (2 : Fin 4) ⟨t.val - 1, Nat.lt_of_le_of_lt (Nat.sub_le _ _) t.isLt⟩ d = _
    unfold Dat.kept; dsimp only [dat1]; rw [Window.cut_fill]
    obtain ⟨hi, hc⟩ := bias_same t hk (Nat.lt_of_le_of_lt (Nat.sub_le _ _) t.isLt)
    exact (dat1 c A).fetched_congr (2 : Fin 4) hi hc d

/-- An entry of the left factor's block is the array's entry at block index × block size + the place in the block. -/
theorem lhs_apply (c : Dev nD) (A : Arrs c) (t : Fin cfg1.N) (r : Fin 512) (kk : Fin 1024) :
    ((dat1 c A).after (0 : Fin 4) t : S512x1024.Idx → EReal) (ix2 r kk)
      = lhsAt c A (t.val / 24 * 512 + r.val) (t.val % 4 * 1024 + kk.val) := by
  obtain ⟨⟨e0, e1⟩, -, -⟩ := idxIn t
  have hN : t.val < 192 := t.isLt
  have hr : t.val / 24 * 512 + r.val < 4096 := by omega
  have hk : t.val % 4 * 1024 + kk.val < 4096 := by omega
  dsimp only [dat1]
  have hm : win1_0.moved (grid1.coords t) (ix2 r kk) = true := rfl
  unfold Window.fill; rw [dif_pos hm]
  unfold lhsAt; rw [dif_pos ⟨hr, hk⟩]
  show A 0 ((win1_0.rect t).emb _) = A 0 _
  refine congrArg (A 0) (funext fun a => Fin.ext ?_)
  rw [Window.rect_emb_val]
  match a with
  | ⟨0, _⟩ => show win1_0.index t 0 * 512 + r.val = t.val / 24 * 512 + r.val; rw [e0]
  | ⟨1, _⟩ => show win1_0.index t 1 * 1024 + kk.val = t.val % 4 * 1024 + kk.val; rw [e1]

/-- An entry of the right factor's buffer in a column inside the array is the array's entry. -/
theorem rhs_apply (c : Dev nD) (A : Arrs c) (t : Fin cfg1.N) (d : S1024x2048.Idx → EReal) (kk : Fin 1024) (cc : Fin 2048)
    (hc : t.val / 4 % 6 * 2048 + cc.val < 11008) :
    (win1_1.fill (grid1.coords t) d ((win1_1.blk t).view.read (Elt Ideal) (A 1)) : S1024x2048.Idx → EReal) (ix2 kk cc)
      = rhsAt c A (t.val % 4 * 1024 + kk.val) (t.val / 4 % 6 * 2048 + cc.val) := by
  obtain ⟨-, ⟨e0, e1, x0, x1⟩, -⟩ := idxIn t
  have hN : t.val < 192 := t.isLt
  have hk : t.val % 4 * 1024 + kk.val < 4096 := by omega
  have hm : win1_1.moved (grid1.coords t) (ix2 kk cc) = true := (win1_1.moved_iff _ _).mpr fun a => by
    match a with
    | ⟨0, _⟩ => show kk.val < win1_1.xsize (grid1.coords t) 0; rw [x0]; exact kk.isLt
    | ⟨1, _⟩ => show cc.val < win1_1.xsize (grid1.coords t) 1; rw [x1]; split <;> omega
  unfold Window.fill; rw [dif_pos hm]
  unfold rhsAt; rw [dif_pos ⟨hk, hc⟩]
  show A 1 ((win1_1.rect t).emb _) = A 1 _
  refine congrArg (A 1) (funext fun a => Fin.ext ?_)
  rw [Window.rect_emb_val]
  match a with
  | ⟨0, _⟩ => show win1_1.index t 0 * 1024 + kk.val = t.val % 4 * 1024 + kk.val; rw [e0]
  | ⟨1, _⟩ => show win1_1.index t 1 * 2048 + cc.val = t.val / 4 % 6 * 2048 + cc.val; rw [e1]

/-- An entry of the bias row's buffer in a column inside the array is the row's entry. -/
theorem bias_apply (c : Dev nD) (A : Arrs c) (t : Fin cfg1.N) (d : S1x2048.Idx → EReal) (cc : Fin 2048)
    (hc : t.val / 4 % 6 * 2048 + cc.val < 11008) :
    (win1_2.fill (grid1.coords t) d ((win1_2.blk t).view.read (Elt Ideal) (A 2)) : S1x2048.Idx → EReal) (ix2 (0 : Fin 1) cc)
      = A 2 (ix2 (0 : Fin 1) ⟨t.val / 4 % 6 * 2048 + cc.val, hc⟩) := by
  obtain ⟨-, -, ⟨e0, e1, x0, x1⟩⟩ := idxIn t
  have hm : win1_2.moved (grid1.coords t) (ix2 (0 : Fin 1) cc) = true := (win1_2.moved_iff _ _).mpr fun a => by
    match a with
    | ⟨0, _⟩ => show 0 < win1_2.xsize (grid1.coords t) 0; rw [x0]; exact Nat.one_pos
    | ⟨1, _⟩ => show cc.val < win1_2.xsize (grid1.coords t) 1; rw [x1]; split <;> omega
  unfold Window.fill; rw [dif_pos hm]
  show A 2 ((win1_2.rect t).emb _) = A 2 _
  refine congrArg (A 2) (funext fun a => Fin.ext ?_)
  rw [Window.rect_emb_val]
  match a with
  | ⟨0, _⟩ => show win1_2.index t 0 * 1 + 0 = 0; rw [e0]
  | ⟨1, _⟩ => show win1_2.index t 1 * 2048 + cc.val = t.val / 4 % 6 * 2048 + cc.val; rw [e1]

/-- Contents of the output buffer that are the block of the product on the part inside the array have the cut the
    write-back is stated to write. -/
theorem out_cut (c : Dev nD) (A : Arrs c) (t : Fin cfg1.N) (Y : S512x2048.Idx → EReal)
    (hY : ∀ (r : Fin 512) (cc : Fin 2048) (hr : t.val / 24 * 512 + r.val < 4096) (hc : t.val / 4 % 6 * 2048 + cc.val < 11008),
      Y (ix2 r cc) = product c A (ix2 ⟨t.val / 24 * 512 + r.val, hr⟩ ⟨t.val / 4 % 6 * 2048 + cc.val, hc⟩)) :
    win1_3.cut (grid1.coords t) Y = win1_3.cut (grid1.coords t) ((dat1 c A).after (3 : Fin 4) t) := by
  dsimp only [dat1]; rw [Window.cut_fill]
  funext y
  obtain ⟨e0, e1, x0, x1⟩ := idxOut t
  have hN : t.val < 192 := t.isLt
  have h0 : (y (0 : Fin 2)).val < win1_3.xsize (grid1.coords t) 0 := (y (0 : Fin 2)).isLt
  have h1 : (y (1 : Fin 2)).val < win1_3.xsize (grid1.coords t) 1 := (y (1 : Fin 2)).isLt
  rw [x0] at h0; rw [x1] at h1
  have h1' : (y (1 : Fin 2)).val < 2048 := by split at h1 <;> omega
  have hr : t.val / 24 * 512 + (y (0 : Fin 2)).val < 4096 := by omega
  have hc : t.val / 4 % 6 * 2048 + (y (1 : Fin 2)).val < 11008 := by split at h1 <;> omega
  have exi : win1_3.xinj (grid1.coords t) y = ix2 (⟨(y (0 : Fin 2)).val, h0⟩ : Fin 512) (⟨(y (1 : Fin 2)).val, h1'⟩ : Fin 2048) :=
    funext fun a => Fin.ext (by match a with | ⟨0, _⟩ => rfl | ⟨1, _⟩ => rfl)
  have eemb : (win1_3.rect t).emb y = ix2 (⟨t.val / 24 * 512 + (y (0 : Fin 2)).val, hr⟩ : Fin 4096) (⟨t.val / 4 % 6 * 2048 + (y (1 : Fin 2)).val, hc⟩ : Fin 11008) :=
    funext fun a => Fin.ext (by
      rw [Window.rect_emb_val]
      match a with
      | ⟨0, _⟩ => show win1_3.index t 0 * 512 + (y (0 : Fin 2)).val = t.val / 24 * 512 + (y (0 : Fin 2)).val; rw [e0]
      | ⟨1, _⟩ => show win1_3.index t 1 * 2048 + (y (1 : Fin 2)).val = t.val / 4 % 6 * 2048 + (y (1 : Fin 2)).val; rw [e1])
  show Y (win1_3.xinj (grid1.coords t) y) = product c A ((win1_3.rect t).emb y)
  rw [exi, eemb]
  exact hY _ _ hr hc

/-! ## The obligation at a point -/

/-- The output window is idle exactly where the body does not store to it, -/
theorem idle_of_not (i : grid1.Coords) (h : ¬ k1_cond2 i = 1#1) : idle1 3 i = true := by
  show (!(k1_cond2 i == 1#1)) = true
  rw [Bool.not_eq_true', beq_eq_false_iff_ne]; exact h
theorem idle_of (i : grid1.Coords) (h : k1_cond2 i = 1#1) : idle1 3 i = false := by
  show (!(k1_cond2 i == 1#1)) = false
  rw [h]; rfl

/-- and is not written back there. -/
theorem flush_of_not (t : Fin cfg1.N) (h : t.val % 4 ≠ 3) : (win1 3).flush t = false := by
  cases hf : (win1 3).flush t
  · rfl
  · exact absurd ((flush1_3 t).mp hf) h

end Body

open Body

/-- The body obligation of the matrix-product call at the extended reals. -/
theorem body1 (c : Dev nD) (A : Arrs c) :
    BodyObligationLoose (dat1 c A) (defs₀ (F := Ideal)) Variants.none () Set.univ := fun t => by
  rw [bigSep_W1, bigSep_W1]
  simp only
  rw [show (dat1 c A).owesAt () t.succ = (dat1 c A).owesAt () t.castSucc from rfl,
    show (dat1 c A).Φ t.castSucc = inv c A t.castSucc from rfl, show (dat1 c A).Φ t.succ = inv c A t.succ from rfl]
  unfold inv
  have hN : t.val < 192 := t.isLt
  by_cases hk0 : t.val % 4 = 0
  · -- k = 0: the accumulator is reset, then gains the first stretch

    have hc0 : resetCond (grid1.coords t) := (resetCond_iff t).mpr hk0
    have hc1 : ¬ k1_cond2 (grid1.coords t) = 1#1 := fun h => by have := (cond2_iff t).mp h; omega
    simp only [idle_of_not _ hc1, flush_of_not t (by omega)]
    iintro ⟨⟨Hos, %f, Hs, %hacc⟩, Ho, ⟨%d0, H0⟩, ⟨%d1, H1⟩, ⟨%d2, H2⟩, ⟨%d3, H3⟩⟩
    rw [before_0 c A t d0, before_1 c A t d1, before_2 c A t d2]
    have h0 : ∀ (r : Fin 512) (kk : Fin 1024), ((dat1 c A).after (0 : Fin 4) t : S512x1024.Idx → EReal) (ix2 r kk)
        = lhsAt c A (t.val / 24 * 512 + r.val) (t.val % 4 * 1024 + kk.val) := lhs_apply c A t
    have h1 : ∀ (kk : Fin 1024) (cc : Fin 2048), t.val / 4 % 6 * 2048 + cc.val < 11008 →
        (win1_1.fill (grid1.coords t) d1 ((win1_1.blk t).view.read (Elt Ideal) (A 1)) : S1024x2048.Idx → EReal) (ix2 kk cc)
          = rhsAt c A (t.val % 4 * 1024 + kk.val) (t.val / 4 % 6 * 2048 + cc.val) := fun kk cc hc => rhs_apply c A t d1 kk cc hc
    iapply (run_first c (grid1.coords t) (stage1_0 (cfg1.slots t 0)) (hstage1_0 ((cfg1.slots t 0).cast nbuf1_0))
      (stage1_1 (cfg1.slots t 1)) (hstage1_1 ((cfg1.slots t 1).cast nbuf1_1)) (stage1_2 (cfg1.slots t 2)) (hstage1_2 ((cfg1.slots t 2).cast nbuf1_2))
      (stage1_3 (cfg1.slots t 3)) (hstage1_3 ((cfg1.slots t 3).cast nbuf1_3)) (Memref.whole cc1_scratch0) (Memref.isWhole_whole _) hc0 hc1
      ((dat1 c A).after (0 : Fin 4) t) (win1_1.fill (grid1.coords t) d1 ((win1_1.blk t).view.read (Elt Ideal) (A 1)))
      (win1_2.fill (grid1.coords t) d2 ((win1_2.blk t).view.read (Elt Ideal) (A 2))) ((dat1 c A).before (3 : Fin 4) t d3) f Set.univ _)
    isplitl [H0]; · iexact H0
    isplitl [H1]; · iexact H1
    isplitl [H2]; · iexact H2
    isplitl [H3]; · iexact H3
    isplitl [Hs]
    · rw [owns_whole]; iexact Hs
    iintro ⟨H0, H1, H2, H3, Hs'⟩
    ihave Hs := (Entails.of_eq (owns_whole (c : Thread nD τ) cc1_scratch0 fullShare _)) $$ Hs'
    isplitl [Hos Hs]
    · isplitl [Hos]; · iexact Hos
      iexists _
      isplitl [Hs]; · iexact Hs
      ipureintro
      exact GemmMath.acc_first c A t.val hk0 _ _ h0 h1
    isplitl [Ho]; · iexact Ho
    isplitl [H0]; · iexact H0
    isplitl [H1]
    · iexists d1
      change _ ⊢ owns (c : Thread nD τ) (stage1_1 (cfg1.slots t 1)) fullShare (win1_1.fill (grid1.coords t) d1 (win1_1.cut (grid1.coords t) ((dat1 c A).after (1 : Fin 4) t)))
      dsimp only [dat1]; rw [Window.cut_fill]; try iexact H1
    isplitl [H2]
    · iexists d2
      change _ ⊢ owns (c : Thread nD τ) (stage1_2 (cfg1.slots t 2)) fullShare (win1_2.fill (grid1.coords t) d2 (win1_2.cut (grid1.coords t) ((dat1 c A).after (2 : Fin 4) t)))
      dsimp only [dat1]; rw [Window.cut_fill]; try iexact H2
    · iexists d3; iexact H3

  by_cases hk3 : t.val % 4 = 3
  · -- k = 3: the last stretch, and the output block is the accumulator plus the bias row

    have hc0 : ¬ resetCond (grid1.coords t) := fun h => hk0 ((resetCond_iff t).mp h)
    have hc1 : k1_cond2 (grid1.coords t) = 1#1 := (cond2_iff t).mpr hk3
    simp only [idle_of _ hc1]
    iintro ⟨⟨Hos, %f, Hs, %hacc⟩, Ho, ⟨%d0, H0⟩, ⟨%d1, H1⟩, ⟨%d2, H2⟩, ⟨%d3, H3⟩⟩
    rw [before_0 c A t d0, before_1 c A t d1, before_2 c A t d2]
    have h0 : ∀ (r : Fin 512) (kk : Fin 1024), ((dat1 c A).after (0 : Fin 4) t : S512x1024.Idx → EReal) (ix2 r kk)
        = lhsAt c A (t.val / 24 * 512 + r.val) (t.val % 4 * 1024 + kk.val) := lhs_apply c A t
    have h1 : ∀ (kk : Fin 1024) (cc : Fin 2048), t.val / 4 % 6 * 2048 + cc.val < 11008 →
        (win1_1.fill (grid1.coords t) d1 ((win1_1.blk t).view.read (Elt Ideal) (A 1)) : S1024x2048.Idx → EReal) (ix2 kk cc)
          = rhsAt c A (t.val % 4 * 1024 + kk.val) (t.val / 4 % 6 * 2048 + cc.val) := fun kk cc hc => rhs_apply c A t d1 kk cc hc
    iapply (run_last c (grid1.coords t) (stage1_0 (cfg1.slots t 0)) (hstage1_0 ((cfg1.slots t 0).cast nbuf1_0))
      (stage1_1 (cfg1.slots t 1)) (hstage1_1 ((cfg1.slots t 1).cast nbuf1_1)) (stage1_2 (cfg1.slots t 2)) (hstage1_2 ((cfg1.slots t 2).cast nbuf1_2))
      (stage1_3 (cfg1.slots t 3)) (hstage1_3 ((cfg1.slots t 3).cast nbuf1_3)) (Memref.whole cc1_scratch0) (Memref.isWhole_whole _) hc0 hc1
      ((dat1 c A).after (0 : Fin 4) t) (win1_1.fill (grid1.coords t) d1 ((win1_1.blk t).view.read (Elt Ideal) (A 1)))
      (win1_2.fill (grid1.coords t) d2 ((win1_2.blk t).view.read (Elt Ideal) (A 2))) ((dat1 c A).before (3 : Fin 4) t d3) f Set.univ _)
    isplitl [H0]; · iexact H0
    isplitl [H1]; · iexact H1
    isplitl [H2]; · iexact H2
    isplitl [H3]; · iexact H3
    isplitl [Hs]
    · rw [owns_whole]; iexact Hs
    iintro ⟨H0, H1, H2, H3, Hs'⟩
    ihave Hs := (Entails.of_eq (owns_whole (c : Thread nD τ) cc1_scratch0 fullShare _)) $$ Hs'
    isplitl [Hos Hs]
    · isplitl [Hos]; · iexact Hos
      iexists _
      isplitl [Hs]; · iexact Hs
      ipureintro
      exact accOK_of_reset c A (show (t.val + 1) % 4 = 0 by omega) _
    isplitl [Ho]; · iexact Ho
    isplitl [H0]; · iexact H0
    isplitl [H1]
    · iexists d1
      change _ ⊢ owns (c : Thread nD τ) (stage1_1 (cfg1.slots t 1)) fullShare (win1_1.fill (grid1.coords t) d1 (win1_1.cut (grid1.coords t) ((dat1 c A).after (1 : Fin 4) t)))
      dsimp only [dat1]; rw [Window.cut_fill]; try iexact H1
    isplitl [H2]
    · iexists d2
      change _ ⊢ owns (c : Thread nD τ) (stage1_2 (cfg1.slots t 2)) fullShare (win1_2.fill (grid1.coords t) d2 (win1_2.cut (grid1.coords t) ((dat1 c A).after (2 : Fin 4) t)))
      dsimp only [dat1]; rw [Window.cut_fill]; try iexact H2
    · have h2 : ∀ (cc : Fin 2048) (hc : t.val / 4 % 6 * 2048 + cc.val < 11008),
          (win1_2.fill (grid1.coords t) d2 ((win1_2.blk t).view.read (Elt Ideal) (A 2)) : S1x2048.Idx → EReal) (ix2 (0 : Fin 1) cc)
            = A 2 (ix2 (0 : Fin 1) ⟨t.val / 4 % 6 * 2048 + cc.val, hc⟩) := fun cc hc => bias_apply c A t d2 cc hc
      iexists _
      change _ ⊢ owns (c : Thread nD τ) (stage1_3 (cfg1.slots t 3)) fullShare (win1_3.fill (grid1.coords t) _ (win1_3.cut (grid1.coords t) ((dat1 c A).after (3 : Fin 4) t)))
      rw [win1_3.fill_congr_cut (grid1.coords t) (out_cut c A t _ (fun r cc hr hc => GemmMath.out_block c A t.val hk3 f hacc _ _ _ h0 h1 h2 r cc hr hc))]
      try iexact H3

  · -- k = 1, 2: one more stretch

    have hc0 : ¬ resetCond (grid1.coords t) := fun h => hk0 ((resetCond_iff t).mp h)
    have hc1 : ¬ k1_cond2 (grid1.coords t) = 1#1 := fun h => hk3 ((cond2_iff t).mp h)
    simp only [idle_of_not _ hc1, flush_of_not t hk3]
    iintro ⟨⟨Hos, %f, Hs, %hacc⟩, Ho, ⟨%d0, H0⟩, ⟨%d1, H1⟩, ⟨%d2, H2⟩, ⟨%d3, H3⟩⟩
    rw [before_0 c A t d0, before_1 c A t d1, before_2 c A t d2]
    have h0 : ∀ (r : Fin 512) (kk : Fin 1024), ((dat1 c A).after (0 : Fin 4) t : S512x1024.Idx → EReal) (ix2 r kk)
        = lhsAt c A (t.val / 24 * 512 + r.val) (t.val % 4 * 1024 + kk.val) := lhs_apply c A t
    have h1 : ∀ (kk : Fin 1024) (cc : Fin 2048), t.val / 4 % 6 * 2048 + cc.val < 11008 →
        (win1_1.fill (grid1.coords t) d1 ((win1_1.blk t).view.read (Elt Ideal) (A 1)) : S1024x2048.Idx → EReal) (ix2 kk cc)
          = rhsAt c A (t.val % 4 * 1024 + kk.val) (t.val / 4 % 6 * 2048 + cc.val) := fun kk cc hc => rhs_apply c A t d1 kk cc hc
    iapply (run_mid c (grid1.coords t) (stage1_0 (cfg1.slots t 0)) (hstage1_0 ((cfg1.slots t 0).cast nbuf1_0))
      (stage1_1 (cfg1.slots t 1)) (hstage1_1 ((cfg1.slots t 1).cast nbuf1_1)) (stage1_2 (cfg1.slots t 2)) (hstage1_2 ((cfg1.slots t 2).cast nbuf1_2))
      (stage1_3 (cfg1.slots t 3)) (hstage1_3 ((cfg1.slots t 3).cast nbuf1_3)) (Memref.whole cc1_scratch0) (Memref.isWhole_whole _) hc0 hc1
      ((dat1 c A).after (0 : Fin 4) t) (win1_1.fill (grid1.coords t) d1 ((win1_1.blk t).view.read (Elt Ideal) (A 1)))
      (win1_2.fill (grid1.coords t) d2 ((win1_2.blk t).view.read (Elt Ideal) (A 2))) ((dat1 c A).before (3 : Fin 4) t d3) f Set.univ _)
    isplitl [H0]; · iexact H0
    isplitl [H1]; · iexact H1
    isplitl [H2]; · iexact H2
    isplitl [H3]; · iexact H3
    isplitl [Hs]
    · rw [owns_whole]; iexact Hs
    iintro ⟨H0, H1, H2, H3, Hs'⟩
    ihave Hs := (Entails.of_eq (owns_whole (c : Thread nD τ) cc1_scratch0 fullShare _)) $$ Hs'
    isplitl [Hos Hs]
    · isplitl [Hos]; · iexact Hos
      iexists _
      isplitl [Hs]; · iexact Hs
      ipureintro
      exact GemmMath.acc_next c A t.val hk0 f hacc _ _ h0 h1
    isplitl [Ho]; · iexact Ho
    isplitl [H0]; · iexact H0
    isplitl [H1]
    · iexists d1
      change _ ⊢ owns (c : Thread nD τ) (stage1_1 (cfg1.slots t 1)) fullShare (win1_1.fill (grid1.coords t) d1 (win1_1.cut (grid1.coords t) ((dat1 c A).after (1 : Fin 4) t)))
      dsimp only [dat1]; rw [Window.cut_fill]; try iexact H1
    isplitl [H2]
    · iexists d2
      change _ ⊢ owns (c : Thread nD τ) (stage1_2 (cfg1.slots t 2)) fullShare (win1_2.fill (grid1.coords t) d2 (win1_2.cut (grid1.coords t) ((dat1 c A).after (2 : Fin 4) t)))
      dsimp only [dat1]; rw [Window.cut_fill]; try iexact H2
    · iexists d3; iexact H3

end Cert.KernelIdeal.Gemm

end
-- ==== Proof.GemmCover.lean ====
/-
  After the matrix-product call the result array holds `Spec.gemmArr` of the left factor, the right factor and the bias
  row everywhere: the 48 output blocks written at the points with k = 3, the last column block cut at column 11008,
  cover the 4096 × 11008 array, and block (i, j) is written with the block of that one function.
-/
import proofs.«425978_j1005022347685_2_alg».proof.Proof.GemmData
import Idealize.ShloMosaic.Lib.Pipeline.Value

noncomputable section

namespace Cert.KernelIdeal.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

/-- The block index of the result window at point number t = (i·6 + j)·4 + k is (i, j) = (t / 24, t / 4 mod 6); a block
    is 512 rows high, and 2048 columns wide but for the last column block (j = 5), cut to the 768 columns inside the
    array. -/
theorem idx1 : ∀ t : Fin grid1.N, win1_3.index t 0 = t.val / 24 ∧ win1_3.index t 1 = t.val / 4 % 6
    ∧ win1_3.xsize (grid1.coords t) 0 = 512 ∧ win1_3.xsize (grid1.coords t) 1 = (if t.val / 4 % 6 = 5 then 768 else 2048) := by
  decide +kernel

/-- What point t writes back is the block of `product`: the leading part of a buffer filled with it. -/
theorem flushed1 (c : Dev nD) (A : Arrs c) (t : Fin cfg1.N) :
    (dat1 c A).flushed 3 t = ((cfg1.win 3).blk t).view.read (Elt Ideal) (product c A) := by
  show win1_3.cut (grid1.coords t) ((dat1 c A).after 3 t) = _
  dsimp only [dat1]
  exact win1_3.cut_fill _ _ _

/-- An index whose row lies in row block t / 24 and whose column in column block t / 4 mod 6 is in point t's block
    (a block's coordinate is index × size + coordinate inside the block; the last column block ends with the array). -/
theorem mem_blk1 (t : Fin cfg1.N) (i : S4096x11008.Idx)
    (h0 : t.val / 24 * 512 ≤ (i 0 : Nat) ∧ (i 0 : Nat) < t.val / 24 * 512 + 512)
    (h1 : t.val / 4 % 6 * 2048 ≤ (i 1 : Nat) ∧ (i 1 : Nat) < t.val / 4 % 6 * 2048 + 2048) :
    i ∈ ((cfg1.win 3).blk t).view.set := by
  show i ∈ ((View.whole main_v3).slice (win1_3.rect t)).set
  rw [View.set_slice_whole, Rect.mem_set_unit]
  obtain ⟨e0, e1, e2, e3⟩ := idx1 t
  have hi1 : (i 1 : Nat) < 11008 := (i 1).isLt
  intro a
  match a with
  | ⟨0, _⟩ =>
    change win1_3.index t 0 * 512 ≤ (i 0 : Nat) ∧ (i 0 : Nat) < win1_3.index t 0 * 512 + win1_3.xsize (grid1.coords t) 0
    rw [e0, e2]; exact h0
  | ⟨1, _⟩ =>
    change win1_3.index t 1 * 2048 ≤ (i 1 : Nat) ∧ (i 1 : Nat) < win1_3.index t 1 * 2048 + win1_3.xsize (grid1.coords t) 1
    rw [e1, e3]; split <;> omega

/-- Every index (r, n) of the result array lies in the block of the point (r / 512, n / 2048, 3), the last of the four
    contraction steps of its block, and that point writes its block back. -/
theorem cover1 (i : S4096x11008.Idx) :
    ∃ t : Fin cfg1.N, (cfg1.win 3).flush t = true ∧ i ∈ ((cfg1.win 3).blk t).view.set := by
  have hi0 : (i 0 : Nat) < 4096 := (i 0).isLt
  have hi1 : (i 1 : Nat) < 11008 := (i 1).isLt
  have hN : ((i 0 : Nat) / 512 * 6 + (i 1 : Nat) / 2048) * 4 + 3 < cfg1.N := by
    show _ < 192
    omega
  refine ⟨⟨((i 0 : Nat) / 512 * 6 + (i 1 : Nat) / 2048) * 4 + 3, hN⟩, (flush1_3 _).mpr ?_, mem_blk1 _ i ?_ ?_⟩
  · show (((i 0 : Nat) / 512 * 6 + (i 1 : Nat) / 2048) * 4 + 3) % 4 = 3
    omega
  · show (((i 0 : Nat) / 512 * 6 + (i 1 : Nat) / 2048) * 4 + 3) / 24 * 512 ≤ (i 0 : Nat)
      ∧ (i 0 : Nat) < (((i 0 : Nat) / 512 * 6 + (i 1 : Nat) / 2048) * 4 + 3) / 24 * 512 + 512
    omega
  · show (((i 0 : Nat) / 512 * 6 + (i 1 : Nat) / 2048) * 4 + 3) / 4 % 6 * 2048 ≤ (i 1 : Nat)
      ∧ (i 1 : Nat) < (((i 0 : Nat) / 512 * 6 + (i 1 : Nat) / 2048) * 4 + 3) / 4 % 6 * 2048 + 2048
    omega

/-- The result array after the last write-back is `product`, whatever it held at entry. -/
theorem final1 (c : Dev nD) (A : Arrs c) : (dat1 c A).arrAt 3 cfg1.N = product c A :=
  (dat1 c A).arrAt_eq_of_cover 3 (product c A) (fun t _ => flushed1 c A t) cover1

/-- The three input arrays are never written: after the call they hold what they held at entry. -/
theorem final1_in0 (c : Dev nD) (A : Arrs c) : (dat1 c A).arrAt 0 cfg1.N = A 0 :=
  (dat1 c A).arrAt_in (0 : Fin 4) rfl _
theorem final1_in1 (c : Dev nD) (A : Arrs c) : (dat1 c A).arrAt 1 cfg1.N = A 1 :=
  (dat1 c A).arrAt_in (1 : Fin 4) rfl _
theorem final1_in2 (c : Dev nD) (A : Arrs c) : (dat1 c A).arrAt 2 cfg1.N = A 2 :=
  (dat1 c A).arrAt_in (2 : Fin 4) rfl _

end Cert.KernelIdeal.Gemm

end
-- ==== Proof.RunIdeal.lean ====
/-
  The whole program over the extended reals, run: the dequantisation call, the two host operations (the activations
  rounded to bf16, the bias as one row), then the matrix-product call.  Every weakly fair execution from a memory with
  zero counters terminates, faults nowhere, leaves the five arguments as they were, and leaves the result array holding
  `Spec.gemmArr` of the rounded activations, the dequantised weights and the bias row.

  The run is the composition of three segments over one thread state per core: every unscoped buffer whole at a
  valuation, beside the core owing nothing.  The valuations are the launch contents; then the weight array replaced by
  `Dequant.weights`; then the two host operations' results; then the result array replaced by `Gemm.product`.  Each
  call's record splits its four arrays out of the unscoped buffers at entry and puts them back at exit at what the
  pipeline leaves (inputs as entered, the output at the one whole-array function); the scoped buffers no window stages
  ride in the call's invariant (for the matrix product: the accumulator scratch, about which nothing is claimed at the
  first point and at the end).
-/
import proofs.«425978_j1005022347685_2_alg».proof.Proof.DequantBody
import proofs.«425978_j1005022347685_2_alg».proof.Proof.DequantCover
import proofs.«425978_j1005022347685_2_alg».proof.Proof.GemmBody
import proofs.«425978_j1005022347685_2_alg».proof.Proof.GemmCover
import proofs.«425978_j1005022347685_2_alg».proof.Proof.Gen.KernelIdeal.Regions
import Idealize.ShloMosaic.Lib.Pipeline.Regions
import Idealize.ShloMosaic.Lib.Pipeline.RegionsLoop
import Idealize.ShloMosaic.Lib.Pipeline.Frame

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose Seg HostSeg RegionSeg)

local notation "𝕄" => MT nD τ sig Unit (Elt Ideal) ℕ (UR sig nD τ) ℕ

/-! ## The run, given the two calls' records

The composition of the three segments at any float values and any user algebra: as the frame of the several-call
program is stated, with the result array's buffer read off the last valuation beside the arguments'. -/

section Cond

variable {F : FTy → Type} [FloatOps F]

-- the launch theorem's implicit arguments are found by unifying its conclusion with this one, which takes unfolding
-- plain definitions in a metavariable's type
set_option backward.isDefEq.respectTransparency.types false in
/-- For any contents `outs` the calls leave and any proof data: GIVEN, per call, a segment record entered from the
    thread state before it and left at the one after it, every weakly fair execution of @main from memory `m` with zero
    counters terminates, and every final memory holds the result array at the last valuation and each argument as
    launched; any post `Q` those facts give follows. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ) (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    {Q : PUnit × MemSt nD τ sig (Elt F) → Prop}
    (hQ : ∀ s : MemSt nD τ sig (Elt F), (∀ c : Dev nD,
      s.mem ((c.tc : Thread nD τ).loc main_v3) = V3 m outs c main_v3
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) → Q (⟨⟩, s)) :
    θ_run defs (onTc (τ := τ) (main (F := F))) ⟨m, fun _ => 0, ρ⟩ Q := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, hpost0 c, hpre1 c, (hpost1 c).trans (sep_mono .rfl (hE2 c))⟩)
    (hinit := ?_)
    (QY := fun c s => s.mem ((c.tc : Thread nD τ).loc main_v3) = V3 m outs c main_v3
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := hQ)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c),
        (h (Proc.devRef .tc main_arg4) (Finset.mem_filter.mpr ⟨StableHlo.devRef_mem_tcRefs main_arg4, by decide⟩)).trans (V3_main_arg4 m outs c)⟩
    · iexact HSI

end Cond

/-! ## The two calls at the extended reals -/

variable (m : (ℓ : Loc nD τ sig) → Buf (Elt Ideal) ℓ) (ρ : Dev nD → PrngReg)

/-- The dequantisation call is entered with the launch contents of its four arrays. -/
def arrs0 (c : Dev nD) : Dequant.Arrs (F := Ideal) c :=
  fun w => m ((cfg0.win w).arr.view.loc (c : Thread nD τ))

/-- The matrix-product call is entered with: the activations rounded to bf16; the dequantised weights; the bias as one
    row; the result array as launched. -/
def arrs1 (c : Dev nD) : Gemm.Arrs c := fun w => match w with
  | ⟨0, _⟩ => (truncf .bf16 (m ((c : Thread nD τ).loc main_arg0) : FVec Ideal S4096x4096 .f32) bitsLt_bf16_f32 : FVec Ideal S4096x4096 .bf16)
  | ⟨1, _⟩ => Dequant.weights c (arrs0 m c)
  | ⟨2, _⟩ => (shapeCast S1x11008 (m ((c : Thread nD τ).loc main_arg4) : FVec Ideal S11008 .f32) shapeCasts_S11008_S1x11008 : FVec Ideal S1x11008 .f32)
  | ⟨3, _⟩ => m ((c : Thread nD τ).loc main_v3)

/-- What the two calls leave in the buffers they write: the weight array holds `Dequant.weights` of the launch
    contents, the result array `Gemm.product` of the matrix-product call's entry arrays (any other buffer: as launched,
    which nothing reads). -/
def outs : Outs (F := Ideal) := fun _ r c =>
  if h : r = main_v0 then h ▸ Dequant.weights c (arrs0 m c)
  else if h : r = main_v3 then h ▸ Gemm.product c (arrs1 m c)
  else m ((c : Thread nD τ).loc r)

theorem outs_v0 (J : ℕ) (c : Dev nD) : outs m J main_v0 c = Dequant.weights c (arrs0 m c) := by
  unfold outs; rw [dif_pos rfl]

theorem outs_v3 (J : ℕ) (c : Dev nD) : outs m J main_v3 c = Gemm.product c (arrs1 m c) := by
  unfold outs; rw [dif_neg (by decide), dif_pos rfl]

/-- After the dequantisation call the weight array's buffer holds the dequantised weights. -/
theorem V1_v0 (c : Dev nD) : V1 m (outs m) c main_v0 = Dequant.weights c (arrs0 m c) := by
  show Function.update (V0 m c) (Proc.devRef .tc main_v0) (outs m 1 main_v0 c) (Proc.devRef .tc main_v0) = _
  rw [Function.update_self]; exact outs_v0 m 1 c

/-- After the matrix-product call the result array's buffer holds the product. -/
theorem V3_v3 (c : Dev nD) : V3 m (outs m) c main_v3 = Gemm.product c (arrs1 m c) := by
  show Function.update (V2 m (outs m) c) (Proc.devRef .tc main_v3) (outs m 3 main_v3 c) (Proc.devRef .tc main_v3) = _
  rw [Function.update_self]; exact outs_v3 m 3 c

/-- The matrix-product call's entry arrays are what the buffers behind its windows hold after the host operations. -/
theorem arrs1_eq (c : Dev nD) : ∀ w : Fin cfg1.W, arrs1 m c w = V2 m (outs m) c (Pipeline.arrRef spec1 w)
  | ⟨0, _⟩ => by
      show _ = StableHlo.after hostOps1 (V1 m (outs m) c) (Proc.devRef .tc main_v1)
      after_results
      rw [V1_of m (outs m) c main_arg0 (by decide)]; rfl
  | ⟨1, _⟩ => ((V2_of m (outs m) c main_v0 (by decide)).trans (V1_v0 m c)).symm
  | ⟨2, _⟩ => by
      show _ = StableHlo.after hostOps1 (V1 m (outs m) c) (Proc.devRef .tc main_v2)
      after_results
      rw [V1_of m (outs m) c main_arg4 (by decide)]; rfl
  | ⟨3, _⟩ => ((V2_of m (outs m) c main_v3 (by decide)).trans (V1_of m (outs m) c main_v3 (by decide))).symm

/-! ## The proof data family and the thread state -/

/-- Both calls' proof data, each at its call's entry arrays: a literal match, so that the pinned configuration at a
    numeral reduces to the printed one. -/
def pdats : (p : Fin 2) → (c : Dev nD) → Dat τ (Elt Ideal) Unit ℕ (UR sig nD τ) ℕ (Pipeline.pin (pcfgs (F := Ideal)) adm p) c
  | ⟨0, _⟩ => fun c => Dequant.dat0 c (arrs0 m c)
  | ⟨1, _⟩ => fun c => Gemm.dat1 c (arrs1 m c)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core owing nothing. -/
abbrev Eo (_ : Fin 3) (c : Dev nD) : sProp 𝕄 := iprop(∃ W, owes (c : Thread nD τ) (0 : CellTallies nD τ sig Unit) W)

/-- At the dequantisation call's exit each of its arrays holds what the next valuation says: the inputs as entered,
    the weight array the dequantised weights. -/
theorem hF0 (c : Dev nD) : ∀ w : Fin cfg0.W, (pdats m 0 c).arrAt w cfg0.N = V1 m (outs m) c (Pipeline.arrRef spec0 w)
  | ⟨0, _⟩ => ((Dequant.dat0 c (arrs0 m c)).arrAt_in 0 rfl _).trans (V1_of m (outs m) c main_arg1 (by decide)).symm
  | ⟨1, _⟩ => ((Dequant.dat0 c (arrs0 m c)).arrAt_in 1 rfl _).trans (V1_of m (outs m) c main_arg2 (by decide)).symm
  | ⟨2, _⟩ => ((Dequant.dat0 c (arrs0 m c)).arrAt_in 2 rfl _).trans (V1_of m (outs m) c main_arg3 (by decide)).symm
  | ⟨3, _⟩ => (Dequant.final0 c (arrs0 m c)).trans (V1_v0 m c).symm

/-- Every other unscoped buffer is as entered. -/
theorem hrest0 (c : Dev nD) : ∀ b, b ∉ Finset.univ.image (Pipeline.arrRef spec0) → V1 m (outs m) c b = V0 m c b :=
  fun b hb => V1_of m (outs m) c b fun hmem => hb (by
    rw [List.mem_singleton.mp hmem]; exact Finset.mem_image.mpr ⟨3, Finset.mem_univ _, rfl⟩)

/-- At the matrix-product call's exit each of its arrays holds what the last valuation says: the inputs as entered,
    the result array the product. -/
theorem hF1 (c : Dev nD) : ∀ w : Fin cfg1.W, (pdats m 1 c).arrAt w cfg1.N = V3 m (outs m) c (Pipeline.arrRef spec1 w)
  | ⟨0, _⟩ => ((Gemm.dat1 c (arrs1 m c)).arrAt_in 0 rfl _).trans ((arrs1_eq m c 0).trans (V3_of m (outs m) c main_v1 (by decide)).symm)
  | ⟨1, _⟩ => ((Gemm.dat1 c (arrs1 m c)).arrAt_in 1 rfl _).trans ((arrs1_eq m c 1).trans (V3_of m (outs m) c main_v0 (by decide)).symm)
  | ⟨2, _⟩ => ((Gemm.dat1 c (arrs1 m c)).arrAt_in 2 rfl _).trans ((arrs1_eq m c 2).trans (V3_of m (outs m) c main_v2 (by decide)).symm)
  | ⟨3, _⟩ => (Gemm.final1 c (arrs1 m c)).trans (V3_v3 m c).symm

/-- Every other unscoped buffer is as entered. -/
theorem hrest1 (c : Dev nD) : ∀ b, b ∉ Finset.univ.image (Pipeline.arrRef spec1) → V3 m (outs m) c b = V2 m (outs m) c b :=
  fun b hb => V3_of m (outs m) c b fun hmem => hb (by
    rw [List.mem_singleton.mp hmem]; exact Finset.mem_image.mpr ⟨3, Finset.mem_univ _, rfl⟩)

/-! ## The calls as segments -/

-- a library lemma stated over the pinned configuration unifies with the printed one only when unification may unfold
-- plain definitions in a metavariable's type
set_option backward.isDefEq.respectTransparency.types false in
/-- THE DEQUANTISATION CALL over the thread state: entered from every unscoped buffer at the launch contents, left with
    the weight array at `Dequant.weights`.  Its four arrays are split out of the unscoped buffers and put back at the
    exit contents; the other unscoped buffers bypass it; its invariant is the scoped buffers no window stages; nothing
    owed; no semaphore of its own. -/
def reg0 : RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Dequant.body0 c (arrs0 m c)
  hwaits := Pipeline.hwaits_of_owed_zero _ _ _ _ L lv 0 fun _ _ => rfl
  pre c := iprop(StableHlo.held (c : Thread nD τ) (Pipeline.ucRefs τ sig) (V0 m c) ∗ Eo 0 c)
  post c := iprop(StableHlo.held (c : Thread nD τ) (Pipeline.ucRefs τ sig) (V1 m (outs m) c) ∗ Eo 1 c)
  X _ := iprop(emp)
  Y _ := iprop(emp)
  Z c := Pipeline.unscopedRest (Ix := Unit) (Name := ℕ) (U := UR sig nD τ) (Lvl := ℕ) spec0 c (fun b => V0 m c b)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (fun b => V0 m c b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt Ideal) spec0 c from rfl]
    iintro ⟨-, -, Hr⟩
    iexact Hr
  hout c := by
    rw [Pipeline.ownSems0_none, show (pdats m 0 c).Φ (Fin.last _) = Pipeline.scopedRest (Ix := Unit) (Name := ℕ) (U := UR sig nD τ) (Lvl := ℕ) (Val := Elt Ideal) spec0 c from rfl]
    iintro Hr
    isplitr; · iempintro
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (fun b => V0 m c b) (fun b => V1 m (outs m) c b) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- as above
set_option backward.isDefEq.respectTransparency.types false in
/-- THE MATRIX-PRODUCT CALL over the thread state: entered from every unscoped buffer as the host operations left them,
    left with the result array at `Gemm.product`.  Its invariant at the first point is made of the scoped buffers no
    window of its stages: the other call's eight staging buffers, and the accumulator scratch at whatever it holds
    (nothing is claimed of it before a point that resets it); at the last point it gives them back. -/
def reg1 : RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Gemm.body1 c (arrs1 m c)
  hwaits := Pipeline.hwaits_of_owed_zero _ _ _ _ L lv 1 fun _ _ => rfl
  pre c := iprop(StableHlo.held (c : Thread nD τ) (Pipeline.ucRefs τ sig) (V2 m (outs m) c) ∗ Eo 1 c)
  post c := iprop(StableHlo.held (c : Thread nD τ) (Pipeline.ucRefs τ sig) (V3 m (outs m) c) ∗ Eo 2 c)
  X _ := iprop(emp)
  Y _ := iprop(emp)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (fun b => V2 m (outs m) c b) (arrs1_eq m c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Gemm.inv c (arrs1 m c) 0 from rfl,
      show Pipeline.scopedRest (Pipeline.pin (pcfgs (F := Ideal)) adm 1).spec c
        = Pipeline.scopedRest (Ix := Unit) (Name := ℕ) (U := UR sig nD τ) (Lvl := ℕ) (Val := Elt Ideal) spec1 c from rfl,
      scopedRest1_eq]
    unfold Gemm.inv Gemm.otherStaging
    iintro ⟨-, -, H1, H2, H3, H4, H5, H6, H7, H8, ⟨%f, Hs⟩⟩
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexists f
    isplitl [Hs]; · iexact Hs
    ipureintro
    exact Gemm.accOK_of_reset c (arrs1 m c) (by decide) f
  hout c := by
    rw [Pipeline.ownSems0_none, show (pdats m 1 c).Φ (Fin.last _) = Gemm.inv c (arrs1 m c) (Fin.last cfg1.N) from rfl,
      show Pipeline.scopedRest (Pipeline.pin (pcfgs (F := Ideal)) adm 1).spec c
        = Pipeline.scopedRest (Ix := Unit) (Name := ℕ) (U := UR sig nD τ) (Lvl := ℕ) (Val := Elt Ideal) spec1 c from rfl,
      scopedRest1_eq]
    unfold Gemm.inv Gemm.otherStaging
    iintro ⟨⟨H1, H2, H3, H4, H5, H6, H7, H8⟩, ⟨%f, Hs, -⟩⟩
    isplitr; · iempintro
    isplitr; · iempintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists f; iexact Hs
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (fun b => V2 m (outs m) c b) (fun b => V3 m (outs m) c b) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

-- as above
set_option backward.isDefEq.respectTransparency.types false in
/-- The run of the idealized kernel program, with its result named. -/
theorem run_ideal :
    θ_run (defs (F := Ideal)) (onTc (τ := τ) (main (F := Ideal))) ⟨m, fun _ => 0, ρ⟩ (fun r => ∀ c : Dev nD,
      r.2.mem ((c.tc : Thread nD τ).loc main_v3) = Gemm.product c (arrs1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine run_cond (F := Ideal) emb₁ () 𝒱₀ L lv (fun _ _ => rfl) m ρ (outs m) (pdats m) (fun _ => 0) (fun _ => iprop(emp))
    (initOf (Pipeline.cells cfgs cellOf_inj) (Pipeline.launchToks cfgs cellOf_inj)) ?_ Eo ?_ (fun _ => .rfl)
    (reg0 m) (fun _ => .rfl) (fun _ => .rfl) (reg1 m) (fun _ => .rfl) (fun _ => .rfl) ?_
  · -- the launch element is the pipeline library's, whole
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- each core starts owing nothing
    refine Pipeline.initEach L lv fun c => ?_
    iintro ⟨⟨-, HO, -, -, -⟩, -⟩
    imodintro
    iexists ∅; iexact HO
  · -- the result array's buffer at the last valuation is the product
    intro s h c
    obtain ⟨h3, ha⟩ := h c
    exact ⟨h3.trans (V3_v3 m c), ha⟩

end Cert.KernelIdeal.Run

end
-- ==== Proof.RefValue.lean ====
/-
  The reference's result is the layer's function of the arguments, where the zero points are 4-bit numbers.

  The reference subtracts the zero point from the 4-bit field as 32-bit integers and converts the difference; the kernel
  converts both and subtracts as reals.  With both numbers between 0 and 15 the 32-bit difference does not wrap
  (`Spec.toInt_sub_of_small`), so the two agree, and everything after — the scale, the product with the activations
  summed over k, the bias — is the same expression on both sides.
-/
import proofs.«425978_j1005022347685_2_alg».proof.Proof.Spec
import proofs.«425978_j1005022347685_2_alg».proof.Proof.Gen.ReferenceIdeal.Run
import proofs.«425978_j1005022347685_2_alg».proof.Proof.Gen.ReferenceIdeal.Read
import proofs.«425978_j1005022347685_2_alg».proof.Proof.Gen.Pre_finite_inputs
import Idealize.ShloMosaic.Lib.ValueIdx
import Idealize.ShloMosaic.Lib.ReduceAll
import Idealize.ShloMosaic.Lib.StableHlo.Predicate

noncomputable section

namespace Cert.ReferenceIdeal.RefValue

open Idealize.ShloMosaic Idealize.ShloMosaic.ValueIdx
open Cert.ReferenceIdeal Cert.ReferenceIdeal.Gen

/-- The layer as ONE function of the five arguments over the extended reals: the matrix product of the activations with
    the dequantised weights, plus the bias. -/
def layer (X : S4096x4096.Idx → EReal) (Q : S4096x1376.Idx → BitVec 32) (Z : S32x11008.Idx → BitVec 32)
    (S : S32x11008.Idx → EReal) (b : S11008.Idx → EReal) : S4096x11008.Idx → EReal :=
  Cert.Spec.gemmArr X (Cert.Spec.deqArr (F := Ideal) Q Z S) (fun j => b (ix1 ⟨(j 1).val, (j 1).isLt⟩))

/-- The rank-0 shape has one index. -/
local instance : Subsingleton Cert.Pre_finite_inputs.S_.Idx := ⟨fun _ _ => funext fun d => d.elim0⟩

/-- The precondition's last two conjuncts, read back: every zero point is a number from 0 to 15. -/
theorem zeros_range [Cert.Pre_finite_inputs.Facts] (X : S4096x4096.Idx → EReal) (Q : S4096x1376.Idx → BitVec 32)
    (Z : S32x11008.Idx → BitVec 32) (S : S32x11008.Idx → EReal) (b : S11008.Idx → EReal)
    (h : Cert.Pre_finite_inputs.fn (F := Ideal) X Q Z S b = fun _ => 1#1) :
    ∀ i, 0 ≤ (Z i).toInt ∧ (Z i).toInt < 16 := by
  -- the predicate's one element is a conjunction; its last two conjuncts are the conjunctions over all (g, n) of
  -- "Z(g, n) ≥ 0" and "Z(g, n) < 16" as signed 32-bit comparisons, read at the index i
  intro i
  have h0 := congrFun h ValueIdx.ix0
  dsimp only [Cert.Pre_finite_inputs.fn, Cert.Pre_finite_inputs.fn_part1] at h0
  obtain ⟨h17, h20⟩ := IntOp.andi_eq_one.1 h0
  obtain ⟨-, h16⟩ := IntOp.andi_eq_one.1 h17
  have ge := Host.reduce_andi_all _ _ _ _ _ h16 i
  have lt := Host.reduce_andi_all _ _ _ _ _ h20 i
  have ge' : IntOp.cmpi .sge (Z i) 0#32 = 1#1 := ge
  have lt' : IntOp.cmpi .slt (Z i) 16#32 = 1#1 := lt
  unfold IntOp.cmpi at ge' lt'
  rw [StableHlo.Predicate.ofBool_eq_one_iff] at ge' lt'
  simp only [BitVec.sle, BitVec.slt, decide_eq_true_eq] at ge' lt'
  have e0 : (0#32 : BitVec 32).toInt = 0 := by decide
  have e16 : (16#32 : BitVec 32).toInt = 16 := by decide
  rw [e0] at ge'
  rw [e16] at lt'
  exact ⟨ge', lt'⟩

/-- The reference's field: the word shifted right by 4·p (a shift below the word's width, so the plain arithmetic shift) and
    masked to four bits. -/
theorem field_eq (q : BitVec 32) (p : Nat) (hp : p < 8) :
    IntOp.andi (IntOp.shrsi .host q (IntOp.muli (BitVec.ofNat 32 p) 4#32)) 15#32 = Cert.Spec.nibble q p := by
  have e : IntOp.muli (BitVec.ofNat 32 p) 4#32 = BitVec.ofNat 32 (4 * p) := by
    unfold IntOp.muli
    apply BitVec.eq_of_toNat_eq
    simp only [BitVec.toNat_mul, BitVec.toNat_ofNat]
    omega
  have hlt : (BitVec.ofNat 32 (4 * p)).toNat < 32 := by
    simp only [BitVec.toNat_ofNat]; omega
  rw [e]
  unfold IntOp.shrsi IntOp.andi Cert.Spec.nibble
  rw [if_pos hlt]

/-- One weight: the converted 32-bit difference times the scale is the spec's (converted field − converted zero point) · scale. -/
theorem elt_eq (q z : BitVec 32) (s : Ideal .f32) (p : Nat) (hp : p < 8) (hz : 0 ≤ z.toInt ∧ z.toInt < 16) :
    FloatOps.mulf (F := Ideal) (FloatOps.sitofp (F := Ideal) .f32 (IntOp.subi (IntOp.andi (IntOp.shrsi .host q (IntOp.muli (BitVec.ofNat 32 p) 4#32)) 15#32) z)) s
      = Cert.Spec.deqElt (F := Ideal) q z s p := by
  rw [field_eq q p hp]
  unfold Cert.Spec.deqElt IntOp.subi
  show (((((Cert.Spec.nibble q p) - z).toInt : ℝ) : EReal)) * s = ((((Cert.Spec.nibble q p).toInt : ℝ) : EReal) - ((z.toInt : ℝ) : EReal)) * s
  rw [Cert.Spec.toInt_sub_of_small _ _ (Cert.Spec.nibble_range q p) hz, Int.cast_sub, EReal.coe_sub]

theorem weight_eq (Q : S4096x1376.Idx → BitVec 32) (Z : S32x11008.Idx → BitVec 32)
    (S : S32x11008.Idx → EReal) (hz : ∀ i, 0 ≤ (Z i).toInt ∧ (Z i).toInt < 16) (j : S4096x11008.Idx) :
    Read.val_main_v17 (F := Ideal) Q Z S j = Cert.Spec.deqArr (F := Ideal) Q Z S j := by
  have h0 : (j 0).val < 4096 := (j 0).isLt
  have h1 : (j 1).val < 11008 := (j 1).isLt
  have eQ : Read.idx_main_v4 (Read.idx_main_v5 (Read.idx_main_v10 j))
      = ix2 (Cert.Spec.row j) ⟨(Cert.Spec.col j).val / 8, Cert.Spec.col_div8_lt _⟩ :=
    funext fun a => Fin.ext (by
      match a with
      | ⟨0, _⟩ => show ((j 0).val * 11008 + (j 1).val) / 11008 = (j 0).val; omega
      | ⟨1, _⟩ => show ((j 0).val * 11008 + (j 1).val) / 8 % 1376 = (j 1).val / 8; omega)
  have eZ : Read.idx_main_v11 (Read.idx_main_v12 j)
      = ix2 ⟨(Cert.Spec.row j).val / 128, Cert.Spec.row_div128_lt _⟩ (Cert.Spec.col j) :=
    funext fun a => Fin.ext (by
      match a with
      | ⟨0, _⟩ => show ((j 0).val * 11008 + (j 1).val) / 1409024 = (j 0).val / 128; omega
      | ⟨1, _⟩ => show ((j 0).val * 11008 + (j 1).val) % 11008 = (j 1).val; omega)
  have eS : Read.idx_main_v13 (Read.idx_main_v14 j)
      = ix2 ⟨(Cert.Spec.row j).val / 128, Cert.Spec.row_div128_lt _⟩ (Cert.Spec.col j) := eZ
  have eP : ((Read.idx_main_v3 (Read.idx_main_v6 (Read.idx_main_v10 j))) 0).val = (Cert.Spec.col j).val % 8 := by
    show ((j 0).val * 11008 + (j 1).val) % 8 = (j 1).val % 8; omega
  rw [Read.val_main_v17_apply, Read.val_main_v16_apply, Read.val_main_v15_apply, Read.val_main_v10_apply,
    Read.val_main_v9_apply, Read.val_main_v7_apply, Read.val_main_v5_apply, Read.val_main_v4_apply,
    Read.val_main_v6_apply, Read.val_main_v3_apply, Read.val_main_v2_apply, Read.val_main_v0_apply,
    Read.val_main_v1_apply, Read.val_main_c_apply, Read.val_main_v8_apply, Read.val_main_c_0_apply,
    Read.val_main_v12_apply, Read.val_main_v11_apply, Read.val_main_v14_apply, Read.val_main_v13_apply,
    eQ, eZ, eS, eP]
  exact elt_eq _ _ _ _ (Nat.mod_lt _ (by decide)) (hz _)

theorem ref_eq (X : S4096x4096.Idx → EReal) (Q : S4096x1376.Idx → BitVec 32) (Z : S32x11008.Idx → BitVec 32)
    (S : S32x11008.Idx → EReal) (b : S11008.Idx → EReal) (hz : ∀ i, 0 ≤ (Z i).toInt ∧ (Z i).toInt < 16) :
    Read.val_main_v21 (F := Ideal) X Q Z S b = layer X Q Z S b := by
  funext i
  rw [Read.val_main_v21_apply, Read.val_main_v18_apply, Read.val_main_v20_apply, Read.val_main_v19_apply]
  unfold layer Cert.Spec.gemmArr
  have eL : ∀ k : Fin 4096, Read.lidx_main_v18 i k = ix2 (Cert.Spec.row i) k := fun k =>
    funext fun a => Fin.ext (by match a with | ⟨0, _⟩ => rfl | ⟨1, _⟩ => rfl)
  have eR : ∀ k : Fin 4096, Read.ridx_main_v18 i k = ix2 k (Cert.Spec.col i) := fun k =>
    funext fun a => Fin.ext (by match a with | ⟨0, _⟩ => rfl | ⟨1, _⟩ => rfl)
  have eB : Read.idx_main_v19 (Read.idx_main_v20 i) = ix1 ⟨((ix2 (0 : Fin 1) (Cert.Spec.col i)) 1).val, ((ix2 (0 : Fin 1) (Cert.Spec.col i)) 1).isLt⟩ :=
    funext fun a => Fin.ext (by match a with | ⟨0, _⟩ => rfl)
  simp only [eL, eR, weight_eq Q Z S hz, eB]
  rfl

end Cert.ReferenceIdeal.RefValue

end
-- ==== Proof.KernelLayer.lean ====
/-
  The kernel program's named result is the layer's function of the five arguments: rounding the activations to bf16 is
  the identity on the extended reals, and the bias as one row, read at (0, n), is its entry n.
-/
import proofs.«425978_j1005022347685_2_alg».proof.Proof.Spec
import proofs.«425978_j1005022347685_2_alg».proof.Proof.RefValue
import proofs.«425978_j1005022347685_2_alg».proof.Proof.Gen.KernelIdeal
import Idealize.ShloMosaic.Lib.ValueIdx
import Idealize.ShloMosaic.Lib.ValueLayout
import Idealize.ShloMosaic.Lib.Pipeline.Value

noncomputable section

namespace Cert.KernelIdeal.Layer

open Idealize.ShloMosaic Idealize.ShloMosaic.ValueIdx
open Cert.KernelIdeal Cert.KernelIdeal.Gen

/-- The matrix product of the rounded activations with the dequantised weights, plus the bias row, is `layer`. -/
theorem product_eq_layer (X : S4096x4096.Idx → EReal) (Q : S4096x1376.Idx → BitVec 32) (Z : S32x11008.Idx → BitVec 32)
    (S : S32x11008.Idx → EReal) (b : S11008.Idx → EReal) :
    Cert.Spec.gemmArr (truncf .bf16 (X : FVec Ideal S4096x4096 .f32) bitsLt_bf16_f32 : FVec Ideal S4096x4096 .bf16)
        (Cert.Spec.deqArr (F := Ideal) Q Z S)
        (shapeCast S1x11008 (b : FVec Ideal S11008 .f32) shapeCasts_S11008_S1x11008 : FVec Ideal S1x11008 .f32)
      = Cert.ReferenceIdeal.RefValue.layer X Q Z S b := by
  funext i
  unfold Cert.ReferenceIdeal.RefValue.layer Cert.Spec.gemmArr
  -- rounding to bf16 is the identity on the extended reals, entry by entry
  have eX : (truncf .bf16 (X : FVec Ideal S4096x4096 .f32) bitsLt_bf16_f32 : FVec Ideal S4096x4096 .bf16) = X := rfl
  rw [eX]
  -- the one-row reshape keeps the row-major position: entry (0, n) of the row is entry n of the vector
  congr 1
  exact shapeCast_a_1a_apply _ _ _ _

end Cert.KernelIdeal.Layer

end
-- ==== Proof.lean ====
/-
  An int4 weight-only-quantised linear layer, as two TPU calls, against its jnp reference: equal over the extended reals.

  The kernel first dequantises the packed weights once — weight (r, c) = (4-bit field (c mod 8) of word (r, c div 8) −
  zero point of group (r div 128), column c) · scale of that group and column — into a bf16 array, then multiplies the
  activations, rounded to bf16, with it in 512 × 2048 blocks, the contraction taken in four stretches of 1024 into an
  accumulator, and adds the bias.  The reference dequantises the same way, except that it subtracts the zero point from
  the field as 32-bit integers before converting, and takes one matrix product.  Over the extended reals rounding is the
  identity and a sum may be regrouped freely, so the only difference is that integer subtraction, which agrees with the
  real one as long as it does not wrap: the zero points are 4-bit numbers (0 ≤ zeros < 16, the precondition's added
  conjunct), the field is between 0 and 15, and their difference is between −15 and 15.

  11008 columns are not a multiple of the block widths, so the last column blocks overhang their arrays and the staging
  words past the arrays' ends are named by nothing.  Dequantisation is elementwise and a column of a matrix product
  depends on the same column of the right factor only, so over the extended reals every column inside the arrays is
  determined, which is all the result holds.  At word level the matrix unit's term may depend on its whole right operand,
  so there the result of the second call is not named; the frame does not need it.
-/
import proofs.«425978_j1005022347685_2_alg».proof.Defs
import proofs.«425978_j1005022347685_2_alg».proof.Proof.Gen.Kernel
import proofs.«425978_j1005022347685_2_alg».proof.Proof.Gen.KernelIdeal
import proofs.«425978_j1005022347685_2_alg».proof.Proof.Gen.ReferenceIdeal
import proofs.«425978_j1005022347685_2_alg».proof.Proof.Gen.Pre_finite_inputs
import proofs.«425978_j1005022347685_2_alg».proof.Proof.Gen.ReferenceIdeal.Run
import proofs.«425978_j1005022347685_2_alg».proof.Proof.Gen.ReferenceIdeal.Read
import proofs.«425978_j1005022347685_2_alg».proof.Proof.RunBits
import proofs.«425978_j1005022347685_2_alg».proof.Proof.RunIdeal
import proofs.«425978_j1005022347685_2_alg».proof.Proof.RefValue
import proofs.«425978_j1005022347685_2_alg».proof.Proof.KernelLayer

noncomputable section

namespace Cert.Proof

open Idealize.ShloMosaic Idealize.SL.Sem

/-- The printed kernel program runs and leaves its arguments unchanged. -/
theorem frame_kernel : Cert.frame_Kernel := fun m ρ _ => Cert.Kernel.Run.frame_bits m ρ

/-- So does its idealization: the run with the result named, the result dropped. -/
theorem frame_kernelIdeal : Cert.frame_KernelIdeal := fun m ρ _ =>
  (θ_run Cert.KernelIdeal.defs _ _).mono (fun _ h c => (h c).2) (Cert.KernelIdeal.Run.run_ideal m ρ)

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the layer's function of the five arguments in their result. -/
theorem algebraic : Cert.algebraic_KernelIdeal_ReferenceIdeal := by
  intro m ρ m' ρ' hpre hagree
  refine ⟨fun c => Cert.ReferenceIdeal.RefValue.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Run.run_ideal m ρ)
    exact Cert.KernelIdeal.Layer.product_eq_layer _ _ _ _ _
  · refine (θ_run Cert.ReferenceIdeal.defs _ _).mono (fun r h c => ⟨?_, (h c).2⟩)
      (Cert.ReferenceIdeal.Value.run (F := Ideal) m' ρ')
    rw [(h c).1, Cert.ReferenceIdeal.Read.val_main_v21_eq (F := Ideal), (hagree c).1, (hagree c).2.1, (hagree c).2.2.1,
      (hagree c).2.2.2.1, (hagree c).2.2.2.2]
    exact Cert.ReferenceIdeal.RefValue.ref_eq _ _ _ _ _
      (Cert.ReferenceIdeal.RefValue.zeros_range _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
